-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x128x192x192 : Shape := ⟨5, ![4, 1, 128, 192, 192]⟩
abbrev S_ : Shape := ⟨0, ![]⟩

class Facts : Prop where
  bcast_S_S4x1x128x192x192 : S_.BroadcastsInDim S4x1x128x192x192 (![] : Fin 0 → Fin S4x1x128x192x192.rank)
  reducesTo_S4x1x128x192x192_S_d0_1_2_3_4 : S4x1x128x192x192.ReducesTo [0, 1, 2, 3, 4] S_
  h_S_ : 0 < S_.numel

variable [Facts]

def fn {F : FTy → Type} [FloatOps F] (main_arg0 : FVec F S4x1x128x192x192 .f32) (main_arg1 : FVec F S4x1x128x192x192 .f32) : IVec S_ 1 :=
  let main_v0 : FVec F S4x1x128x192x192 .f32 := Host.absf main_arg0
  let main_cst : FVec F S_ .f32 := constant S_ .f32 0x7F800000#32
  let main_v1 : FVec F S4x1x128x192x192 .f32 := broadcastInDim S4x1x128x192x192 ![] bcast_S_S4x1x128x192x192 main_cst
  let main_v2 : IVec S4x1x128x192x192 1 := cmpf .olt main_v0 main_v1
  let main_c : IVec S_ 1 := constantI S_ 1 1#1
  let main_v3 : IVec S_ 1 := (fun x v => Host.reduce IntOp.andi x v reducesTo_S4x1x128x192x192_S_d0_1_2_3_4 h_S_) main_v2 main_c
  let main_v4 : FVec F S4x1x128x192x192 .f32 := Host.absf main_arg1
  let main_cst_0 : FVec F S_ .f32 := constant S_ .f32 0x7F800000#32
  let main_v5 : FVec F S4x1x128x192x192 .f32 := broadcastInDim S4x1x128x192x192 ![] bcast_S_S4x1x128x192x192 main_cst_0
  let main_v6 : IVec S4x1x128x192x192 1 := cmpf .olt main_v4 main_v5
  let main_c_1 : IVec S_ 1 := constantI S_ 1 1#1
  let main_v7 : IVec S_ 1 := (fun x v => Host.reduce IntOp.andi x v reducesTo_S4x1x128x192x192_S_d0_1_2_3_4 h_S_) main_v6 main_c_1
  let main_v8 : IVec S_ 1 := andi main_v3 main_v7
  main_v8
-- ==== Kernel.lean ====
abbrev S4x1x128x192x192 : Shape := ⟨5, ![4, 1, 128, 192, 192]⟩
abbrev S4x8x128 : Shape := ⟨3, ![4, 8, 128]⟩
abbrev S1x1x16x192x192 : Shape := ⟨5, ![1, 1, 16, 192, 192]⟩
abbrev S1x1x1x192x192 : Shape := ⟨5, ![1, 1, 1, 192, 192]⟩
abbrev S1x8x128 : Shape := ⟨3, ![1, 8, 128]⟩
abbrev S8x128 : Shape := ⟨2, ![8, 128]⟩
abbrev S16x192x192 : Shape := ⟨3, ![16, 192, 192]⟩
abbrev S1x192x192 : Shape := ⟨3, ![1, 192, 192]⟩
abbrev S1x16x192x192 : Shape := ⟨4, ![1, 16, 192, 192]⟩
abbrev S1 : Shape := ⟨1, ![1]⟩
abbrev S1x1x1x1 : Shape := ⟨4, ![1, 1, 1, 1]⟩
abbrev S16x191x192 : Shape := ⟨3, ![16, 191, 192]⟩
abbrev S1x16x191x192 : Shape := ⟨4, ![1, 16, 191, 192]⟩
abbrev S16x192x191 : Shape := ⟨3, ![16, 192, 191]⟩
abbrev S1x16x192x191 : Shape := ⟨4, ![1, 16, 192, 191]⟩
abbrev S16x191x191 : Shape := ⟨3, ![16, 191, 191]⟩
abbrev S1x16x191x191 : Shape := ⟨4, ![1, 16, 191, 191]⟩
abbrev S15x192x192 : Shape := ⟨3, ![15, 192, 192]⟩
abbrev S15x191x191 : Shape := ⟨3, ![15, 191, 191]⟩
abbrev S1x191x191 : Shape := ⟨3, ![1, 191, 191]⟩
abbrev S1x15x191x191 : Shape := ⟨4, ![1, 15, 191, 191]⟩
abbrev S1x1x191x191 : Shape := ⟨4, ![1, 1, 191, 191]⟩
abbrev S15x191x192 : Shape := ⟨3, ![15, 191, 192]⟩
abbrev S1x191x192 : Shape := ⟨3, ![1, 191, 192]⟩
abbrev S1x15x191x192 : Shape := ⟨4, ![1, 15, 191, 192]⟩
abbrev S1x1x191x192 : Shape := ⟨4, ![1, 1, 191, 192]⟩
abbrev S15x192x191 : Shape := ⟨3, ![15, 192, 191]⟩
abbrev S1x192x191 : Shape := ⟨3, ![1, 192, 191]⟩
abbrev S1x15x192x191 : Shape := ⟨4, ![1, 15, 192, 191]⟩
abbrev S1x1x192x191 : Shape := ⟨4, ![1, 1, 192, 191]⟩
abbrev S1x15x192x192 : Shape := ⟨4, ![1, 15, 192, 192]⟩
abbrev S1x1x192x192 : Shape := ⟨4, ![1, 1, 192, 192]⟩
abbrev S27 : Shape := ⟨1, ![27]⟩
abbrev S101 : Shape := ⟨1, ![101]⟩
abbrev S128 : Shape := ⟨1, ![128]⟩
abbrev S1x128 : Shape := ⟨2, ![1, 128]⟩
abbrev S1x1x128 : Shape := ⟨3, ![1, 1, 128]⟩
abbrev S4x1x27 : Shape := ⟨3, ![4, 1, 27]⟩
abbrev S4x27 : Shape := ⟨2, ![4, 27]⟩
abbrev S_ : Shape := ⟨0, ![]⟩

abbrev nBuf : Space → Nat
  | .hbm => 124
  | .vmem => 10
  | .smem => 0
  | _ => 0

abbrev bufTy : (tb : Table) → Fin (tcTables nBuf tb) → BufTy
  | .hbm, ⟨0, _⟩ => ⟨S4x1x128x192x192, .f32⟩
  | .hbm, ⟨1, _⟩ => ⟨S4x1x128x192x192, .f32⟩
  | .hbm, ⟨2, _⟩ => ⟨S4x8x128, .f32⟩
  | .hbm, ⟨3, _⟩ => ⟨S4x1x27, .f32⟩
  | .hbm, ⟨4, _⟩ => ⟨S4x27, .f32⟩
  | .hbm, ⟨5, _⟩ => ⟨S_, .f32⟩
  | .hbm, ⟨6, _⟩ => ⟨S27, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S_, .f32⟩
  | .hbm, ⟨79, _⟩ => ⟨S1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S1, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S1, .f32⟩
  | .hbm, ⟨102, _⟩ => ⟨S_, .f32⟩
  | .hbm, ⟨103, _⟩ => ⟨S1, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1, .f32⟩
  | .hbm, ⟨110, _⟩ => ⟨S_, .f32⟩
  | .hbm, ⟨111, _⟩ => ⟨S1, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S1x1x16x192x192, .f32⟩
  | .local _ .vmem, ⟨1, _⟩ => ⟨S1x1x16x192x192, .f32⟩
  | .local _ .vmem, ⟨2, _⟩ => ⟨S1x1x1x192x192, .f32⟩
  | .local _ .vmem, ⟨3, _⟩ => ⟨S1x1x1x192x192, .f32⟩
  | .local _ .vmem, ⟨4, _⟩ => ⟨S1x1x16x192x192, .f32⟩
  | .local _ .vmem, ⟨5, _⟩ => ⟨S1x1x16x192x192, .f32⟩
  | .local _ .vmem, ⟨6, _⟩ => ⟨S1x1x1x192x192, .f32⟩
  | .local _ .vmem, ⟨7, _⟩ => ⟨S1x1x1x192x192, .f32⟩
  | .local _ .vmem, ⟨8, _⟩ => ⟨S1x8x128, .f32⟩
  | .local _ .vmem, ⟨9, _⟩ => ⟨S1x8x128, .f32⟩
  | _, _ => ⟨S4x1x128x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_9 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_11 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_12 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_13 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_14 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_15 : Ref sig .tc := ⟨.hbm, 117, rfl⟩
abbrev main_v99 : Ref sig .tc := ⟨.hbm, 118, rfl⟩
abbrev main_cst_16 : Ref sig .tc := ⟨.hbm, 119, rfl⟩
abbrev main_v100 : Ref sig .tc := ⟨.hbm, 120, rfl⟩
abbrev main_cst_17 : Ref sig .tc := ⟨.hbm, 121, rfl⟩
abbrev main_v101 : Ref sig .tc := ⟨.hbm, 122, rfl⟩
abbrev main_v102 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c127_i32 : BitVec 32 := 127#32
  let v2 : BitVec 32 := Scalar.minsi v1 c127_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c127_i32 : BitVec 32 := 127#32
  let v2 : BitVec 32 := Scalar.minsi v1 c127_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1x16x192x192_S1x1x16x192x192_0_0_0_0_0 : ∀ a, (![0, 0, 0, 0, 0] : Fin 5 → Nat) a + S1x1x16x192x192.size a ≤ S1x1x16x192x192.size a
  h_S1x1x16x192x192 : 0 < S1x1x16x192x192.numel
  shapeCasts_S1x1x16x192x192_S16x192x192 : S1x1x16x192x192.ShapeCasts S16x192x192
  inb_S1x1x1x192x192_S1x1x1x192x192_0_0_0_0_0 : ∀ a, (![0, 0, 0, 0, 0] : Fin 5 → Nat) a + S1x1x1x192x192.size a ≤ S1x1x1x192x192.size a
  h_S1x1x1x192x192 : 0 < S1x1x1x192x192.numel
  shapeCasts_S1x1x1x192x192_S1x192x192 : S1x1x1x192x192.ShapeCasts S1x192x192
  shapeCasts_S16x192x192_S1x16x192x192 : S16x192x192.ShapeCasts S1x16x192x192
  reduces_S1x16x192x192_S1 : S1x16x192x192.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S16x192x192_o0_1_0_S16x191x192 : S16x192x192.Slices ![0, 1, 0] S16x191x192
  slices_S16x192x192_o0_0_0_S16x191x192 : S16x192x192.Slices ![0, 0, 0] S16x191x192
  shapeCasts_S16x191x192_S1x16x191x192 : S16x191x192.ShapeCasts S1x16x191x192
  reduces_S1x16x191x192_S1 : S1x16x191x192.Reduces [1, 2, 3] S1
  slices_S16x192x192_o0_0_1_S16x192x191 : S16x192x192.Slices ![0, 0, 1] S16x192x191
  slices_S16x192x192_o0_0_0_S16x192x191 : S16x192x192.Slices ![0, 0, 0] S16x192x191
  shapeCasts_S16x192x191_S1x16x192x191 : S16x192x191.ShapeCasts S1x16x192x191
  reduces_S1x16x192x191_S1 : S1x16x192x191.Reduces [1, 2, 3] S1
  slices_S16x192x192_o0_1_1_S16x191x191 : S16x192x192.Slices ![0, 1, 1] S16x191x191
  slices_S16x192x192_o0_0_0_S16x191x191 : S16x192x192.Slices ![0, 0, 0] S16x191x191
  shapeCasts_S16x191x191_S1x16x191x191 : S16x191x191.ShapeCasts S1x16x191x191
  reduces_S1x16x191x191_S1 : S1x16x191x191.Reduces [1, 2, 3] S1
  slices_S16x192x192_o0_1_0_S16x191x191 : S16x192x192.Slices ![0, 1, 0] S16x191x191
  slices_S16x192x192_o0_0_1_S16x191x191 : S16x192x192.Slices ![0, 0, 1] S16x191x191
  slices_S16x192x192_o1_0_0_S15x192x192 : S16x192x192.Slices ![1, 0, 0] S15x192x192
  slices_S16x192x192_o0_0_0_S15x192x192 : S16x192x192.Slices ![0, 0, 0] S15x192x192
  slices_S16x192x192_o15_0_0_S1x192x192 : S16x192x192.Slices ![15, 0, 0] S1x192x192
  slices_S15x192x192_o0_0_0_S15x191x191 : S15x192x192.Slices ![0, 0, 0] S15x191x191
  slices_S15x192x192_o0_1_1_S15x191x191 : S15x192x192.Slices ![0, 1, 1] S15x191x191
  slices_S1x192x192_o0_0_0_S1x191x191 : S1x192x192.Slices ![0, 0, 0] S1x191x191
  slices_S1x192x192_o0_1_1_S1x191x191 : S1x192x192.Slices ![0, 1, 1] S1x191x191
  shapeCasts_S15x191x191_S1x15x191x191 : S15x191x191.ShapeCasts S1x15x191x191
  reduces_S1x15x191x191_S1 : S1x15x191x191.Reduces [1, 2, 3] S1
  shapeCasts_S1x191x191_S1x1x191x191 : S1x191x191.ShapeCasts S1x1x191x191
  reduces_S1x1x191x191_S1 : S1x1x191x191.Reduces [1, 2, 3] S1
  slices_S15x192x192_o0_0_0_S15x191x192 : S15x192x192.Slices ![0, 0, 0] S15x191x192
  slices_S15x192x192_o0_1_0_S15x191x192 : S15x192x192.Slices ![0, 1, 0] S15x191x192
  slices_S1x192x192_o0_0_0_S1x191x192 : S1x192x192.Slices ![0, 0, 0] S1x191x192
  slices_S1x192x192_o0_1_0_S1x191x192 : S1x192x192.Slices ![0, 1, 0] S1x191x192
  shapeCasts_S15x191x192_S1x15x191x192 : S15x191x192.ShapeCasts S1x15x191x192
  reduces_S1x15x191x192_S1 : S1x15x191x192.Reduces [1, 2, 3] S1
  shapeCasts_S1x191x192_S1x1x191x192 : S1x191x192.ShapeCasts S1x1x191x192
  reduces_S1x1x191x192_S1 : S1x1x191x192.Reduces [1, 2, 3] S1
  slices_S15x192x192_o0_0_1_S15x191x191 : S15x192x192.Slices ![0, 0, 1] S15x191x191
  slices_S15x192x192_o0_1_0_S15x191x191 : S15x192x192.Slices ![0, 1, 0] S15x191x191
  slices_S1x192x192_o0_0_1_S1x191x191 : S1x192x192.Slices ![0, 0, 1] S1x191x191
  slices_S1x192x192_o0_1_0_S1x191x191 : S1x192x192.Slices ![0, 1, 0] S1x191x191
  slices_S15x192x192_o0_0_0_S15x192x191 : S15x192x192.Slices ![0, 0, 0] S15x192x191
  slices_S15x192x192_o0_0_1_S15x192x191 : S15x192x192.Slices ![0, 0, 1] S15x192x191
  slices_S1x192x192_o0_0_0_S1x192x191 : S1x192x192.Slices ![0, 0, 0] S1x192x191
  slices_S1x192x192_o0_0_1_S1x192x191 : S1x192x192.Slices ![0, 0, 1] S1x192x191
  shapeCasts_S15x192x191_S1x15x192x191 : S15x192x191.ShapeCasts S1x15x192x191
  reduces_S1x15x192x191_S1 : S1x15x192x191.Reduces [1, 2, 3] S1
  shapeCasts_S1x192x191_S1x1x192x191 : S1x192x191.ShapeCasts S1x1x192x191
  reduces_S1x1x192x191_S1 : S1x1x192x191.Reduces [1, 2, 3] S1
  shapeCasts_S15x192x192_S1x15x192x192 : S15x192x192.ShapeCasts S1x15x192x192
  reduces_S1x15x192x192_S1 : S1x15x192x192.Reduces [1, 2, 3] S1
  shapeCasts_S1x192x192_S1x1x192x192 : S1x192x192.ShapeCasts S1x1x192x192
  reduces_S1x1x192x192_S1 : S1x1x192x192.Reduces [1, 2, 3] S1
  concatenates_S1_S1_S1_S1_S1_S1_S1_S1_S1_S1_S1_S1_S1_S1_S1_S1_S1_S1_S1_S1_S1_S1_S1_S1_S1_S1_S1_S27_d0 : Shape.Concatenates [S1, S1, S1, S1, S1, S1, S1, S1, S1, S1, S1, S1, S1, S1, S1, S1, S1, S1, S1, S1, S1, S1, S1, S1, S1, S1, S1] S27 0
  concatenates_S27_S101_S128_d0 : Shape.Concatenates [S27, S101] S128 0
  shapeCasts_S128_S1x128 : S128.ShapeCasts S1x128
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  slices_S4x8x128_S4x1x27_0_0_0 : S4x8x128.Slices ![0, 0, 0] S4x1x27
  shapeCasts_S4x1x27_S4x27 : S4x1x27.ShapeCasts S4x27
  reducesTo_S4x27_S27_d0 : S4x27.ReducesTo [0] S27
  h_S_ : 0 < S_.numel
  slices_S27_S1_0 : S27.Slices ![0] S1
  shapeCasts_S1_S_ : S1.ShapeCasts S_
  slices_S27_S1_1 : S27.Slices ![1] S1
  slices_S27_S1_2 : S27.Slices ![2] S1
  slices_S27_S1_3 : S27.Slices ![3] S1
  slices_S27_S1_4 : S27.Slices ![4] S1
  slices_S27_S1_5 : S27.Slices ![5] S1
  slices_S27_S1_6 : S27.Slices ![6] S1
  slices_S27_S1_7 : S27.Slices ![7] S1
  slices_S27_S1_8 : S27.Slices ![8] S1
  slices_S27_S1_9 : S27.Slices ![9] S1
  slices_S27_S1_10 : S27.Slices ![10] S1
  slices_S27_S1_11 : S27.Slices ![11] S1
  slices_S27_S1_12 : S27.Slices ![12] S1
  slices_S27_S1_13 : S27.Slices ![13] S1
  slices_S27_S1_14 : S27.Slices ![14] S1
  slices_S27_S1_15 : S27.Slices ![15] S1
  slices_S27_S1_16 : S27.Slices ![16] S1
  slices_S27_S1_17 : S27.Slices ![17] S1
  slices_S27_S1_18 : S27.Slices ![18] S1
  slices_S27_S1_19 : S27.Slices ![19] S1
  slices_S27_S1_20 : S27.Slices ![20] S1
  slices_S27_S1_21 : S27.Slices ![21] S1
  slices_S27_S1_22 : S27.Slices ![22] S1
  slices_S27_S1_23 : S27.Slices ![23] S1
  slices_S27_S1_24 : S27.Slices ![24] S1
  slices_S27_S1_25 : S27.Slices ![25] S1
  slices_S27_S1_26 : S27.Slices ![26] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x192x192.size a ≤ S4x1x128x192x192.size a
  hwx0_0 : ∀ i : grid0.Coords, EltTy.bits .f32 = 32 ∨ (Rect.block (s := S4x1x128x192x192) S1x1x16x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x192x192.size a ≤ S4x1x128x192x192.size a
  hwx0_1 : ∀ i : grid0.Coords, EltTy.bits .f32 = 32 ∨ (Rect.block (s := S4x1x128x192x192) S1x1x1x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x192x192.size a ≤ S4x1x128x192x192.size a
  hwx0_2 : ∀ i : grid0.Coords, EltTy.bits .f32 = 32 ∨ (Rect.block (s := S4x1x128x192x192) S1x1x16x192x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x192x192.size a ≤ S4x1x128x192x192.size a
  hwx0_3 : ∀ i : grid0.Coords, EltTy.bits .f32 = 32 ∨ (Rect.block (s := S4x1x128x192x192) S1x1x1x192x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

abbrev win0_0 : Pipeline.Window sig grid0 :=
  Pipeline.Window.ofSpec (Memref.whole main_arg0) S1x1x16x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x16x192x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x1x192x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1x128x192x192 : Shape := ⟨5, ![4, 1, 128, 192, 192]⟩
abbrev S_ : Shape := ⟨0, ![]⟩
abbrev S4x1x127x192x192 : Shape := ⟨5, ![4, 1, 127, 192, 192]⟩
abbrev S4x1x128x191x192 : Shape := ⟨5, ![4, 1, 128, 191, 192]⟩
abbrev S4x1x128x192x191 : Shape := ⟨5, ![4, 1, 128, 192, 191]⟩
abbrev S4x1x127x191x192 : Shape := ⟨5, ![4, 1, 127, 191, 192]⟩
abbrev S4x1x128x191x191 : Shape := ⟨5, ![4, 1, 128, 191, 191]⟩
abbrev S4x1x127x192x191 : Shape := ⟨5, ![4, 1, 127, 192, 191]⟩
abbrev S4x1x127x191x191 : Shape := ⟨5, ![4, 1, 127, 191, 191]⟩

abbrev nBuf : Space → Nat
  | .hbm => 234
  | .vmem => 0
  | .smem => 0
  | _ => 0

abbrev hbmTy0_0 (i : Nat) : BufTy := match i % 128 with
  | 0 => ⟨S4x1x128x192x192, .f32⟩
  | 1 => ⟨S4x1x128x192x192, .f32⟩
  | 2 => ⟨S4x1x128x192x192, .f32⟩
  | 3 => ⟨S4x1x128x192x192, .f32⟩
  | 4 => ⟨S_, .f32⟩
  | 5 => ⟨S4x1x128x192x192, .f32⟩
  | 6 => ⟨S4x1x128x192x192, .f32⟩
  | 7 => ⟨S_, .f32⟩
  | 8 => ⟨S4x1x128x192x192, .f32⟩
  | 9 => ⟨S4x1x128x192x192, .f32⟩
  | 10 => ⟨S4x1x128x192x192, .f32⟩
  | 11 => ⟨S4x1x128x192x192, .f32⟩
  | 12 => ⟨S4x1x128x192x192, .f32⟩
  | 13 => ⟨S_, .f32⟩
  | 14 => ⟨S_, .f32⟩
  | 15 => ⟨S_, .f32⟩
  | 16 => ⟨S_, .f32⟩
  | 17 => ⟨S_, .f32⟩
  | 18 => ⟨S4x1x127x192x192, .f32⟩
  | 19 => ⟨S4x1x127x192x192, .f32⟩
  | 20 => ⟨S4x1x127x192x192, .f32⟩
  | 21 => ⟨S4x1x127x192x192, .f32⟩
  | 22 => ⟨S4x1x127x192x192, .f32⟩
  | 23 => ⟨S4x1x127x192x192, .f32⟩
  | 24 => ⟨S4x1x127x192x192, .f32⟩
  | 25 => ⟨S_, .f32⟩
  | 26 => ⟨S_, .f32⟩
  | 27 => ⟨S4x1x127x192x192, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4x1x128x191x192, .f32⟩
  | 36 => ⟨S4x1x128x191x192, .f32⟩
  | 37 => ⟨S4x1x128x191x192, .f32⟩
  | 38 => ⟨S4x1x128x191x192, .f32⟩
  | 39 => ⟨S4x1x128x191x192, .f32⟩
  | 40 => ⟨S4x1x128x191x192, .f32⟩
  | 41 => ⟨S4x1x128x191x192, .f32⟩
  | 42 => ⟨S_, .f32⟩
  | 43 => ⟨S_, .f32⟩
  | 44 => ⟨S4x1x128x191x192, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4x1x128x192x191, .f32⟩
  | 52 => ⟨S4x1x128x192x191, .f32⟩
  | 53 => ⟨S4x1x128x192x191, .f32⟩
  | 54 => ⟨S4x1x128x192x191, .f32⟩
  | 55 => ⟨S4x1x128x192x191, .f32⟩
  | 56 => ⟨S4x1x128x192x191, .f32⟩
  | 57 => ⟨S4x1x128x192x191, .f32⟩
  | 58 => ⟨S_, .f32⟩
  | 59 => ⟨S_, .f32⟩
  | 60 => ⟨S4x1x128x192x191, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S4x1x127x191x192, .f32⟩
  | 68 => ⟨S4x1x127x191x192, .f32⟩
  | 69 => ⟨S4x1x127x191x192, .f32⟩
  | 70 => ⟨S4x1x127x191x192, .f32⟩
  | 71 => ⟨S4x1x127x191x192, .f32⟩
  | 72 => ⟨S4x1x127x191x192, .f32⟩
  | 73 => ⟨S4x1x127x191x192, .f32⟩
  | 74 => ⟨S_, .f32⟩
  | 75 => ⟨S_, .f32⟩
  | 76 => ⟨S4x1x127x191x192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4x1x127x191x192, .f32⟩
  | 84 => ⟨S4x1x127x191x192, .f32⟩
  | 85 => ⟨S4x1x127x191x192, .f32⟩
  | 86 => ⟨S4x1x127x191x192, .f32⟩
  | 87 => ⟨S4x1x127x191x192, .f32⟩
  | 88 => ⟨S4x1x127x191x192, .f32⟩
  | 89 => ⟨S4x1x127x191x192, .f32⟩
  | 90 => ⟨S_, .f32⟩
  | 91 => ⟨S_, .f32⟩
  | 92 => ⟨S4x1x127x191x192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4x1x128x191x191, .f32⟩
  | 100 => ⟨S4x1x128x191x191, .f32⟩
  | 101 => ⟨S4x1x128x191x191, .f32⟩
  | 102 => ⟨S4x1x128x191x191, .f32⟩
  | 103 => ⟨S4x1x128x191x191, .f32⟩
  | 104 => ⟨S4x1x128x191x191, .f32⟩
  | 105 => ⟨S4x1x128x191x191, .f32⟩
  | 106 => ⟨S_, .f32⟩
  | 107 => ⟨S_, .f32⟩
  | 108 => ⟨S4x1x128x191x191, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4x1x128x191x191, .f32⟩
  | 116 => ⟨S4x1x128x191x191, .f32⟩
  | 117 => ⟨S4x1x128x191x191, .f32⟩
  | 118 => ⟨S4x1x128x191x191, .f32⟩
  | 119 => ⟨S4x1x128x191x191, .f32⟩
  | 120 => ⟨S4x1x128x191x191, .f32⟩
  | 121 => ⟨S4x1x128x191x191, .f32⟩
  | 122 => ⟨S_, .f32⟩
  | 123 => ⟨S_, .f32⟩
  | 124 => ⟨S4x1x128x191x191, .f32⟩
  | 125 => ⟨S_, .f32⟩
  | 126 => ⟨S_, .f32⟩
  | 127 => ⟨S_, .f32⟩
  | _ => ⟨S4x1x128x192x192, .f32⟩

abbrev hbmTy0_1 (i : Nat) : BufTy := match i % 128 with
  | 0 => ⟨S_, .f32⟩
  | 1 => ⟨S_, .f32⟩
  | 2 => ⟨S_, .f32⟩
  | 3 => ⟨S4x1x127x192x191, .f32⟩
  | 4 => ⟨S4x1x127x192x191, .f32⟩
  | 5 => ⟨S4x1x127x192x191, .f32⟩
  | 6 => ⟨S4x1x127x192x191, .f32⟩
  | 7 => ⟨S4x1x127x192x191, .f32⟩
  | 8 => ⟨S4x1x127x192x191, .f32⟩
  | 9 => ⟨S4x1x127x192x191, .f32⟩
  | 10 => ⟨S_, .f32⟩
  | 11 => ⟨S_, .f32⟩
  | 12 => ⟨S4x1x127x192x191, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S4x1x127x192x191, .f32⟩
  | 20 => ⟨S4x1x127x192x191, .f32⟩
  | 21 => ⟨S4x1x127x192x191, .f32⟩
  | 22 => ⟨S4x1x127x192x191, .f32⟩
  | 23 => ⟨S4x1x127x192x191, .f32⟩
  | 24 => ⟨S4x1x127x192x191, .f32⟩
  | 25 => ⟨S4x1x127x192x191, .f32⟩
  | 26 => ⟨S_, .f32⟩
  | 27 => ⟨S_, .f32⟩
  | 28 => ⟨S4x1x127x192x191, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4x1x127x191x191, .f32⟩
  | 36 => ⟨S4x1x127x191x191, .f32⟩
  | 37 => ⟨S4x1x127x191x191, .f32⟩
  | 38 => ⟨S4x1x127x191x191, .f32⟩
  | 39 => ⟨S4x1x127x191x191, .f32⟩
  | 40 => ⟨S4x1x127x191x191, .f32⟩
  | 41 => ⟨S4x1x127x191x191, .f32⟩
  | 42 => ⟨S_, .f32⟩
  | 43 => ⟨S_, .f32⟩
  | 44 => ⟨S4x1x127x191x191, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4x1x127x191x191, .f32⟩
  | 52 => ⟨S4x1x127x191x191, .f32⟩
  | 53 => ⟨S4x1x127x191x191, .f32⟩
  | 54 => ⟨S4x1x127x191x191, .f32⟩
  | 55 => ⟨S4x1x127x191x191, .f32⟩
  | 56 => ⟨S4x1x127x191x191, .f32⟩
  | 57 => ⟨S4x1x127x191x191, .f32⟩
  | 58 => ⟨S_, .f32⟩
  | 59 => ⟨S_, .f32⟩
  | 60 => ⟨S4x1x127x191x191, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S4x1x127x191x191, .f32⟩
  | 68 => ⟨S4x1x127x191x191, .f32⟩
  | 69 => ⟨S4x1x127x191x191, .f32⟩
  | 70 => ⟨S4x1x127x191x191, .f32⟩
  | 71 => ⟨S4x1x127x191x191, .f32⟩
  | 72 => ⟨S4x1x127x191x191, .f32⟩
  | 73 => ⟨S4x1x127x191x191, .f32⟩
  | 74 => ⟨S_, .f32⟩
  | 75 => ⟨S_, .f32⟩
  | 76 => ⟨S4x1x127x191x191, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4x1x127x191x191, .f32⟩
  | 84 => ⟨S4x1x127x191x191, .f32⟩
  | 85 => ⟨S4x1x127x191x191, .f32⟩
  | 86 => ⟨S4x1x127x191x191, .f32⟩
  | 87 => ⟨S4x1x127x191x191, .f32⟩
  | 88 => ⟨S4x1x127x191x191, .f32⟩
  | 89 => ⟨S4x1x127x191x191, .f32⟩
  | 90 => ⟨S_, .f32⟩
  | 91 => ⟨S_, .f32⟩
  | 92 => ⟨S4x1x127x191x191, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | _ => ⟨S4x1x128x192x192, .f32⟩

abbrev hbmTy (i : Nat) : BufTy := match i / 128 with
  | 0 => hbmTy0_0 i
  | 1 => hbmTy0_1 i
  | _ => ⟨S4x1x128x192x192, .f32⟩

abbrev bufTy : (tb : Table) → Fin (tcTables nBuf tb) → BufTy
  | .hbm, ⟨i, _⟩ => hbmTy i
  | _, _ => ⟨S4x1x128x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_13 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_16 : Ref sig .tc := ⟨.hbm, 90, rfl⟩
abbrev main_v71 : Ref sig .tc := ⟨.hbm, 91, rfl⟩
abbrev main_v72 : Ref sig .tc := ⟨.hbm, 92, rfl⟩
abbrev main_cst_17 : Ref sig .tc := ⟨.hbm, 93, rfl⟩
abbrev main_v73 : Ref sig .tc := ⟨.hbm, 94, rfl⟩
abbrev main_cst_18 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_19 : Ref sig .tc := ⟨.hbm, 106, rfl⟩
abbrev main_v84 : Ref sig .tc := ⟨.hbm, 107, rfl⟩
abbrev main_v85 : Ref sig .tc := ⟨.hbm, 108, rfl⟩
abbrev main_cst_20 : Ref sig .tc := ⟨.hbm, 109, rfl⟩
abbrev main_v86 : Ref sig .tc := ⟨.hbm, 110, rfl⟩
abbrev main_cst_21 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_22 : Ref sig .tc := ⟨.hbm, 122, rfl⟩
abbrev main_v97 : Ref sig .tc := ⟨.hbm, 123, rfl⟩
abbrev main_v98 : Ref sig .tc := ⟨.hbm, 124, rfl⟩
abbrev main_cst_23 : Ref sig .tc := ⟨.hbm, 125, rfl⟩
abbrev main_v99 : Ref sig .tc := ⟨.hbm, 126, rfl⟩
abbrev main_cst_24 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_25 : Ref sig .tc := ⟨.hbm, 138, rfl⟩
abbrev main_v110 : Ref sig .tc := ⟨.hbm, 139, rfl⟩
abbrev main_v111 : Ref sig .tc := ⟨.hbm, 140, rfl⟩
abbrev main_cst_26 : Ref sig .tc := ⟨.hbm, 141, rfl⟩
abbrev main_v112 : Ref sig .tc := ⟨.hbm, 142, rfl⟩
abbrev main_cst_27 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_28 : Ref sig .tc := ⟨.hbm, 154, rfl⟩
abbrev main_v123 : Ref sig .tc := ⟨.hbm, 155, rfl⟩
abbrev main_v124 : Ref sig .tc := ⟨.hbm, 156, rfl⟩
abbrev main_cst_29 : Ref sig .tc := ⟨.hbm, 157, rfl⟩
abbrev main_v125 : Ref sig .tc := ⟨.hbm, 158, rfl⟩
abbrev main_cst_30 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_31 : Ref sig .tc := ⟨.hbm, 170, rfl⟩
abbrev main_v136 : Ref sig .tc := ⟨.hbm, 171, rfl⟩
abbrev main_v137 : Ref sig .tc := ⟨.hbm, 172, rfl⟩
abbrev main_cst_32 : Ref sig .tc := ⟨.hbm, 173, rfl⟩
abbrev main_v138 : Ref sig .tc := ⟨.hbm, 174, rfl⟩
abbrev main_cst_33 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_34 : Ref sig .tc := ⟨.hbm, 186, rfl⟩
abbrev main_v149 : Ref sig .tc := ⟨.hbm, 187, rfl⟩
abbrev main_v150 : Ref sig .tc := ⟨.hbm, 188, rfl⟩
abbrev main_cst_35 : Ref sig .tc := ⟨.hbm, 189, rfl⟩
abbrev main_v151 : Ref sig .tc := ⟨.hbm, 190, rfl⟩
abbrev main_cst_36 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_37 : Ref sig .tc := ⟨.hbm, 202, rfl⟩
abbrev main_v162 : Ref sig .tc := ⟨.hbm, 203, rfl⟩
abbrev main_v163 : Ref sig .tc := ⟨.hbm, 204, rfl⟩
abbrev main_cst_38 : Ref sig .tc := ⟨.hbm, 205, rfl⟩
abbrev main_v164 : Ref sig .tc := ⟨.hbm, 206, rfl⟩
abbrev main_cst_39 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_40 : Ref sig .tc := ⟨.hbm, 218, rfl⟩
abbrev main_v175 : Ref sig .tc := ⟨.hbm, 219, rfl⟩
abbrev main_v176 : Ref sig .tc := ⟨.hbm, 220, rfl⟩
abbrev main_cst_41 : Ref sig .tc := ⟨.hbm, 221, rfl⟩
abbrev main_v177 : Ref sig .tc := ⟨.hbm, 222, rfl⟩
abbrev main_cst_42 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_43 : Ref sig .tc := ⟨.hbm, 227, rfl⟩
abbrev main_v181 : Ref sig .tc := ⟨.hbm, 228, rfl⟩
abbrev main_cst_44 : Ref sig .tc := ⟨.hbm, 229, rfl⟩
abbrev main_v182 : Ref sig .tc := ⟨.hbm, 230, rfl⟩
abbrev main_cst_45 : Ref sig .tc := ⟨.hbm, 231, rfl⟩
abbrev main_v183 : Ref sig .tc := ⟨.hbm, 232, rfl⟩
abbrev main_v184 : Ref sig .tc := ⟨.hbm, 233, rfl⟩

abbrev nD : Nat := 1
abbrev τ : Topo := Topo.v7x

variable {F : FTy → Type} [FloatOps F]

class Facts₀ : Prop where
  bcast_S_S4x1x128x192x192 : S_.BroadcastsInDim S4x1x128x192x192 (![] : Fin 0 → Fin S4x1x128x192x192.rank)
  reducesTo_S4x1x128x192x192_S_d0_1_2_3_4 : S4x1x128x192x192.ReducesTo [0, 1, 2, 3, 4] S_
  h_S_ : 0 < S_.numel
  slices_S4x1x128x192x192_S4x1x127x192x192_0_0_1_0_0 : S4x1x128x192x192.Slices ![0, 0, 1, 0, 0] S4x1x127x192x192
  slices_S4x1x128x192x192_S4x1x127x192x192_0_0_0_0_0 : S4x1x128x192x192.Slices ![0, 0, 0, 0, 0] S4x1x127x192x192
  reducesTo_S4x1x127x192x192_S_d0_1_2_3_4 : S4x1x127x192x192.ReducesTo [0, 1, 2, 3, 4] S_
  slices_S4x1x128x192x192_S4x1x128x191x192_0_0_0_1_0 : S4x1x128x192x192.Slices ![0, 0, 0, 1, 0] S4x1x128x191x192
  slices_S4x1x128x192x192_S4x1x128x191x192_0_0_0_0_0 : S4x1x128x192x192.Slices ![0, 0, 0, 0, 0] S4x1x128x191x192
  reducesTo_S4x1x128x191x192_S_d0_1_2_3_4 : S4x1x128x191x192.ReducesTo [0, 1, 2, 3, 4] S_
  slices_S4x1x128x192x192_S4x1x128x192x191_0_0_0_0_1 : S4x1x128x192x192.Slices ![0, 0, 0, 0, 1] S4x1x128x192x191
  slices_S4x1x128x192x192_S4x1x128x192x191_0_0_0_0_0 : S4x1x128x192x192.Slices ![0, 0, 0, 0, 0] S4x1x128x192x191
  reducesTo_S4x1x128x192x191_S_d0_1_2_3_4 : S4x1x128x192x191.ReducesTo [0, 1, 2, 3, 4] S_
  slices_S4x1x128x192x192_S4x1x127x191x192_0_0_1_1_0 : S4x1x128x192x192.Slices ![0, 0, 1, 1, 0] S4x1x127x191x192
  slices_S4x1x128x192x192_S4x1x127x191x192_0_0_0_0_0 : S4x1x128x192x192.Slices ![0, 0, 0, 0, 0] S4x1x127x191x192
  reducesTo_S4x1x127x191x192_S_d0_1_2_3_4 : S4x1x127x191x192.ReducesTo [0, 1, 2, 3, 4] S_
  slices_S4x1x128x192x192_S4x1x127x191x192_0_0_1_0_0 : S4x1x128x192x192.Slices ![0, 0, 1, 0, 0] S4x1x127x191x192
  slices_S4x1x128x192x192_S4x1x127x191x192_0_0_0_1_0 : S4x1x128x192x192.Slices ![0, 0, 0, 1, 0] S4x1x127x191x192
  slices_S4x1x128x192x192_S4x1x128x191x191_0_0_0_1_1 : S4x1x128x192x192.Slices ![0, 0, 0, 1, 1] S4x1x128x191x191
  slices_S4x1x128x192x192_S4x1x128x191x191_0_0_0_0_0 : S4x1x128x192x192.Slices ![0, 0, 0, 0, 0] S4x1x128x191x191
  reducesTo_S4x1x128x191x191_S_d0_1_2_3_4 : S4x1x128x191x191.ReducesTo [0, 1, 2, 3, 4] S_
  slices_S4x1x128x192x192_S4x1x128x191x191_0_0_0_1_0 : S4x1x128x192x192.Slices ![0, 0, 0, 1, 0] S4x1x128x191x191
  slices_S4x1x128x192x192_S4x1x128x191x191_0_0_0_0_1 : S4x1x128x192x192.Slices ![0, 0, 0, 0, 1] S4x1x128x191x191
  slices_S4x1x128x192x192_S4x1x127x192x191_0_0_1_0_0 : S4x1x128x192x192.Slices ![0, 0, 1, 0, 0] S4x1x127x192x191
  slices_S4x1x128x192x192_S4x1x127x192x191_0_0_0_0_1 : S4x1x128x192x192.Slices ![0, 0, 0, 0, 1] S4x1x127x192x191
  reducesTo_S4x1x127x192x191_S_d0_1_2_3_4 : S4x1x127x192x191.ReducesTo [0, 1, 2, 3, 4] S_
  slices_S4x1x128x192x192_S4x1x127x192x191_0_0_1_0_1 : S4x1x128x192x192.Slices ![0, 0, 1, 0, 1] S4x1x127x192x191
  slices_S4x1x128x192x192_S4x1x127x192x191_0_0_0_0_0 : S4x1x128x192x192.Slices ![0, 0, 0, 0, 0] S4x1x127x192x191
  slices_S4x1x128x192x192_S4x1x127x191x191_0_0_1_0_0 : S4x1x128x192x192.Slices ![0, 0, 1, 0, 0] S4x1x127x191x191
  slices_S4x1x128x192x192_S4x1x127x191x191_0_0_0_1_1 : S4x1x128x192x192.Slices ![0, 0, 0, 1, 1] S4x1x127x191x191
  reducesTo_S4x1x127x191x191_S_d0_1_2_3_4 : S4x1x127x191x191.ReducesTo [0, 1, 2, 3, 4] S_
  slices_S4x1x128x192x192_S4x1x127x191x191_0_0_1_1_0 : S4x1x128x192x192.Slices ![0, 0, 1, 1, 0] S4x1x127x191x191
  slices_S4x1x128x192x192_S4x1x127x191x191_0_0_0_0_1 : S4x1x128x192x192.Slices ![0, 0, 0, 0, 1] S4x1x127x191x191
  slices_S4x1x128x192x192_S4x1x127x191x191_0_0_0_0_0 : S4x1x128x192x192.Slices ![0, 0, 0, 0, 0] S4x1x127x191x191
  slices_S4x1x128x192x192_S4x1x127x191x191_0_0_1_1_1 : S4x1x128x192x192.Slices ![0, 0, 1, 1, 1] S4x1x127x191x191
  slices_S4x1x128x192x192_S4x1x127x191x191_0_0_0_1_0 : S4x1x128x192x192.Slices ![0, 0, 0, 1, 0] S4x1x127x191x191
  slices_S4x1x128x192x192_S4x1x127x191x191_0_0_1_0_1 : S4x1x128x192x192.Slices ![0, 0, 1, 0, 1] S4x1x127x191x191

variable [Facts₀]

class Facts : Prop extends Facts₀ where

variable [Facts]
-- ==== Proof.Hand.LaunchSplit.lean ====
import proofs.«408089_j31568009625984_3_alg».proof.Proof.Gen.KernelIdeal.Launch
import Idealize.ShloMosaic.Lib.Pipeline.Regions
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's arrays against the core's buffers, two windows sharing an array

The five windows stand on three buffers: windows 0 and 1 on the first argument, windows 2 and 3 on the second,
window 4 on the result. A buffer under two windows is held by halves, one half per window; the result is held whole. -/

/-- The shares: the two windows on one array hold its two halves, the output window is full. -/
def shares : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨_ + 5, h⟩ => absurd h (Nat.not_lt.2 (Nat.le_add_left _ _))

/-- The buffers behind the windows' arrays are the two arguments and the result. -/
theorem arrRefs_eq : Finset.univ.image (Pipeline.arrRef spec0) = [main_arg0, main_arg1, main_v0].toFinset := by decide

section Arrays

variable (c : Dev nD) (dat : Dat τ (Elt F) Unit ℕ (UR sig nD τ) ℕ cfg0 c) (hq : dat.q = shares)

include hq in
/-- The share each window's array is held at. -/
theorem share_0 : dat.share 0 = fullShare.left := by unfold Pipeline.Dat.share; rw [hq]; rfl
include hq in
theorem share_1 : dat.share 1 = fullShare.right := by unfold Pipeline.Dat.share; rw [hq]; rfl
include hq in
theorem share_2 : dat.share 2 = fullShare.left := by unfold Pipeline.Dat.share; rw [hq]; rfl
include hq in
theorem share_3 : dat.share 3 = fullShare.right := by unfold Pipeline.Dat.share; rw [hq]; rfl
theorem share_4 : dat.share 4 = fullShare := by unfold Pipeline.Dat.share; rfl

/-- The windows' arrays at contents `G`, window by window: each a whole buffer at its window's share. -/
theorem arrays_eq5 (G : (w : Fin cfg0.W) → Buf (Elt F) ((cfg0.win w).arr.view.loc (c : Thread nD τ))) :
    (dat.arrays G : sProp 𝕄) = iprop(
      (((c : Thread nD τ).loc main_arg0) ↦{dat.share 0} G 0) ∗ (((c : Thread nD τ).loc main_arg0) ↦{dat.share 1} G 1)
      ∗ (((c : Thread nD τ).loc main_arg1) ↦{dat.share 2} G 2) ∗ (((c : Thread nD τ).loc main_arg1) ↦{dat.share 3} G 3)
      ∗ (((c : Thread nD τ).loc main_v0) ↦{dat.share 4} G 4)) := by
  unfold Pipeline.Dat.arrays
  -- windows on one array name the same index set: one rewriting per buffer
  rw [Gen.bigSep_W0, (Gen.arr_whole0 0).set_eq_univ, (Gen.arr_whole0 2).set_eq_univ, (Gen.arr_whole0 4).set_eq_univ]

/-- The three buffers behind the arrays, each whole at the full share at contents `V`, one by one. -/
theorem arrBufs_eq3 (V : (b : Ref sig .tc) → Buf (Elt F) ((c : Thread nD τ).loc b)) :
    (Pipeline.arrBufs spec0 c V : sProp 𝕄) = iprop(
      (((c : Thread nD τ).loc main_arg0) ↦{fullShare} V main_arg0) ∗ (((c : Thread nD τ).loc main_arg1) ↦{fullShare} V main_arg1)
      ∗ (((c : Thread nD τ).loc main_v0) ↦{fullShare} V main_v0)) := by
  unfold Pipeline.arrBufs
  rw [BI.bigSep_eq_bigSepL_of_eq [main_arg0, main_arg1, main_v0] arrRefs_eq (by decide)]
  rfl

include hq in
/-- ENTRY: the three buffers whole at `V` are the five windows' arrays at contents read off `V` — each argument's
    buffer split into its two halves, one per window standing on it. -/
theorem arrays_of_arrBufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs spec0 c V : sProp 𝕄) ⊢ dat.arrays G := by
  rw [arrays_eq5, arrBufs_eq3, share_0 c dat hq, share_1 c dat hq, share_2 c dat hq, share_3 c dat hq, share_4 c dat,
    hG 0, hG 1, hG 2, hG 3, hG 4]
  iintro ⟨H0, H1, H2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H2

include hq in
/-- EXIT: the five windows' arrays at contents that a valuation `V` names are the three buffers whole at `V` —
    the two halves of each argument's buffer, at the same contents, joined. -/
theorem arrBufs_of_arrays (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄) ⊢ Pipeline.arrBufs spec0 c V := by
  rw [arrays_eq5, arrBufs_eq3, share_0 c dat hq, share_1 c dat hq, share_2 c dat hq, share_3 c dat hq, share_4 c dat,
    hG 0, hG 1, hG 2, hG 3, hG 4]
  iintro ⟨H0l, H0r, H1l, H1r, H2⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  iexact H2

end Arrays

end Cert.KernelIdeal.Hand

end
-- ==== Proof.Hand.Launch.lean ====
import proofs.«408089_j31568009625984_3_alg».proof.Proof.Gen.KernelIdeal.Launch
import proofs.«408089_j31568009625984_3_alg».proof.Proof.Gen.KernelIdeal.Skeleton
import proofs.«408089_j31568009625984_3_alg».proof.Proof.Gen.KernelIdeal.Points
import proofs.«408089_j31568009625984_3_alg».proof.Proof.Hand.LaunchSplit
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: @main is one kernel region followed by one stretch of host operations -/

/-- Core `c`'s buffer contents at launch. -/
abbrev W0 (c : Dev nD) : Valuation τ sig (Elt F) := fun b => m ((c : Dev nD), b)
/-- The same read at the TensorCore's references. -/
abbrev V0 (c : Dev nD) : (b : Ref sig .tc) → Buf (Elt F) ((c : Thread nD τ).loc b) := fun b => m ((c : Thread nD τ).loc b)

open Classical in
/-- Core `c`'s TensorCore buffer contents after the region: the launch memory, except `main_v0` at `o`. -/
def Wout (c : Dev nD) (o : Buf (Elt F) ((c : Thread nD τ).loc main_v0)) : Valuation τ sig (Elt F) :=
  Function.update (W0 m c) (Proc.devRef .tc main_v0) o

theorem Wout_out (c : Dev nD) (o : Buf (Elt F) ((c : Thread nD τ).loc main_v0)) :
    Wout m c o (Proc.devRef .tc main_v0) = o := by
  unfold Wout; exact Function.update_self _ _ _

theorem Wout_of_ne (c : Dev nD) (o : Buf (Elt F) ((c : Thread nD τ).loc main_v0)) (b : Ref sig .tc) (hb : b ≠ main_v0) :
    Wout m c o (Proc.devRef .tc b) = m ((c : Thread nD τ).loc b) := by
  unfold Wout; exact Function.update_of_ne (StableHlo.devRef_ne_of_ne hb) _ _

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the host stretch allocates a buffer. -/
theorem hostOps1_fresh : (Gen.hostOps1 : List (HloOp τ sig (Elt F))).Forall fun op => op.fresh = ∅ := by
  simp only [List.Forall]; repeat' constructor

/-- No operation of the host stretch writes the first argument, -/
theorem after_hostOps1_arg0 (W : Valuation τ sig (Elt F)) :
    StableHlo.after Gen.hostOps1 W (Proc.devRef .tc main_arg0) = W (Proc.devRef .tc main_arg0) :=
  StableHlo.after_of_forall_not_mem (b := Proc.devRef .tc main_arg0) _ _ (List.forall_iff_forall_mem.mp (by
    simp only [Gen.hostOps1, List.Forall, StableHlo.nullary_writes, StableHlo.unary_writes, StableHlo.binary_writes,
      StableHlo.reshape_writes, Finset.mem_singleton]
    repeat' apply And.intro
    all_goals exact StableHlo.devRef_ne_of_ne (by decide)))

/-- nor the second. -/
theorem after_hostOps1_arg1 (W : Valuation τ sig (Elt F)) :
    StableHlo.after Gen.hostOps1 W (Proc.devRef .tc main_arg1) = W (Proc.devRef .tc main_arg1) :=
  StableHlo.after_of_forall_not_mem (b := Proc.devRef .tc main_arg1) _ _ (List.forall_iff_forall_mem.mp (by
    simp only [Gen.hostOps1, List.Forall, StableHlo.nullary_writes, StableHlo.unary_writes, StableHlo.binary_writes,
      StableHlo.reshape_writes, Finset.mem_singleton]
    repeat' apply And.intro
    all_goals exact StableHlo.devRef_ne_of_ne (by decide)))

/-- So after the region and the host stretch the first argument's buffer is as launched, -/
theorem after_Wout_arg0 (c : Dev nD) (o : Buf (Elt F) ((c : Thread nD τ).loc main_v0)) :
    StableHlo.after Gen.hostOps1 (Wout m c o) (Proc.devRef .tc main_arg0) = m ((c : Thread nD τ).loc main_arg0) :=
  (after_hostOps1_arg0 _).trans (Wout_of_ne m c o main_arg0 (by decide))

/-- and so is the second's. -/
theorem after_Wout_arg1 (c : Dev nD) (o : Buf (Elt F) ((c : Thread nD τ).loc main_v0)) :
    StableHlo.after Gen.hostOps1 (Wout m c o) (Proc.devRef .tc main_arg1) = m ((c : Thread nD τ).loc main_arg1) :=
  (after_hostOps1_arg1 _).trans (Wout_of_ne m c o main_arg1 (by decide))

/-! ## The proof data family and the thread state -/

/-- The prefetched tables' admissible contents: the pipeline has no table. -/
abbrev adm : (p : Fin 1) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its
    `owes`, at nothing. -/
abbrev R (c : Dev nD) : sProp 𝕄 := iprop((∃ r, prngReg c r) ∗ ∃ W, owes (c : Thread nD τ) (0 : CellTallies nD τ sig Unit) W)

/-- The same at launch: the core owes nothing and its waits have recorded nothing. -/
abbrev R₀ (c : Dev nD) : sProp 𝕄 := iprop((∃ r, prngReg c r) ∗ owes (c : Thread nD τ) (0 : CellTallies nD τ sig Unit) ∅)

section Run

variable (dat : (c : Dev nD) → Dat τ (Elt F) Unit ℕ (UR sig nD τ) ℕ cfg0 c)

/-- The one pipeline's proof data. -/
def pdats : (p : Fin 1) → (c : Dev nD) → Dat τ (Elt F) Unit ℕ (UR sig nD τ) ℕ (Pipeline.pin (pcfgs (F := F)) adm p) c
  | ⟨0, _⟩ => fun c => dat c

/-- Core `c`'s buffer contents when the region is left: the result array at what the write-backs leave. -/
abbrev W1 (c : Dev nD) : Valuation τ sig (Elt F) := Wout m c ((dat c).arrAt 4 cfg0.N)
/-- and when @main returns: after the host stretch. -/
abbrev W2 (c : Dev nD) : Valuation τ sig (Elt F) := StableHlo.after Gen.hostOps1 (W1 m dat c)

/-- The host stretch as a segment from the contents `W`. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp hostOps1_fresh) op h) W R

variable (hA : ∀ c w, (dat c).A w = V0 m c (Pipeline.arrRef spec0 w))
  (hq : ∀ c, (dat c).q = shares)
  (hΦ : ∀ c t, (dat c).Φ t = Pipeline.ΦA spec0 c)
  (howed : ∀ c t, (dat c).owed t = 0)
  (hbody : ∀ c, BodyObligation (dat c) (defs₀ (F := F)) Variants.none () Set.univ)

include hA in
/-- At the region's exit every window's array holds what the exit contents name: an input window's array is never
    written, the result array is at what the write-backs leave. -/
theorem hF (c : Dev nD) : ∀ w : Fin cfg0.W, (dat c).arrAt w cfg0.N = (fun b : Ref sig .tc => W1 m dat c b) (Pipeline.arrRef spec0 w)
  | ⟨0, _⟩ => ((dat c).arrAt_in 0 rfl _).trans ((hA c 0).trans (Wout_of_ne m c _ main_arg0 (by decide)).symm)
  | ⟨1, _⟩ => ((dat c).arrAt_in 1 rfl _).trans ((hA c 1).trans (Wout_of_ne m c _ main_arg0 (by decide)).symm)
  | ⟨2, _⟩ => ((dat c).arrAt_in 2 rfl _).trans ((hA c 2).trans (Wout_of_ne m c _ main_arg1 (by decide)).symm)
  | ⟨3, _⟩ => ((dat c).arrAt_in 3 rfl _).trans ((hA c 3).trans (Wout_of_ne m c _ main_arg1 (by decide)).symm)
  | ⟨4, _⟩ => (Wout_out m c _).symm
  | ⟨_ + 5, h⟩ => absurd h (Nat.not_lt.2 (Nat.le_add_left _ _))

/-- Off the windows' arrays the exit contents are the launch memory. -/
theorem hrest (c : Dev nD) (b : Ref sig .tc) (hb : b ∉ Finset.univ.image (Pipeline.arrRef spec0)) :
    W1 m dat c (Proc.devRef .tc b) = V0 m c b :=
  Wout_of_ne m c _ b fun e => hb (e ▸ (by decide : main_v0 ∈ Finset.univ.image (Pipeline.arrRef spec0)))

include hA hq in
/-- ENTRY, the buffers' part: the core's unscoped buffers at the launch memory are the pipeline's arrays at the proof
    data's entry contents and the unscoped rest. -/
theorem entry_split (c : Dev nD) :
    (StableHlo.held (c : Thread nD τ) (Pipeline.ucRefs τ sig) (W0 m c) : sProp 𝕄)
      ⊢ iprop((dat c).arrays ((dat c).arrAt · 0) ∗ Pipeline.unscopedRest spec0 c (V0 m c)) := by
  rw [← Pipeline.unscopedBufs_held c (W0 m c)]
  refine (Entails.of_eq (Pipeline.unscopedBufs_split₀ cfgs 0 Gen.winFacts₀0.arr_unscoped c (V0 m c))).trans ?_
  exact sep_mono (arrays_of_arrBufs c (dat c) (hq c) (V0 m c) _ (fun w => hA c w)) .rfl

include hA hq in
/-- EXIT, the buffers' part: the pipeline's arrays at what it leaves and the unscoped rest are the core's unscoped
    buffers at the exit contents. -/
theorem exit_join (c : Dev nD) :
    iprop((dat c).arrays ((dat c).arrAt · cfg0.N) ∗ Pipeline.unscopedRest spec0 c (V0 m c))
      ⊢ (StableHlo.held (c : Thread nD τ) (Pipeline.ucRefs τ sig) (W1 m dat c) : sProp 𝕄) := by
  rw [← Pipeline.unscopedBufs_held c (W1 m dat c)]
  refine BI.Entails.trans ?_ (Entails.of_eq (Pipeline.unscopedBufs_split₀ cfgs 0 Gen.winFacts₀0.arr_unscoped c (fun b => W1 m dat c b)).symm)
  refine sep_mono (arrBufs_of_arrays c (dat c) (hq c) (fun b => W1 m dat c b) _ (hF m dat hA c)) (Entails.of_eq ?_)
  unfold Pipeline.unscopedRest
  exact bigSep_congr fun b hb => by
    show _ = (((c : Thread nD τ).loc b) ↦{fullShare} W1 m dat c (Proc.devRef .tc b) : sProp 𝕄)
    rw [hrest m dat c b (Finset.mem_sdiff.mp hb).2]

/-! ## The region as a segment -/

set_option backward.isDefEq.respectTransparency.types false in
/-- THE REGION over the thread state: entered from every unscoped buffer at the launch memory, left with the result
    array at what the write-backs leave and every other buffer as launched. The arrays are split out of the unscoped
    buffers (each argument's buffer by halves) and put back at the exit contents; the generator register goes into
    the class invariant and comes out; nothing is owed; the kernel has no semaphore of its own. -/
def reg0 : Pipeline.RegionSeg (pcfgs (F := F)) adm (pdats dat) () defs₀ 𝒱₀ L lv 0 where
  win := Gen.winFacts₀0
  block_pos := Gen.block_pos0
  stage_whole := Gen.stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m c) ∗ R₀ c)
  post c := iprop(StableHlo.held (c : Thread nD τ) (Pipeline.ucRefs τ sig) (W1 m dat c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := entry_split m dat hA hq c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat 0 c).owed 0 = 0 from howed c 0]
      iexists ∅; isplitr; · ipureintro; simp
      iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin := exit_join m dat hA hq c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats dat 0 c).owed (Fin.last _) = 0 from howed c _]
    icases HO with ⟨%W, -, HO⟩; iexists W; iexact HO

/-! ## @main as segments, and the launch -/

/-- @main's two segments: the region, then the host stretch from the region's exit contents. -/
abbrev segs : List (Pipeline.Seg (pcfgs (F := F)) adm (pdats dat) () defs₀ 𝒱₀ L lv) :=
  [ .region (reg0 m dat hA hq hΦ howed hbody),
    .host (hseg (W1 m dat)) ]

include hA hq hΦ howed hbody in
/-- @main IS the run of the segments: the chain of its two items, each a segment's fragment. -/
theorem main_run (c : Dev nD) : main (F := F) c = Pipeline.Seg.run (segs m dat hA hq hΦ howed hbody) :=
  (Gen.main_chain c).trans (by rw [Pipeline.Seg.run_eq_chain]; rfl)

/-- The last thread state without the `owes`: every unscoped buffer at the contents @main returns with, the generator
    register at some state. -/
abbrev Tₙ (c : Dev nD) : sProp 𝕄 := iprop(StableHlo.held (c : Thread nD τ) (Pipeline.ucRefs τ sig) (W2 m dat c) ∗ ∃ r, prngReg c r)

include hA hq hΦ howed hbody in
set_option backward.isDefEq.respectTransparency.types false in
/-- THE RUN: from any memory with zero counters every weakly fair execution of @main on the TensorCores terminates,
    nothing faulting, and in every final state each unscoped TensorCore buffer holds what the host stretch computes
    from the launch memory with the result array at what the region's write-backs leave. -/
theorem run_main_of :
    θ_run defs (onTc (τ := τ) (main (F := F))) ⟨m, fun _ => 0, ρ⟩ (fun r => ∀ c : Dev nD,
      ∀ b ∈ Pipeline.ucRefs τ sig, r.2.mem (((c : Thread nD τ)).1, b)
        = StableHlo.after Gen.hostOps1 (Wout m c ((dat c).arrAt 4 cfg0.N)) b) :=
  Pipeline.θ_run_regions_kit (pcfgs (F := F)) adm (pdats dat) () Gen.cellOf_inj emb₁ defs₀ 𝒱₀ L lv m ρ main
    (segs m dat hA hq hΦ howed hbody)
    (fun c Q => by rw [main_run m dat hA hq hΦ howed hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m dat)
    (hch := ⟨fun _ => .rfl, fun _ => .rfl, fun c =>
      show iprop(StableHlo.held (c : Thread nD τ) (Pipeline.ucRefs τ sig) (W2 m dat c) ∗ R c)
        ⊢ iprop(Tₙ m dat c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c => h c)

end Run

end Cert.KernelIdeal.Hand

end
-- ==== Proof.Hand.Base.lean ====
/-
  What the frame of the depth-tiled boundary-loss kernel is stated over: the arrays as the region finds them (the
  region is the program's first item, so they are the launch memory), each window's block at a grid point, the two
  conditions the body computes from the depth-tile coordinate (the reset of the accumulator at the first tile, the mask
  of the boundary plane at the last tile) in closed form over the 32 grid points, the staging memrefs as the pipeline
  passes them, and the body's arithmetic as ONE term: the 27 statistics of a tile (the cross-entropy sum, then a
  numerator and a denominator for each of the 13 directions) as a function of the four input blocks and the last-tile flag.
-/
import proofs.«408089_j31568009625984_3_alg».proof.Proof.Gen.KernelIdeal.Launch
import proofs.«408089_j31568009625984_3_alg».proof.Proof.Gen.KernelIdeal.Skeleton
import proofs.«408089_j31568009625984_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body resets the accumulator when the depth-tile coordinate is zero: the condition of its one branch, from the
    grid coordinates. -/
abbrev cond0 (i : grid0.Coords) : Prop :=
  (Scalar.cmpi .ne (Scalar.extui (Scalar.cmpi .eq (BitVec.ofNat 32 (i 1).val) 0#32)) 0#32) = 1#1

/-- It holds at the first depth tile of each batch entry: the points divisible by 8. -/
theorem hcond0 : ∀ t : Fin cfg0.N, cond0 (grid0.coords t) ↔ t.val % 8 = 0 :=
  (by decide +kernel : ∀ t : Fin grid0.N, cond0 (grid0.coords t) ↔ t.val % 8 = 0)

/-- The flag that masks the boundary plane: the depth-tile coordinate is the last one. -/
abbrev lastFlag (i : grid0.Coords) : BitVec 1 := Scalar.cmpi .eq (BitVec.ofNat 32 (i 1).val) 7#32

/-- It is set at the last depth tile of each batch entry: the points that are 7 modulo 8, -/
theorem hlast : ∀ t : Fin cfg0.N, lastFlag (grid0.coords t) = 1#1 ↔ t.val % 8 = 7 :=
  (by decide +kernel : ∀ t : Fin grid0.N, lastFlag (grid0.coords t) = 1#1 ↔ t.val % 8 = 7)

/-- and clear at the others. -/
theorem hlast' : ∀ t : Fin cfg0.N, lastFlag (grid0.coords t) = 0#1 ↔ t.val % 8 ≠ 7 :=
  (by decide +kernel : ∀ t : Fin grid0.N, lastFlag (grid0.coords t) = 0#1 ↔ t.val % 8 ≠ 7)

/-- One staging buffer of the output window, through which its contents are stated. -/
abbrev VO4 : View sig .tc .vmem S1x8x128 .f32 := (Memref.whole cc0_stg4_0 : Memref sig .tc .vmem S1x8x128 .f32).view

/-- Each window's current staging memref at point `t`, as the pipeline passes it to the body, and its wholeness. -/
abbrev ms0 (t : Fin cfg0.N) : Memref sig .tc .vmem S1x1x16x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x16x192x192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1x192x192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)

/-- THE TILE'S STATISTICS. From the tile's planes of the first array (`v3`), of the second (`v5`), the plane after the
    tile of each (`v7`, `v9`) and the last-tile flag (`v11`): the 27 numbers the body adds to row 0 of the accumulator,
    composed from the body's payloads exactly as its nine parts hand them on. Lane 0 is the cross-entropy sum of the
    tile; lanes 1, 2 … 25, 26 are the numerator and denominator of the 13 directions in the kernel's order (the four
    in-plane ones, then the nine that step one plane forward). -/
def statsVec (v3 v5 : Vec F S1x1x16x192x192 .f32) (v7 v9 : Vec F S1x1x1x192x192 .f32) (v11 : BitVec 1) : FVec F S27 .f32 :=
  have v4 := k0_pay4 v3
  have v6 := k0_pay5 v5
  have v8 := k0_pay6 v7
  have v10 := k0_pay7 v9
  have v24 := k0_pay8 v3 v5
  have v27 := k0_pay9 v3
  have v30 := k0_pay10 v5
  have v35 := k0_pay11 v27 v30
  have v40 := k0_pay12 v30
  have v51 := k0_pay14 v4 v6
  have v56 := k0_pay15 v6
  have v67 := k0_pay17 v4 v6
  have v72 := k0_pay18 v6
  have v78 := k0_pay19 v6
  have v83 := k0_pay20 v4 v6
  have v88 := k0_pay21 v78
  have v89 := k0_pay22 v4
  have v90 := k0_pay23 v4
  have v91 := k0_pay24 v6
  have v92 := k0_pay25 v6
  have v93 := k0_pay26 v4
  have v94 := k0_pay27 v6
  have v121 := k0_pay30 v4 v6 v8 v10 v11
  have v132 := k0_pay31 v6 v10 v11
  have v135 := k0_pay32 v4
  have v136 := k0_pay33 v6
  have v159 := k0_pay36 v8 v10 v11 v92 v93 v94 v135 v136
  have v170 := k0_pay37 v10 v11 v92 v94 v136
  have v176 := k0_pay38 v91 v92
  have v184 := k0_pay39 v8 v11 v93
  have v186 := k0_pay40 v10 v11 v94
  have v188 := k0_pay41 v89 v90 v91 v92
  have v197 := k0_pay42 v184 v186 v188
  have v208 := k0_pay43 v176 v186
  have v224 := k0_pay45 v10 v11 v94
  have v235 := k0_pay46 v8 v10 v11 v89 v90 v91 v92 v93 v94
  have v239 := k0_pay47 v91 v92
  have v246 := k0_pay48 v224 v239
  have v265 := k0_pay51 v8 v10 v11 v89 v90 v91 v92 v93 v94
  have v276 := k0_pay52 v10 v11 v91 v92 v94
  have v279 := k0_pay53 v89 v90
  have v282 := k0_pay54 v91 v92
  have v288 := k0_pay55 v10 v94
  have v290 := k0_pay56 v8 v11 v93
  have cst_61 : F .f32 := Scalar.ofBits .f32 0x00000000#32
  have v303 := k0_pay58 v11 v279 v282 v288 v290 cst_61
  have v314 := k0_pay59 v11 v282 v288 cst_61
  have v330 := k0_pay61 v10 v11 v94
  have v341 := k0_pay62 v8 v10 v11 v89 v90 v91 v92 v93 v94
  have v342 := k0_pay63 v91 v92
  have v352 := k0_pay64 v330 v342
  have v379 := k0_pay67 v8 v10 v11 v89 v90 v91 v92 v93 v94
  have v390 := k0_pay68 v10 v11 v91 v92 v94
  have v393 := k0_pay69 v89 v90
  have v394 := k0_pay70 v91
  have v417 := k0_pay73 v8 v10 v11 v92 v93 v94 v393 v394
  have v428 := k0_pay74 v10 v11 v92 v94 v394
  k0_pay1 v314 v341 v352 v379 v390 v417 v428 (k0_pay75 v24) (k0_pay76 v35) (k0_pay77 v40) (k0_pay78 v51) (k0_pay79 v56)
    (k0_pay80 v67) (k0_pay81 v72) (k0_pay82 v83) (k0_pay83 v88) (k0_pay84 v121) (k0_pay85 v132) (k0_pay86 v159) (k0_pay87 v170)
    (k0_pay88 v197) (k0_pay89 v208) (k0_pay90 v235) (k0_pay91 v246) (k0_pay92 v265) (k0_pay93 v276) (k0_pay94 v303)

end Cert.KernelIdeal.Hand

end
-- ==== Proof.Hand.RunA.lean ====
/-
  The body of the depth-tiled boundary-loss kernel run at a point where the accumulator is reset (the depth-tile
  coordinate is zero), on whole staging memrefs: the four input buffers at their contents, the output buffer at
  anything. The body first fills the output block with zeros, reads the four input blocks, computes the tile's 27
  statistics, reads row 0 of the output block back and stores row 0 again with the statistics added. What the two
  stores leave in the output buffer is a list of two pieces (the later first): the fill of the whole block and, over it,
  row 0; the body's triple is stated of that list.
-/
import proofs.«408089_j31568009625984_3_alg».proof.Proof.Hand.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref when the reset branch is taken (later store first),
    with the triple: on whole staging memrefs, the inputs' at their contents and the output's at anything, the body runs
    to a continuation that is given the inputs' as they were and the output's buffer with the pieces written. -/
noncomputable def kernelRunA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__gc3d_kernel i arg2 harg2 arg3 harg3 arg4 harg4 arg5 harg5 arg6 harg6) K } := by
  refine ⟨?_, fun E K => ?run⟩
  case run =>
    simp only [cc0__gc3d_kernel_eq_skeleton]; unfold cc0__gc3d_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The two pieces tile the output block (the fill is the whole block), so they cover it. -/
theorem coverA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) (y : S1x8x128.Idx) :
    ∃ pc ∈ (kernelRunA c i arg2 harg2 arg3 harg3 arg4 harg4 arg5 harg5 arg6 harg6 hc0 x0 x1 x2 x3).1, y ∈ pc.1.set :=
  View.cover_of_tiledL (kernelRunA c i arg2 harg2 arg3 harg3 arg4 harg4 arg5 harg5 arg6 harg6 hc0 x0 x1 x2 x3).1 S1x8x128.size (by sl_kernel_rfl) y

/-- What the reset case leaves in the output's staging buffer: its pieces read back over junk. -/
def outA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) : Vec F S1x8x128 .f32 :=
  VO4.read (Elt F) (VO4.writes (Elt F) VO4.junk (kernelRunA c i arg2 harg2 arg3 harg3 arg4 harg4 arg5 harg5 arg6 harg6 hc0 x0 x1 x2 x3).1)

end Cert.KernelIdeal.Hand

end
-- ==== Proof.Hand.RunB.lean ====
/-
  The body of the depth-tiled boundary-loss kernel run at a point where the accumulator is kept (the depth-tile
  coordinate is not zero), on whole staging memrefs: the four input buffers at their contents, the output buffer at the
  running contents `xo`. The body reads the four input blocks, computes the tile's 27 statistics, reads row 0 of the
  output block and stores row 0 with the statistics added: ONE piece, which covers row 0 only, so the rest of the block
  keeps `xo`. What the buffer reads afterwards is therefore stated over `xo`: the pieces overlaid on it.
-/
import proofs.«408089_j31568009625984_3_alg».proof.Proof.Hand.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pieces written over given contents -/

/-- The contents a list of unmasked writes (the last first) leaves over contents `X`: at each index the payload of the
    first piece of the list whose rectangle holds it, `X` at an index no piece holds. -/
def piecesOver {s : Shape} {e : EltTy} {Val : EltTy → Type} (X : s.Idx → Val e) : List (View.Piece Val s e) → s.Idx → Val e
  | [] => X
  | p :: L => p.1.overlay (piecesOver X L) p.2

/-- A read of writes over contents `f`, through any view, is the pieces over what `f` reads. -/
theorem read_writes_apply_eq_piecesOver {sg : RefSig} {κ : Kind} {sp : Space} {s : Shape} {e : EltTy} {Val : EltTy → Type}
    (v : View sg κ sp s e) (f : v.ty.Contents Val) (y : s.Idx) :
    ∀ L : List (View.Piece Val s e), v.read Val (v.writes Val f L) y = piecesOver (v.read Val f) L y
  | [] => rfl
  | p :: L => by
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy']
      exact (read_writes_apply_eq_piecesOver v f y L).trans (p.1.overlay_of_not_mem _ _ hy).symm

theorem read_writes_eq_piecesOver {sg : RefSig} {κ : Kind} {sp : Space} {s : Shape} {e : EltTy} {Val : EltTy → Type}
    (v : View sg κ sp s e) (f : v.ty.Contents Val) (L : List (View.Piece Val s e)) :
    v.read Val (v.writes Val f L) = piecesOver (v.read Val f) L :=
  funext fun y => read_writes_apply_eq_piecesOver v f y L

/-! ## The run -/

set_option maxHeartbeats 1000000 in
/-- The pieces the body's stores leave in the output's staging memref when the reset branch is not taken, with the
    triple: on whole staging memrefs, the inputs' at their contents and the output's at `xo`, the body runs to a
    continuation that is given the inputs' as they were and the output's buffer at `xo`'s raw contents with the pieces
    written. -/
noncomputable def kernelRunB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3
                ∗ arg6.view.loc (c : Thread nD τ) ↦[arg6.view.set]{fullShare} arg6.view.writes (Elt F) (harg6.unread xo) L) -∗ K ⟨⟩))
          ⊢ wp frame (wpE (defs₀ (F := F)) Variants.none c none) E (cc0__gc3d_kernel i arg2 harg2 arg3 harg3 arg4 harg4 arg5 harg5 arg6 harg6) K } := by
  refine ⟨?_, fun E K => ?run⟩
  case run =>
    simp only [cc0__gc3d_kernel_eq_skeleton]; unfold cc0__gc3d_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

/-- What this case leaves in the output's staging buffer: its pieces over what the buffer held. -/
def outB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) : Vec F S1x8x128 .f32 :=
  piecesOver xo (kernelRunB c i arg2 harg2 arg3 harg3 arg4 harg4 arg5 harg5 arg6 harg6 hc0 x0 x1 x2 x3 xo).1

/-- The buffer the run's post names reads as `outB`, through the memref's own view. -/
theorem readB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    arg6.view.read (Elt F) (arg6.view.writes (Elt F) (harg6.unread xo) (kernelRunB c i arg2 harg2 arg3 harg3 arg4 harg4 arg5 harg5 arg6 harg6 hc0 x0 x1 x2 x3 xo).1)
      = outB c i arg2 harg2 arg3 harg3 arg4 harg4 arg5 harg5 arg6 harg6 hc0 x0 x1 x2 x3 xo := by
  rw [read_writes_eq_piecesOver, harg6.read_unread]; rfl

end Cert.KernelIdeal.Hand

end
-- ==== Proof.Hand.Data.lean ====
/-
  The proof data of the depth-tiled pipeline and its body obligation. The output block of a batch entry is carried over
  the entry's eight depth tiles: what its staging buffer holds after a point is defined by recursion on the point (the
  resetting case at a first tile, the accumulating case over the point before at a later one). With the four input
  windows fetched at every point and the output written back only after a last tile, what the body finds in each
  buffer is known in closed form, and each case's run of the body discharges the obligation at its points.
-/
import proofs.«408089_j31568009625984_3_alg».proof.Proof.Hand.Base
import proofs.«408089_j31568009625984_3_alg».proof.Proof.Hand.LaunchSplit
import proofs.«408089_j31568009625984_3_alg».proof.Proof.Hand.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- THE ACCUMULATION. What the output's staging buffer holds after the body at position `n`: at the first depth tile
    of a batch entry (`n % 8 = 0`) what the resetting case leaves, run at the point's memrefs and the four input
    blocks; at any other tile what the accumulating case leaves over what this gives at `n - 1` (the buffer is not
    written back between two tiles of one batch entry). -/
def outsAt (c : Dev nD) : (n : ℕ) → n < cfg0.N → Vec F S1x8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first depth tile: the resetting case's contents. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later depth tile: the accumulating case's contents, over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The proof data of the pipeline on core `c`: the arrays as the region finds them; after the body at point `t` each
    input's buffer at its block there and the output's at `outsAt`; the invariant is the scoped rest and the generator
    register; nothing is owed; the two windows on one array hold its halves, the output window the whole. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q := shares
  owed _ := 0

/-- The proof data's arrays are the region-entry contents. -/
theorem dats_A (c : Dev nD) (w : Fin cfg0.W) : (dats m c).A w = V m c (Pipeline.arrRef spec0 w) := by
  dsimp only [dats]

/-- Its shares. -/
theorem dats_q (c : Dev nD) : (dats m c).q = shares := rfl

/-- Its invariant, the same before every point. -/
theorem dats_Φ (c : Dev nD) (t : Fin (cfg0.N + 1)) : (dats m c).Φ t = Pipeline.ΦA spec0 c := rfl

/-- It owes nothing. -/
theorem dats_owed (c : Dev nD) (t : Fin (cfg0.N + 1)) : (dats m c).owed t = 0 := rfl

/-- What the body leaves, window by window. -/
theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]
theorem after4 (c : Dev nD) (t : Fin cfg0.N) : (dats m c).after 4 t = outsAt m c t.val t.isLt := by dsimp only [dats]

/-- Each input window is fetched at every point, so its current staging buffer holds its block there. -/
theorem before0 (c : Dev nD) (t : Fin cfg0.N) (d) : (dats m c).before 0 t d = iblk m c 0 t :=
  ((dats m c).before_fetched 0 t (fetch0_0 t) d).trans (by unfold Dat.fetched Dat.blockOf iblk; rw [dats_A]; try rfl)
theorem before1 (c : Dev nD) (t : Fin cfg0.N) (d) : (dats m c).before 1 t d = iblk m c 1 t :=
  ((dats m c).before_fetched 1 t (fetch0_1 t) d).trans (by unfold Dat.fetched Dat.blockOf iblk; rw [dats_A]; try rfl)
theorem before2 (c : Dev nD) (t : Fin cfg0.N) (d) : (dats m c).before 2 t d = iblk m c 2 t :=
  ((dats m c).before_fetched 2 t (fetch0_2 t) d).trans (by unfold Dat.fetched Dat.blockOf iblk; rw [dats_A]; try rfl)
theorem before3 (c : Dev nD) (t : Fin cfg0.N) (d) : (dats m c).before 3 t d = iblk m c 3 t :=
  ((dats m c).before_fetched 3 t (fetch0_3 t) d).trans (by unfold Dat.fetched Dat.blockOf iblk; rw [dats_A]; try rfl)

/-- At a later depth tile the output's current staging buffer holds what the body left at the point before: the point
    is not the first, and the buffer is written back only after a last depth tile, which the point before is not. -/
theorem before4_B (c : Dev nD) (t : Fin cfg0.N) (h0 : ¬t.val % 8 = 0) (d) :
    (dats m c).before 4 t d = outsAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d)))

/-- and what it returns. -/
def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t))

set_option maxHeartbeats 800000 in
/-- The body at any point: the four inputs' buffers hold their blocks; the point is a first depth tile or not; at a
    later tile the output's buffer holds what the point before left; so the case's run applies, and what it leaves
    in the output's buffer is read back through the pieces it wrote; the invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m c).Φ t.succ = (dats m c).Φ t.castSucc from rfl,
    show (dats m c).owesAt () t.succ = (dats m c).owesAt () t.castSucc from rfl,
    after0, after1, after2, after3, after4]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))
  · rw [outsAt_B m c t h0]
    simp only [before4_B m c t h0]
    iintro ⟨HΦ, Ho, ⟨%d0, H0⟩, ⟨%d1, H1⟩, ⟨%d2, H2⟩, ⟨%d3, H3⟩, ⟨%d4, H4⟩⟩
    iapply ((kernelRunB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt))

/-- The library's body obligation, at every point. -/
theorem body_obligation (c : Dev nD) : BodyObligation (dats (F := F) m c) (defs₀ (F := F)) Variants.none () Set.univ := fun t => by
  rw [bigSep_W0, bigSep_W0]
  exact sound_body m c t

end Cert.KernelIdeal.Hand

end
-- ==== Proof.HandK.LaunchSplit.lean ====
import proofs.«408089_j31568009625984_3_alg».proof.Proof.Gen.Kernel.Launch
import Idealize.ShloMosaic.Lib.Pipeline.Regions
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's arrays against the core's buffers, two windows sharing an array

The five windows stand on three buffers: windows 0 and 1 on the first argument, windows 2 and 3 on the second,
window 4 on the result. A buffer under two windows is held by halves, one half per window; the result is held whole. -/

/-- The shares: the two windows on one array hold its two halves, the output window is full. -/
def shares : Fin cfg0.W → PosShare TreeShare
  | ⟨0, _⟩ => fullShare.left
  | ⟨1, _⟩ => fullShare.right
  | ⟨2, _⟩ => fullShare.left
  | ⟨3, _⟩ => fullShare.right
  | ⟨4, _⟩ => fullShare
  | ⟨_ + 5, h⟩ => absurd h (Nat.not_lt.2 (Nat.le_add_left _ _))

/-- The buffers behind the windows' arrays are the two arguments and the result. -/
theorem arrRefs_eq : Finset.univ.image (Pipeline.arrRef spec0) = [main_arg0, main_arg1, main_v0].toFinset := by decide

section Arrays

variable (c : Dev nD) (dat : Dat τ (Elt F) Unit ℕ (UR sig nD τ) ℕ cfg0 c) (hq : dat.q = shares)

include hq in
/-- The share each window's array is held at. -/
theorem share_0 : dat.share 0 = fullShare.left := by unfold Pipeline.Dat.share; rw [hq]; rfl
include hq in
theorem share_1 : dat.share 1 = fullShare.right := by unfold Pipeline.Dat.share; rw [hq]; rfl
include hq in
theorem share_2 : dat.share 2 = fullShare.left := by unfold Pipeline.Dat.share; rw [hq]; rfl
include hq in
theorem share_3 : dat.share 3 = fullShare.right := by unfold Pipeline.Dat.share; rw [hq]; rfl
theorem share_4 : dat.share 4 = fullShare := by unfold Pipeline.Dat.share; rfl

/-- The windows' arrays at contents `G`, window by window: each a whole buffer at its window's share. -/
theorem arrays_eq5 (G : (w : Fin cfg0.W) → Buf (Elt F) ((cfg0.win w).arr.view.loc (c : Thread nD τ))) :
    (dat.arrays G : sProp 𝕄) = iprop(
      (((c : Thread nD τ).loc main_arg0) ↦{dat.share 0} G 0) ∗ (((c : Thread nD τ).loc main_arg0) ↦{dat.share 1} G 1)
      ∗ (((c : Thread nD τ).loc main_arg1) ↦{dat.share 2} G 2) ∗ (((c : Thread nD τ).loc main_arg1) ↦{dat.share 3} G 3)
      ∗ (((c : Thread nD τ).loc main_v0) ↦{dat.share 4} G 4)) := by
  unfold Pipeline.Dat.arrays
  -- windows on one array name the same index set: one rewriting per buffer
  rw [Gen.bigSep_W0, (Gen.arr_whole0 0).set_eq_univ, (Gen.arr_whole0 2).set_eq_univ, (Gen.arr_whole0 4).set_eq_univ]

/-- The three buffers behind the arrays, each whole at the full share at contents `V`, one by one. -/
theorem arrBufs_eq3 (V : (b : Ref sig .tc) → Buf (Elt F) ((c : Thread nD τ).loc b)) :
    (Pipeline.arrBufs spec0 c V : sProp 𝕄) = iprop(
      (((c : Thread nD τ).loc main_arg0) ↦{fullShare} V main_arg0) ∗ (((c : Thread nD τ).loc main_arg1) ↦{fullShare} V main_arg1)
      ∗ (((c : Thread nD τ).loc main_v0) ↦{fullShare} V main_v0)) := by
  unfold Pipeline.arrBufs
  rw [BI.bigSep_eq_bigSepL_of_eq [main_arg0, main_arg1, main_v0] arrRefs_eq (by decide)]
  rfl

include hq in
/-- ENTRY: the three buffers whole at `V` are the five windows' arrays at contents read off `V` — each argument's
    buffer split into its two halves, one per window standing on it. -/
theorem arrays_of_arrBufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs spec0 c V : sProp 𝕄) ⊢ dat.arrays G := by
  rw [arrays_eq5, arrBufs_eq3, share_0 c dat hq, share_1 c dat hq, share_2 c dat hq, share_3 c dat hq, share_4 c dat,
    hG 0, hG 1, hG 2, hG 3, hG 4]
  iintro ⟨H0, H1, H2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H2

include hq in
/-- EXIT: the five windows' arrays at contents that a valuation `V` names are the three buffers whole at `V` —
    the two halves of each argument's buffer, at the same contents, joined. -/
theorem arrBufs_of_arrays (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄) ⊢ Pipeline.arrBufs spec0 c V := by
  rw [arrays_eq5, arrBufs_eq3, share_0 c dat hq, share_1 c dat hq, share_2 c dat hq, share_3 c dat hq, share_4 c dat,
    hG 0, hG 1, hG 2, hG 3, hG 4]
  iintro ⟨H0l, H0r, H1l, H1r, H2⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  iexact H2

end Arrays

end Cert.Kernel.Hand

end
-- ==== Proof.HandK.Launch.lean ====
import proofs.«408089_j31568009625984_3_alg».proof.Proof.Gen.Kernel.Launch
import proofs.«408089_j31568009625984_3_alg».proof.Proof.Gen.Kernel.Skeleton
import proofs.«408089_j31568009625984_3_alg».proof.Proof.Gen.Kernel.Points
import proofs.«408089_j31568009625984_3_alg».proof.Proof.HandK.LaunchSplit
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: @main is one kernel region followed by one stretch of host operations -/

/-- Core `c`'s buffer contents at launch. -/
abbrev W0 (c : Dev nD) : Valuation τ sig (Elt F) := fun b => m ((c : Dev nD), b)
/-- The same read at the TensorCore's references. -/
abbrev V0 (c : Dev nD) : (b : Ref sig .tc) → Buf (Elt F) ((c : Thread nD τ).loc b) := fun b => m ((c : Thread nD τ).loc b)

open Classical in
/-- Core `c`'s TensorCore buffer contents after the region: the launch memory, except `main_v0` at `o`. -/
def Wout (c : Dev nD) (o : Buf (Elt F) ((c : Thread nD τ).loc main_v0)) : Valuation τ sig (Elt F) :=
  Function.update (W0 m c) (Proc.devRef .tc main_v0) o

theorem Wout_out (c : Dev nD) (o : Buf (Elt F) ((c : Thread nD τ).loc main_v0)) :
    Wout m c o (Proc.devRef .tc main_v0) = o := by
  unfold Wout; exact Function.update_self _ _ _

theorem Wout_of_ne (c : Dev nD) (o : Buf (Elt F) ((c : Thread nD τ).loc main_v0)) (b : Ref sig .tc) (hb : b ≠ main_v0) :
    Wout m c o (Proc.devRef .tc b) = m ((c : Thread nD τ).loc b) := by
  unfold Wout; exact Function.update_of_ne (StableHlo.devRef_ne_of_ne hb) _ _

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the host stretch allocates a buffer. -/
theorem hostOps1_fresh : (Gen.hostOps1 : List (HloOp τ sig (Elt F))).Forall fun op => op.fresh = ∅ := by
  simp only [List.Forall]; repeat' constructor

/-- No operation of the host stretch writes the first argument, -/
theorem after_hostOps1_arg0 (W : Valuation τ sig (Elt F)) :
    StableHlo.after Gen.hostOps1 W (Proc.devRef .tc main_arg0) = W (Proc.devRef .tc main_arg0) :=
  StableHlo.after_of_forall_not_mem (b := Proc.devRef .tc main_arg0) _ _ (List.forall_iff_forall_mem.mp (by
    simp only [Gen.hostOps1, List.Forall, StableHlo.nullary_writes, StableHlo.unary_writes, StableHlo.binary_writes,
      StableHlo.reshape_writes, Finset.mem_singleton]
    repeat' apply And.intro
    all_goals exact StableHlo.devRef_ne_of_ne (by decide)))

/-- nor the second. -/
theorem after_hostOps1_arg1 (W : Valuation τ sig (Elt F)) :
    StableHlo.after Gen.hostOps1 W (Proc.devRef .tc main_arg1) = W (Proc.devRef .tc main_arg1) :=
  StableHlo.after_of_forall_not_mem (b := Proc.devRef .tc main_arg1) _ _ (List.forall_iff_forall_mem.mp (by
    simp only [Gen.hostOps1, List.Forall, StableHlo.nullary_writes, StableHlo.unary_writes, StableHlo.binary_writes,
      StableHlo.reshape_writes, Finset.mem_singleton]
    repeat' apply And.intro
    all_goals exact StableHlo.devRef_ne_of_ne (by decide)))

/-- So after the region and the host stretch the first argument's buffer is as launched, -/
theorem after_Wout_arg0 (c : Dev nD) (o : Buf (Elt F) ((c : Thread nD τ).loc main_v0)) :
    StableHlo.after Gen.hostOps1 (Wout m c o) (Proc.devRef .tc main_arg0) = m ((c : Thread nD τ).loc main_arg0) :=
  (after_hostOps1_arg0 _).trans (Wout_of_ne m c o main_arg0 (by decide))

/-- and so is the second's. -/
theorem after_Wout_arg1 (c : Dev nD) (o : Buf (Elt F) ((c : Thread nD τ).loc main_v0)) :
    StableHlo.after Gen.hostOps1 (Wout m c o) (Proc.devRef .tc main_arg1) = m ((c : Thread nD τ).loc main_arg1) :=
  (after_hostOps1_arg1 _).trans (Wout_of_ne m c o main_arg1 (by decide))

/-! ## The proof data family and the thread state -/

/-- The prefetched tables' admissible contents: the pipeline has no table. -/
abbrev adm : (p : Fin 1) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its
    `owes`, at nothing. -/
abbrev R (c : Dev nD) : sProp 𝕄 := iprop((∃ r, prngReg c r) ∗ ∃ W, owes (c : Thread nD τ) (0 : CellTallies nD τ sig Unit) W)

/-- The same at launch: the core owes nothing and its waits have recorded nothing. -/
abbrev R₀ (c : Dev nD) : sProp 𝕄 := iprop((∃ r, prngReg c r) ∗ owes (c : Thread nD τ) (0 : CellTallies nD τ sig Unit) ∅)

section Run

variable (dat : (c : Dev nD) → Dat τ (Elt F) Unit ℕ (UR sig nD τ) ℕ cfg0 c)

/-- The one pipeline's proof data. -/
def pdats : (p : Fin 1) → (c : Dev nD) → Dat τ (Elt F) Unit ℕ (UR sig nD τ) ℕ (Pipeline.pin (pcfgs (F := F)) adm p) c
  | ⟨0, _⟩ => fun c => dat c

/-- Core `c`'s buffer contents when the region is left: the result array at what the write-backs leave. -/
abbrev W1 (c : Dev nD) : Valuation τ sig (Elt F) := Wout m c ((dat c).arrAt 4 cfg0.N)
/-- and when @main returns: after the host stretch. -/
abbrev W2 (c : Dev nD) : Valuation τ sig (Elt F) := StableHlo.after Gen.hostOps1 (W1 m dat c)

/-- The host stretch as a segment from the contents `W`. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp hostOps1_fresh) op h) W R

variable (hA : ∀ c w, (dat c).A w = V0 m c (Pipeline.arrRef spec0 w))
  (hq : ∀ c, (dat c).q = shares)
  (hΦ : ∀ c t, (dat c).Φ t = Pipeline.ΦA spec0 c)
  (howed : ∀ c t, (dat c).owed t = 0)
  (hbody : ∀ c, BodyObligation (dat c) (defs₀ (F := F)) Variants.none () Set.univ)

include hA in
/-- At the region's exit every window's array holds what the exit contents name: an input window's array is never
    written, the result array is at what the write-backs leave. -/
theorem hF (c : Dev nD) : ∀ w : Fin cfg0.W, (dat c).arrAt w cfg0.N = (fun b : Ref sig .tc => W1 m dat c b) (Pipeline.arrRef spec0 w)
  | ⟨0, _⟩ => ((dat c).arrAt_in 0 rfl _).trans ((hA c 0).trans (Wout_of_ne m c _ main_arg0 (by decide)).symm)
  | ⟨1, _⟩ => ((dat c).arrAt_in 1 rfl _).trans ((hA c 1).trans (Wout_of_ne m c _ main_arg0 (by decide)).symm)
  | ⟨2, _⟩ => ((dat c).arrAt_in 2 rfl _).trans ((hA c 2).trans (Wout_of_ne m c _ main_arg1 (by decide)).symm)
  | ⟨3, _⟩ => ((dat c).arrAt_in 3 rfl _).trans ((hA c 3).trans (Wout_of_ne m c _ main_arg1 (by decide)).symm)
  | ⟨4, _⟩ => (Wout_out m c _).symm
  | ⟨_ + 5, h⟩ => absurd h (Nat.not_lt.2 (Nat.le_add_left _ _))

/-- Off the windows' arrays the exit contents are the launch memory. -/
theorem hrest (c : Dev nD) (b : Ref sig .tc) (hb : b ∉ Finset.univ.image (Pipeline.arrRef spec0)) :
    W1 m dat c (Proc.devRef .tc b) = V0 m c b :=
  Wout_of_ne m c _ b fun e => hb (e ▸ (by decide : main_v0 ∈ Finset.univ.image (Pipeline.arrRef spec0)))

include hA hq in
/-- ENTRY, the buffers' part: the core's unscoped buffers at the launch memory are the pipeline's arrays at the proof
    data's entry contents and the unscoped rest. -/
theorem entry_split (c : Dev nD) :
    (StableHlo.held (c : Thread nD τ) (Pipeline.ucRefs τ sig) (W0 m c) : sProp 𝕄)
      ⊢ iprop((dat c).arrays ((dat c).arrAt · 0) ∗ Pipeline.unscopedRest spec0 c (V0 m c)) := by
  rw [← Pipeline.unscopedBufs_held c (W0 m c)]
  refine (Entails.of_eq (Pipeline.unscopedBufs_split₀ cfgs 0 Gen.winFacts₀0.arr_unscoped c (V0 m c))).trans ?_
  exact sep_mono (arrays_of_arrBufs c (dat c) (hq c) (V0 m c) _ (fun w => hA c w)) .rfl

include hA hq in
/-- EXIT, the buffers' part: the pipeline's arrays at what it leaves and the unscoped rest are the core's unscoped
    buffers at the exit contents. -/
theorem exit_join (c : Dev nD) :
    iprop((dat c).arrays ((dat c).arrAt · cfg0.N) ∗ Pipeline.unscopedRest spec0 c (V0 m c))
      ⊢ (StableHlo.held (c : Thread nD τ) (Pipeline.ucRefs τ sig) (W1 m dat c) : sProp 𝕄) := by
  rw [← Pipeline.unscopedBufs_held c (W1 m dat c)]
  refine BI.Entails.trans ?_ (Entails.of_eq (Pipeline.unscopedBufs_split₀ cfgs 0 Gen.winFacts₀0.arr_unscoped c (fun b => W1 m dat c b)).symm)
  refine sep_mono (arrBufs_of_arrays c (dat c) (hq c) (fun b => W1 m dat c b) _ (hF m dat hA c)) (Entails.of_eq ?_)
  unfold Pipeline.unscopedRest
  exact bigSep_congr fun b hb => by
    show _ = (((c : Thread nD τ).loc b) ↦{fullShare} W1 m dat c (Proc.devRef .tc b) : sProp 𝕄)
    rw [hrest m dat c b (Finset.mem_sdiff.mp hb).2]

/-! ## The region as a segment -/

set_option backward.isDefEq.respectTransparency.types false in
/-- THE REGION over the thread state: entered from every unscoped buffer at the launch memory, left with the result
    array at what the write-backs leave and every other buffer as launched. The arrays are split out of the unscoped
    buffers (each argument's buffer by halves) and put back at the exit contents; the generator register goes into
    the class invariant and comes out; nothing is owed; the kernel has no semaphore of its own. -/
def reg0 : Pipeline.RegionSeg (pcfgs (F := F)) adm (pdats dat) () defs₀ 𝒱₀ L lv 0 where
  win := Gen.winFacts₀0
  block_pos := Gen.block_pos0
  stage_whole := Gen.stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m c) ∗ R₀ c)
  post c := iprop(StableHlo.held (c : Thread nD τ) (Pipeline.ucRefs τ sig) (W1 m dat c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := entry_split m dat hA hq c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat 0 c).owed 0 = 0 from howed c 0]
      iexists ∅; isplitr; · ipureintro; simp
      iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin := exit_join m dat hA hq c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats dat 0 c).owed (Fin.last _) = 0 from howed c _]
    icases HO with ⟨%W, -, HO⟩; iexists W; iexact HO

/-! ## @main as segments, and the launch -/

/-- @main's two segments: the region, then the host stretch from the region's exit contents. -/
abbrev segs : List (Pipeline.Seg (pcfgs (F := F)) adm (pdats dat) () defs₀ 𝒱₀ L lv) :=
  [ .region (reg0 m dat hA hq hΦ howed hbody),
    .host (hseg (W1 m dat)) ]

include hA hq hΦ howed hbody in
/-- @main IS the run of the segments: the chain of its two items, each a segment's fragment. -/
theorem main_run (c : Dev nD) : main (F := F) c = Pipeline.Seg.run (segs m dat hA hq hΦ howed hbody) :=
  (Gen.main_chain c).trans (by rw [Pipeline.Seg.run_eq_chain]; rfl)

/-- The last thread state without the `owes`: every unscoped buffer at the contents @main returns with, the generator
    register at some state. -/
abbrev Tₙ (c : Dev nD) : sProp 𝕄 := iprop(StableHlo.held (c : Thread nD τ) (Pipeline.ucRefs τ sig) (W2 m dat c) ∗ ∃ r, prngReg c r)

include hA hq hΦ howed hbody in
set_option backward.isDefEq.respectTransparency.types false in
/-- THE RUN: from any memory with zero counters every weakly fair execution of @main on the TensorCores terminates,
    nothing faulting, and in every final state each unscoped TensorCore buffer holds what the host stretch computes
    from the launch memory with the result array at what the region's write-backs leave. -/
theorem run_main_of :
    θ_run defs (onTc (τ := τ) (main (F := F))) ⟨m, fun _ => 0, ρ⟩ (fun r => ∀ c : Dev nD,
      ∀ b ∈ Pipeline.ucRefs τ sig, r.2.mem (((c : Thread nD τ)).1, b)
        = StableHlo.after Gen.hostOps1 (Wout m c ((dat c).arrAt 4 cfg0.N)) b) :=
  Pipeline.θ_run_regions_kit (pcfgs (F := F)) adm (pdats dat) () Gen.cellOf_inj emb₁ defs₀ 𝒱₀ L lv m ρ main
    (segs m dat hA hq hΦ howed hbody)
    (fun c Q => by rw [main_run m dat hA hq hΦ howed hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m dat)
    (hch := ⟨fun _ => .rfl, fun _ => .rfl, fun c =>
      show iprop(StableHlo.held (c : Thread nD τ) (Pipeline.ucRefs τ sig) (W2 m dat c) ∗ R c)
        ⊢ iprop(Tₙ m dat c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c => h c)

end Run

end Cert.Kernel.Hand

end
-- ==== Proof.HandK.Base.lean ====
/-
  What the frame of the depth-tiled boundary-loss kernel is stated over: the arrays as the region finds them (the
  region is the program's first item, so they are the launch memory), each window's block at a grid point, the two
  conditions the body computes from the depth-tile coordinate (the reset of the accumulator at the first tile, the mask
  of the boundary plane at the last tile) in closed form over the 32 grid points, the staging memrefs as the pipeline
  passes them, and the body's arithmetic as ONE term: the 27 statistics of a tile (the cross-entropy sum, then a
  numerator and a denominator for each of the 13 directions) as a function of the four input blocks and the last-tile flag.
-/
import proofs.«408089_j31568009625984_3_alg».proof.Proof.Gen.Kernel.Launch
import proofs.«408089_j31568009625984_3_alg».proof.Proof.Gen.Kernel.Skeleton
import proofs.«408089_j31568009625984_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body resets the accumulator when the depth-tile coordinate is zero: the condition of its one branch, from the
    grid coordinates. -/
abbrev cond0 (i : grid0.Coords) : Prop :=
  (Scalar.cmpi .ne (Scalar.extui (Scalar.cmpi .eq (BitVec.ofNat 32 (i 1).val) 0#32)) 0#32) = 1#1

/-- It holds at the first depth tile of each batch entry: the points divisible by 8. -/
theorem hcond0 : ∀ t : Fin cfg0.N, cond0 (grid0.coords t) ↔ t.val % 8 = 0 :=
  (by decide +kernel : ∀ t : Fin grid0.N, cond0 (grid0.coords t) ↔ t.val % 8 = 0)

/-- The flag that masks the boundary plane: the depth-tile coordinate is the last one. -/
abbrev lastFlag (i : grid0.Coords) : BitVec 1 := Scalar.cmpi .eq (BitVec.ofNat 32 (i 1).val) 7#32

/-- It is set at the last depth tile of each batch entry: the points that are 7 modulo 8, -/
theorem hlast : ∀ t : Fin cfg0.N, lastFlag (grid0.coords t) = 1#1 ↔ t.val % 8 = 7 :=
  (by decide +kernel : ∀ t : Fin grid0.N, lastFlag (grid0.coords t) = 1#1 ↔ t.val % 8 = 7)

/-- and clear at the others. -/
theorem hlast' : ∀ t : Fin cfg0.N, lastFlag (grid0.coords t) = 0#1 ↔ t.val % 8 ≠ 7 :=
  (by decide +kernel : ∀ t : Fin grid0.N, lastFlag (grid0.coords t) = 0#1 ↔ t.val % 8 ≠ 7)

/-- One staging buffer of the output window, through which its contents are stated. -/
abbrev VO4 : View sig .tc .vmem S1x8x128 .f32 := (Memref.whole cc0_stg4_0 : Memref sig .tc .vmem S1x8x128 .f32).view

/-- Each window's current staging memref at point `t`, as the pipeline passes it to the body, and its wholeness. -/
abbrev ms0 (t : Fin cfg0.N) : Memref sig .tc .vmem S1x1x16x192x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1x192x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x16x192x192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1x192x192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)

/-- THE TILE'S STATISTICS. From the tile's planes of the first array (`v3`), of the second (`v5`), the plane after the
    tile of each (`v7`, `v9`) and the last-tile flag (`v11`): the 27 numbers the body adds to row 0 of the accumulator,
    composed from the body's payloads exactly as its nine parts hand them on. Lane 0 is the cross-entropy sum of the
    tile; lanes 1, 2 … 25, 26 are the numerator and denominator of the 13 directions in the kernel's order (the four
    in-plane ones, then the nine that step one plane forward). -/
def statsVec (v3 v5 : Vec F S1x1x16x192x192 .f32) (v7 v9 : Vec F S1x1x1x192x192 .f32) (v11 : BitVec 1) : FVec F S27 .f32 :=
  have v4 := k0_pay4 v3
  have v6 := k0_pay5 v5
  have v8 := k0_pay6 v7
  have v10 := k0_pay7 v9
  have v24 := k0_pay8 v3 v5
  have v27 := k0_pay9 v3
  have v30 := k0_pay10 v5
  have v35 := k0_pay11 v27 v30
  have v40 := k0_pay12 v30
  have v51 := k0_pay14 v4 v6
  have v56 := k0_pay15 v6
  have v67 := k0_pay17 v4 v6
  have v72 := k0_pay18 v6
  have v78 := k0_pay19 v6
  have v83 := k0_pay20 v4 v6
  have v88 := k0_pay21 v78
  have v89 := k0_pay22 v4
  have v90 := k0_pay23 v4
  have v91 := k0_pay24 v6
  have v92 := k0_pay25 v6
  have v93 := k0_pay26 v4
  have v94 := k0_pay27 v6
  have v121 := k0_pay30 v4 v6 v8 v10 v11
  have v132 := k0_pay31 v6 v10 v11
  have v135 := k0_pay32 v4
  have v136 := k0_pay33 v6
  have v159 := k0_pay36 v8 v10 v11 v92 v93 v94 v135 v136
  have v170 := k0_pay37 v10 v11 v92 v94 v136
  have v176 := k0_pay38 v91 v92
  have v184 := k0_pay39 v8 v11 v93
  have v186 := k0_pay40 v10 v11 v94
  have v188 := k0_pay41 v89 v90 v91 v92
  have v197 := k0_pay42 v184 v186 v188
  have v208 := k0_pay43 v176 v186
  have v224 := k0_pay45 v10 v11 v94
  have v235 := k0_pay46 v8 v10 v11 v89 v90 v91 v92 v93 v94
  have v239 := k0_pay47 v91 v92
  have v246 := k0_pay48 v224 v239
  have v265 := k0_pay51 v8 v10 v11 v89 v90 v91 v92 v93 v94
  have v276 := k0_pay52 v10 v11 v91 v92 v94
  have v279 := k0_pay53 v89 v90
  have v282 := k0_pay54 v91 v92
  have v288 := k0_pay55 v10 v94
  have v290 := k0_pay56 v8 v11 v93
  have cst_61 : F .f32 := Scalar.ofBits .f32 0x00000000#32
  have v303 := k0_pay58 v11 v279 v282 v288 v290 cst_61
  have v314 := k0_pay59 v11 v282 v288 cst_61
  have v330 := k0_pay61 v10 v11 v94
  have v341 := k0_pay62 v8 v10 v11 v89 v90 v91 v92 v93 v94
  have v342 := k0_pay63 v91 v92
  have v352 := k0_pay64 v330 v342
  have v379 := k0_pay67 v8 v10 v11 v89 v90 v91 v92 v93 v94
  have v390 := k0_pay68 v10 v11 v91 v92 v94
  have v393 := k0_pay69 v89 v90
  have v394 := k0_pay70 v91
  have v417 := k0_pay73 v8 v10 v11 v92 v93 v94 v393 v394
  have v428 := k0_pay74 v10 v11 v92 v94 v394
  k0_pay1 v314 v341 v352 v379 v390 v417 v428 (k0_pay75 v24) (k0_pay76 v35) (k0_pay77 v40) (k0_pay78 v51) (k0_pay79 v56)
    (k0_pay80 v67) (k0_pay81 v72) (k0_pay82 v83) (k0_pay83 v88) (k0_pay84 v121) (k0_pay85 v132) (k0_pay86 v159) (k0_pay87 v170)
    (k0_pay88 v197) (k0_pay89 v208) (k0_pay90 v235) (k0_pay91 v246) (k0_pay92 v265) (k0_pay93 v276) (k0_pay94 v303)

end Cert.Kernel.Hand

end
-- ==== Proof.HandK.RunA.lean ====
/-
  The body of the depth-tiled boundary-loss kernel run at a point where the accumulator is reset (the depth-tile
  coordinate is zero), on whole staging memrefs: the four input buffers at their contents, the output buffer at
  anything. The body first fills the output block with zeros, reads the four input blocks, computes the tile's 27
  statistics, reads row 0 of the output block back and stores row 0 again with the statistics added. What the two
  stores leave in the output buffer is a list of two pieces (the later first): the fill of the whole block and, over it,
  row 0; the body's triple is stated of that list.
-/
import proofs.«408089_j31568009625984_3_alg».proof.Proof.HandK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging memref when the reset branch is taken (later store first),
    with the triple: on whole staging memrefs, the inputs' at their contents and the output's at anything, the body runs
    to a continuation that is given the inputs' as they were and the output's buffer with the pieces written. -/
noncomputable def kernelRunA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__gc3d_kernel i arg2 harg2 arg3 harg3 arg4 harg4 arg5 harg5 arg6 harg6) K } := by
  refine ⟨?_, fun E K => ?run⟩
  case run =>
    simp only [cc0__gc3d_kernel_eq_skeleton]; unfold cc0__gc3d_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The two pieces tile the output block (the fill is the whole block), so they cover it. -/
theorem coverA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) (y : S1x8x128.Idx) :
    ∃ pc ∈ (kernelRunA c i arg2 harg2 arg3 harg3 arg4 harg4 arg5 harg5 arg6 harg6 hc0 x0 x1 x2 x3).1, y ∈ pc.1.set :=
  View.cover_of_tiledL (kernelRunA c i arg2 harg2 arg3 harg3 arg4 harg4 arg5 harg5 arg6 harg6 hc0 x0 x1 x2 x3).1 S1x8x128.size (by sl_kernel_rfl) y

/-- What the reset case leaves in the output's staging buffer: its pieces read back over junk. -/
def outA (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) : Vec F S1x8x128 .f32 :=
  VO4.read (Elt F) (VO4.writes (Elt F) VO4.junk (kernelRunA c i arg2 harg2 arg3 harg3 arg4 harg4 arg5 harg5 arg6 harg6 hc0 x0 x1 x2 x3).1)

end Cert.Kernel.Hand

end
-- ==== Proof.HandK.RunB.lean ====
/-
  The body of the depth-tiled boundary-loss kernel run at a point where the accumulator is kept (the depth-tile
  coordinate is not zero), on whole staging memrefs: the four input buffers at their contents, the output buffer at the
  running contents `xo`. The body reads the four input blocks, computes the tile's 27 statistics, reads row 0 of the
  output block and stores row 0 with the statistics added: ONE piece, which covers row 0 only, so the rest of the block
  keeps `xo`. What the buffer reads afterwards is therefore stated over `xo`: the pieces overlaid on it.
-/
import proofs.«408089_j31568009625984_3_alg».proof.Proof.HandK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pieces written over given contents -/

/-- The contents a list of unmasked writes (the last first) leaves over contents `X`: at each index the payload of the
    first piece of the list whose rectangle holds it, `X` at an index no piece holds. -/
def piecesOver {s : Shape} {e : EltTy} {Val : EltTy → Type} (X : s.Idx → Val e) : List (View.Piece Val s e) → s.Idx → Val e
  | [] => X
  | p :: L => p.1.overlay (piecesOver X L) p.2

/-- A read of writes over contents `f`, through any view, is the pieces over what `f` reads. -/
theorem read_writes_apply_eq_piecesOver {sg : RefSig} {κ : Kind} {sp : Space} {s : Shape} {e : EltTy} {Val : EltTy → Type}
    (v : View sg κ sp s e) (f : v.ty.Contents Val) (y : s.Idx) :
    ∀ L : List (View.Piece Val s e), v.read Val (v.writes Val f L) y = piecesOver (v.read Val f) L y
  | [] => rfl
  | p :: L => by
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy']
      exact (read_writes_apply_eq_piecesOver v f y L).trans (p.1.overlay_of_not_mem _ _ hy).symm

theorem read_writes_eq_piecesOver {sg : RefSig} {κ : Kind} {sp : Space} {s : Shape} {e : EltTy} {Val : EltTy → Type}
    (v : View sg κ sp s e) (f : v.ty.Contents Val) (L : List (View.Piece Val s e)) :
    v.read Val (v.writes Val f L) = piecesOver (v.read Val f) L :=
  funext fun y => read_writes_apply_eq_piecesOver v f y L

/-! ## The run -/

set_option maxHeartbeats 1000000 in
/-- The pieces the body's stores leave in the output's staging memref when the reset branch is not taken, with the
    triple: on whole staging memrefs, the inputs' at their contents and the output's at `xo`, the body runs to a
    continuation that is given the inputs' as they were and the output's buffer at `xo`'s raw contents with the pieces
    written. -/
noncomputable def kernelRunB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    { L : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3
                ∗ arg6.view.loc (c : Thread nD τ) ↦[arg6.view.set]{fullShare} arg6.view.writes (Elt F) (harg6.unread xo) L) -∗ K ⟨⟩))
          ⊢ wp frame (wpE (defs₀ (F := F)) Variants.none c none) E (cc0__gc3d_kernel i arg2 harg2 arg3 harg3 arg4 harg4 arg5 harg5 arg6 harg6) K } := by
  refine ⟨?_, fun E K => ?run⟩
  case run =>
    simp only [cc0__gc3d_kernel_eq_skeleton]; unfold cc0__gc3d_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

/-- What this case leaves in the output's staging buffer: its pieces over what the buffer held. -/
def outB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) : Vec F S1x8x128 .f32 :=
  piecesOver xo (kernelRunB c i arg2 harg2 arg3 harg3 arg4 harg4 arg5 harg5 arg6 harg6 hc0 x0 x1 x2 x3 xo).1

/-- The buffer the run's post names reads as `outB`, through the memref's own view. -/
theorem readB (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    arg6.view.read (Elt F) (arg6.view.writes (Elt F) (harg6.unread xo) (kernelRunB c i arg2 harg2 arg3 harg3 arg4 harg4 arg5 harg5 arg6 harg6 hc0 x0 x1 x2 x3 xo).1)
      = outB c i arg2 harg2 arg3 harg3 arg4 harg4 arg5 harg5 arg6 harg6 hc0 x0 x1 x2 x3 xo := by
  rw [read_writes_eq_piecesOver, harg6.read_unread]; rfl

end Cert.Kernel.Hand

end
-- ==== Proof.HandK.Data.lean ====
/-
  The proof data of the depth-tiled pipeline and its body obligation. The output block of a batch entry is carried over
  the entry's eight depth tiles: what its staging buffer holds after a point is defined by recursion on the point (the
  resetting case at a first tile, the accumulating case over the point before at a later one). With the four input
  windows fetched at every point and the output written back only after a last tile, what the body finds in each
  buffer is known in closed form, and each case's run of the body discharges the obligation at its points.
-/
import proofs.«408089_j31568009625984_3_alg».proof.Proof.HandK.Base
import proofs.«408089_j31568009625984_3_alg».proof.Proof.HandK.LaunchSplit
import proofs.«408089_j31568009625984_3_alg».proof.Proof.HandK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- THE ACCUMULATION. What the output's staging buffer holds after the body at position `n`: at the first depth tile
    of a batch entry (`n % 8 = 0`) what the resetting case leaves, run at the point's memrefs and the four input
    blocks; at any other tile what the accumulating case leaves over what this gives at `n - 1` (the buffer is not
    written back between two tiles of one batch entry). -/
def outsAt (c : Dev nD) : (n : ℕ) → n < cfg0.N → Vec F S1x8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- `outsAt` at a first depth tile: the resetting case's contents. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t) := by
  obtain ⟨n, hn⟩ := t
  cases n with
  | zero => exact rfl
  | succ n => exact (dif_pos h0).trans rfl

/-- `outsAt` at a later depth tile: the accumulating case's contents, over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The proof data of the pipeline on core `c`: the arrays as the region finds them; after the body at point `t` each
    input's buffer at its block there and the output's at `outsAt`; the invariant is the scoped rest and the generator
    register; nothing is owed; the two windows on one array hold its halves, the output window the whole. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q := shares
  owed _ := 0

/-- The proof data's arrays are the region-entry contents. -/
theorem dats_A (c : Dev nD) (w : Fin cfg0.W) : (dats m c).A w = V m c (Pipeline.arrRef spec0 w) := by
  dsimp only [dats]

/-- Its shares. -/
theorem dats_q (c : Dev nD) : (dats m c).q = shares := rfl

/-- Its invariant, the same before every point. -/
theorem dats_Φ (c : Dev nD) (t : Fin (cfg0.N + 1)) : (dats m c).Φ t = Pipeline.ΦA spec0 c := rfl

/-- It owes nothing. -/
theorem dats_owed (c : Dev nD) (t : Fin (cfg0.N + 1)) : (dats m c).owed t = 0 := rfl

/-- What the body leaves, window by window. -/
theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]
theorem after4 (c : Dev nD) (t : Fin cfg0.N) : (dats m c).after 4 t = outsAt m c t.val t.isLt := by dsimp only [dats]

/-- Each input window is fetched at every point, so its current staging buffer holds its block there. -/
theorem before0 (c : Dev nD) (t : Fin cfg0.N) (d) : (dats m c).before 0 t d = iblk m c 0 t :=
  ((dats m c).before_fetched 0 t (fetch0_0 t) d).trans (by unfold Dat.fetched Dat.blockOf iblk; rw [dats_A]; try rfl)
theorem before1 (c : Dev nD) (t : Fin cfg0.N) (d) : (dats m c).before 1 t d = iblk m c 1 t :=
  ((dats m c).before_fetched 1 t (fetch0_1 t) d).trans (by unfold Dat.fetched Dat.blockOf iblk; rw [dats_A]; try rfl)
theorem before2 (c : Dev nD) (t : Fin cfg0.N) (d) : (dats m c).before 2 t d = iblk m c 2 t :=
  ((dats m c).before_fetched 2 t (fetch0_2 t) d).trans (by unfold Dat.fetched Dat.blockOf iblk; rw [dats_A]; try rfl)
theorem before3 (c : Dev nD) (t : Fin cfg0.N) (d) : (dats m c).before 3 t d = iblk m c 3 t :=
  ((dats m c).before_fetched 3 t (fetch0_3 t) d).trans (by unfold Dat.fetched Dat.blockOf iblk; rw [dats_A]; try rfl)

/-- At a later depth tile the output's current staging buffer holds what the body left at the point before: the point
    is not the first, and the buffer is written back only after a last depth tile, which the point before is not. -/
theorem before4_B (c : Dev nD) (t : Fin cfg0.N) (h0 : ¬t.val % 8 = 0) (d) :
    (dats m c).before 4 t d = outsAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d)))

/-- and what it returns. -/
def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t))

set_option maxHeartbeats 800000 in
/-- The body at any point: the four inputs' buffers hold their blocks; the point is a first depth tile or not; at a
    later tile the output's buffer holds what the point before left; so the case's run applies, and what it leaves
    in the output's buffer is read back through the pieces it wrote; the invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m c).Φ t.succ = (dats m c).Φ t.castSucc from rfl,
    show (dats m c).owesAt () t.succ = (dats m c).owesAt () t.castSucc from rfl,
    after0, after1, after2, after3, after4]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c (grid0.coords t) (ms0 t) (hs0 t) (ms1 t) (hs1 t) (ms2 t) (hs2 t) (ms3 t) (hs3 t) (ms4 t) (hs4 t) ((hcond0 t).mpr h0) (iblk m c 0 t) (iblk m c 1 t) (iblk m c 2 t) (iblk m c 3 t))
  · rw [outsAt_B m c t h0]
    simp only [before4_B m c t h0]
    iintro ⟨HΦ, Ho, ⟨%d0, H0⟩, ⟨%d1, H1⟩, ⟨%d2, H2⟩, ⟨%d3, H3⟩, ⟨%d4, H4⟩⟩
    iapply ((kernelRunB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readB c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (iblk m c 2 t) (iblk m c 3 t) (outsAt m c (t.val - 1) (Nat.lt_of_le_of_lt (Nat.sub_le _ _) t.isLt))

/-- The library's body obligation, at every point. -/
theorem body_obligation (c : Dev nD) : BodyObligation (dats (F := F) m c) (defs₀ (F := F)) Variants.none () Set.univ := fun t => by
  rw [bigSep_W0, bigSep_W0]
  exact sound_body m c t

end Cert.Kernel.Hand

end
-- ==== Proof.Frames.lean ====
import proofs.«408089_j31568009625984_3_alg».proof.Defs
import proofs.«408089_j31568009625984_3_alg».proof.Proof.Gen.Kernel
import proofs.«408089_j31568009625984_3_alg».proof.Proof.Gen.KernelIdeal
import proofs.«408089_j31568009625984_3_alg».proof.Proof.Gen.Pre_finite_inputs
import proofs.«408089_j31568009625984_3_alg».proof.Proof.Hand.Launch
import proofs.«408089_j31568009625984_3_alg».proof.Proof.Hand.Data
import proofs.«408089_j31568009625984_3_alg».proof.Proof.HandK.Launch
import proofs.«408089_j31568009625984_3_alg».proof.Proof.HandK.Data

noncomputable section

namespace Cert.Proof

open Idealize.ShloMosaic Idealize.ShloMosaic.TcCoe Idealize.SL.Sem

/-! # The frame claims, and the kernel's run with its result named

Each is the launch theorem at the program's proof data, read at three buffers: no host operation writes an argument
array and the region reads each only through input windows, so both end as launched; the scalar result is what the
host stretch computes from the launch memory with the result array at what the region's write-backs leave. -/

/-- The program as printed runs, and both argument arrays end as launched. -/
theorem frame_k : Cert.frame_Kernel (hKernel := Cert.Kernel.Gen.facts) (hPre_finite_inputs := Cert.Pre_finite_inputs.Gen.facts) :=
  fun m ρ _ =>
    (Cert.Kernel.Hand.run_main_of m ρ (Cert.Kernel.Hand.dats m) (Cert.Kernel.Hand.dats_A m) (Cert.Kernel.Hand.dats_q m)
      (Cert.Kernel.Hand.dats_Φ m) (Cert.Kernel.Hand.dats_owed m) (Cert.Kernel.Hand.body_obligation m)).mono fun r h c =>
      ⟨(h c _ (Cert.Kernel.Hand.mem_uc Cert.Kernel.main_arg0 (by decide))).trans (Cert.Kernel.Hand.after_Wout_arg0 m c _),
       (h c _ (Cert.Kernel.Hand.mem_uc Cert.Kernel.main_arg1 (by decide))).trans (Cert.Kernel.Hand.after_Wout_arg1 m c _)⟩

/-- The same program read over the extended reals runs, and both argument arrays end as launched. -/
theorem frame_ki : Cert.frame_KernelIdeal (hKernelIdeal := Cert.KernelIdeal.Gen.facts) (hPre_finite_inputs := Cert.Pre_finite_inputs.Gen.facts) :=
  fun m ρ _ =>
    (Cert.KernelIdeal.Hand.run_main_of m ρ (Cert.KernelIdeal.Hand.dats m) (Cert.KernelIdeal.Hand.dats_A m) (Cert.KernelIdeal.Hand.dats_q m)
      (Cert.KernelIdeal.Hand.dats_Φ m) (Cert.KernelIdeal.Hand.dats_owed m) (Cert.KernelIdeal.Hand.body_obligation m)).mono fun r h c =>
      ⟨(h c _ (Cert.KernelIdeal.Hand.mem_uc Cert.KernelIdeal.main_arg0 (by decide))).trans (Cert.KernelIdeal.Hand.after_Wout_arg0 m c _),
       (h c _ (Cert.KernelIdeal.Hand.mem_uc Cert.KernelIdeal.main_arg1 (by decide))).trans (Cert.KernelIdeal.Hand.after_Wout_arg1 m c _)⟩

/-- Over the extended reals, from any memory: the program runs, its scalar result is what the host stretch computes
    from the launch memory with the result array at what the region's write-backs leave, and both argument arrays end
    as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v102)
            = StableHlo.after (Cert.KernelIdeal.Gen.hostOps1 (F := Ideal))
                (Cert.KernelIdeal.Hand.Wout m c ((Cert.KernelIdeal.Hand.dats m c).arrAt 4 Cert.KernelIdeal.cfg0.N))
                (Proc.devRef .tc Cert.KernelIdeal.main_v102)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (Cert.KernelIdeal.Hand.run_main_of m ρ (Cert.KernelIdeal.Hand.dats m) (Cert.KernelIdeal.Hand.dats_A m) (Cert.KernelIdeal.Hand.dats_q m)
    (Cert.KernelIdeal.Hand.dats_Φ m) (Cert.KernelIdeal.Hand.dats_owed m) (Cert.KernelIdeal.Hand.body_obligation m)).mono fun r h c =>
    ⟨h c _ (Cert.KernelIdeal.Hand.mem_uc Cert.KernelIdeal.main_v102 (by decide)),
     (h c _ (Cert.KernelIdeal.Hand.mem_uc Cert.KernelIdeal.main_arg0 (by decide))).trans (Cert.KernelIdeal.Hand.after_Wout_arg0 m c _),
     (h c _ (Cert.KernelIdeal.Hand.mem_uc Cert.KernelIdeal.main_arg1 (by decide))).trans (Cert.KernelIdeal.Hand.after_Wout_arg1 m c _)⟩

end Cert.Proof

end
-- ==== Proof.Spec.Defs.lean ====
/-
  The mathematics both programs compute, stated once over the extended reals and over NATURAL coordinates.

  The loss of a pair of arrays X, T of shape [4, 1, 128, 192, 192] is
      1 · bce + (1 − acc / 13),   bce = −(B / 18874368),   acc = Σ over 13 directions of N_d / (D_d + 1e-5),
  where B is the sum over all entries of  T · log X + (1 − T) · log (1 − X), and for a direction d — a positive and a
  negative shift along depth, row and column, each shift 0 or 1 — N_d is the sum, over every position where both shifted
  entries exist, of (X at the positive shift − X at the negative shift) · (the same difference of T), and D_d the sum of
  the squared differences of T.

  The reference takes each sum over the whole array at once. The kernel cuts the depth axis into 8 tiles of 16 planes:
  a direction that stays in the plane sums over the 16 planes of the tile; a direction that steps one plane forward sums
  over the 15 plane pairs inside the tile and adds the pair (last plane of the tile, first plane of the next tile),
  except at the last tile, where that pair does not exist and contributes 0. Adding the tiles' sums over the 8 tiles and
  the 4 batch entries gives the whole-array sums (`num_tiles0`, `num_tiles1` below: re-bracketing of a finite sum in a
  commutative monoid, no finiteness needed). Two of the reference's directions step one plane BACKWARD; negating all three
  shifts negates both differences, so their products are those of the opposite forward direction (`num_swap`, `den_swap`:
  this is the one place where the entries must be finite, because a − b = −(b − a) fails at infinities of equal sign).
-/
import Idealize.ShloMosaic.PureOps.Ideal
import Idealize.ShloMosaic.Lib.ValueIdx
import Mathlib.Algebra.BigOperators.Intervals
import Mathlib.Algebra.BigOperators.Fin

noncomputable section

namespace Cert.Spec

open Idealize.ShloMosaic Finset

/-- A whole argument array, f32[4, 1, 128, 192, 192], at the extended reals. -/
abbrev Arr := (⟨5, ![4, 1, 128, 192, 192]⟩ : Shape).Idx → EReal

/-- The array at natural coordinates (batch, depth, row, column); zero outside the array. -/
def val (X : Arr) (b z y x : ℕ) : EReal :=
  if h : b < 4 ∧ z < 128 ∧ y < 192 ∧ x < 192 then
    X (ValueIdx.ix5 (⟨b, h.1⟩ : Fin 4) (0 : Fin 1) (⟨z, h.2.1⟩ : Fin 128) (⟨y, h.2.2.1⟩ : Fin 192) (⟨x, h.2.2.2⟩ : Fin 192))
  else 0

/-- Every entry is a real number. -/
def Finite (X : Arr) : Prop := ∀ i, ∃ r : ℝ, X i = (r : EReal)

/-- The shifted difference of a direction: the entry at the positive shift minus the entry at the negative shift. -/
def dif (X : Arr) (pz py px nz ny nx : ℕ) (b z y x : ℕ) : EReal :=
  val X b (z + pz) (y + py) (x + px) - val X b (z + nz) (y + ny) (x + nx)

/-- A direction: the two shifts and the extents of the box on which both shifted entries exist. -/
structure Dir where
  (pz py px nz ny nx D A B : ℕ)

/-- The product of the two arrays' differences at a position, -/
def pnum (X T : Arr) (d : Dir) (b z y x : ℕ) : EReal :=
  dif X d.pz d.py d.px d.nz d.ny d.nx b z y x * dif T d.pz d.py d.px d.nz d.ny d.nx b z y x
/-- and the square of the second array's difference. -/
def pden (T : Arr) (d : Dir) (b z y x : ℕ) : EReal :=
  dif T d.pz d.py d.px d.nz d.ny d.nx b z y x * dif T d.pz d.py d.px d.nz d.ny d.nx b z y x

/-- The numerator of a direction: the sum of the products over the whole box, -/
def num (X T : Arr) (d : Dir) : EReal :=
  ∑ b ∈ range 4, ∑ z ∈ range d.D, ∑ y ∈ range d.A, ∑ x ∈ range d.B, pnum X T d b z y x
/-- and its denominator. -/
def den (T : Arr) (d : Dir) : EReal :=
  ∑ b ∈ range 4, ∑ z ∈ range d.D, ∑ y ∈ range d.A, ∑ x ∈ range d.B, pden T d b z y x

/-- The literal one of both programs. -/
abbrev one : EReal := Ideal.ofBits .f32 0x3F800000#32
/-- The cross-entropy term at a position, -/
def pbce (X T : Arr) (b z y x : ℕ) : EReal :=
  val T b z y x * Ideal.log (val X b z y x) + (one - val T b z y x) * Ideal.log (one - val X b z y x)
/-- and its sum over the whole array. -/
def bce (X T : Arr) : EReal := ∑ b ∈ range 4, ∑ z ∈ range 128, ∑ y ∈ range 192, ∑ x ∈ range 192, pbce X T b z y x

/-! ## The 13 directions, in the kernel's order -/

/-- The kernel's direction `k` (0 … 3 stay in the plane; 4 … 12 step one plane forward, rows and columns running over
    {−1, 0, 1}² in row-major order). A shift of +1 along an axis reads the positive entry one further and shortens the
    box by one; a shift of −1 reads the negative entry one further. -/
def kdir : ℕ → Dir
  | 0 => ⟨0, 1, 0, 0, 0, 0, 128, 191, 192⟩
  | 1 => ⟨0, 0, 1, 0, 0, 0, 128, 192, 191⟩
  | 2 => ⟨0, 1, 1, 0, 0, 0, 128, 191, 191⟩
  | 3 => ⟨0, 1, 0, 0, 0, 1, 128, 191, 191⟩
  | 4 => ⟨1, 0, 0, 0, 1, 1, 127, 191, 191⟩
  | 5 => ⟨1, 0, 0, 0, 1, 0, 127, 191, 192⟩
  | 6 => ⟨1, 0, 1, 0, 1, 0, 127, 191, 191⟩
  | 7 => ⟨1, 0, 0, 0, 0, 1, 127, 192, 191⟩
  | 8 => ⟨1, 0, 0, 0, 0, 0, 127, 192, 192⟩
  | 9 => ⟨1, 0, 1, 0, 0, 0, 127, 192, 191⟩
  | 10 => ⟨1, 1, 0, 0, 0, 1, 127, 191, 191⟩
  | 11 => ⟨1, 1, 0, 0, 0, 0, 127, 191, 192⟩
  | _ => ⟨1, 1, 1, 0, 0, 0, 127, 191, 191⟩

/-- A direction with the two shifts exchanged. -/
def Dir.swap (d : Dir) : Dir := ⟨d.nz, d.ny, d.nx, d.pz, d.py, d.px, d.D, d.A, d.B⟩

/-! ## A tile's share of each sum -/

/-- A tile's part of an in-plane direction's sum: its 16 planes. -/
def tile0 (f : ℕ → ℕ → ℕ → ℕ → EReal) (A B : ℕ) (b zt : ℕ) : EReal :=
  ∑ k ∈ range 16, ∑ y ∈ range A, ∑ x ∈ range B, f b (16 * zt + k) y x

/-- A tile's part of a forward direction's sum: the 15 plane pairs inside the tile, and the pair across the tile's end
    unless the tile is the last. -/
def tile1 (f : ℕ → ℕ → ℕ → ℕ → EReal) (A B : ℕ) (b zt : ℕ) : EReal :=
  (∑ k ∈ range 15, ∑ y ∈ range A, ∑ x ∈ range B, f b (16 * zt + k) y x)
    + (if zt = 7 then 0 else ∑ y ∈ range A, ∑ x ∈ range B, f b (16 * zt + 15) y x)

/-- The tile's statistic in lane `s`: lane 0 the cross-entropy sum, lanes 1 + 2k and 2 + 2k the numerator and the
    denominator of direction `k`. -/
def tileStat (X T : Arr) (b zt : ℕ) (s : ℕ) : EReal :=
  if s = 0 then tile0 (pbce X T) 192 192 b zt
  else
    let k := (s - 1) / 2
    let d := kdir k
    if (s - 1) % 2 = 0 then
      (if k < 4 then tile0 (pnum X T d) d.A d.B b zt else tile1 (pnum X T d) d.A d.B b zt)
    else
      (if k < 4 then tile0 (pden T d) d.A d.B b zt else tile1 (pden T d) d.A d.B b zt)

/-- What the accumulator's lane `s` holds for batch entry `b` after its 8 tiles, the way the kernel adds them: from
    zero, one tile after the other. -/
def accLane (X T : Arr) (b s : ℕ) : EReal :=
  ((((((((0 + tileStat X T b 0 s) + tileStat X T b 1 s) + tileStat X T b 2 s) + tileStat X T b 3 s) + tileStat X T b 4 s)
    + tileStat X T b 5 s) + tileStat X T b 6 s) + tileStat X T b 7 s)

/-- The lane's total over the batch, as the host's sum takes it: the initial zero plus the four entries' sum. -/
def total (X T : Arr) (s : ℕ) : EReal := 0 + ∑ b : Fin 4, accLane X T b.val s

/-! ## The scalar tail -/

abbrev count : EReal := Ideal.ofBits .f32 0x4B900000#32
abbrev smooth : EReal := Ideal.ofBits .f32 0x3727C5AC#32
abbrev thirteen : EReal := Ideal.ofBits .f32 0x41500000#32
abbrev zero : EReal := Ideal.ofBits .f32 0x00000000#32

/-- One direction's ratio. -/
def ratio (n d : EReal) : EReal := Ideal.div n (d + smooth)

/-- The kernel's scalar from its 27 lane totals `t`: the cross-entropy from lane 0, the ratios of the 13 lane pairs added
    from zero in the kernel's order. -/
def kernelLoss (t : ℕ → EReal) : EReal :=
  one * Ideal.div (-(t 0)) count
    + (one - Ideal.div (((((((((((((zero + ratio (t 1) (t 2)) + ratio (t 3) (t 4)) + ratio (t 5) (t 6)) + ratio (t 7) (t 8))
        + ratio (t 9) (t 10)) + ratio (t 11) (t 12)) + ratio (t 13) (t 14)) + ratio (t 15) (t 16)) + ratio (t 17) (t 18))
        + ratio (t 19) (t 20)) + ratio (t 21) (t 22)) + ratio (t 23) (t 24)) + ratio (t 25) (t 26)) thirteen)

/-- The reference's scalar from the whole-array sums: the cross-entropy sum `B`, and numerators `n` and denominators `d`
    indexed by the REFERENCE's order of its 13 directions. -/
def refLoss (B : EReal) (n d : ℕ → EReal) : EReal :=
  one * (-(Ideal.div B count))
    + (one - Ideal.div (((((((((((((zero + ratio (n 0) (d 0)) + ratio (n 1) (d 1)) + ratio (n 2) (d 2)) + ratio (n 3) (d 3))
        + ratio (n 4) (d 4)) + ratio (n 5) (d 5)) + ratio (n 6) (d 6)) + ratio (n 7) (d 7)) + ratio (n 8) (d 8))
        + ratio (n 9) (d 9)) + ratio (n 10) (d 10)) + ratio (n 11) (d 11)) + ratio (n 12) (d 12)) thirteen)

/-- The reference's direction `r` as it slices it (its list of offsets, a backward step reading the NEGATIVE entry one
    plane further), -/
def rdir : ℕ → Dir
  | 0 => kdir 8
  | 1 => kdir 0
  | 2 => kdir 1
  | 3 => kdir 11
  | 4 => kdir 5
  | 5 => kdir 2
  | 6 => kdir 3
  | 7 => kdir 7
  | 8 => kdir 9
  | 9 => kdir 4
  | 10 => kdir 10
  | 11 => (kdir 12).swap
  | _ => (kdir 6).swap

end Cert.Spec

end
-- ==== Proof.Val.Blocks.lean ====
/-
  The interface between the kernel's arithmetic and the specification. A tile's four blocks and its flag, as the
  specification sees them: the tile (b, zt) owns planes 16·zt … 16·zt + 15 of batch entry b of each array, the extra
  plane is plane 16·zt + 16 (it exists unless the tile is the last), and the flag says whether the tile is the last.
  Under these facts each of the 27 lanes of the tile's statistics is the specification's `tileStat` (the lane lemmas, in
  the sibling modules); that the pipeline's blocks at a grid point satisfy them is proved where the blocks are read.
-/
import proofs.«408089_j31568009625984_3_alg».proof.Proof.Hand.Base
import proofs.«408089_j31568009625984_3_alg».proof.Proof.Spec.Defs

noncomputable section

namespace Cert.KernelIdeal.Val

open Cert.KernelIdeal Cert.KernelIdeal.Gen Cert.KernelIdeal.Hand
open Idealize.ShloMosaic Idealize.ShloMosaic.TcCoe

/-- What a tile's blocks hold, in the specification's coordinates. -/
structure TileBlocks (X T : Cert.Spec.Arr) (b zt : ℕ) (v3 v5 : Vec Ideal S1x1x16x192x192 .f32) (v7 v9 : Vec Ideal S1x1x1x192x192 .f32)
    (v11 : BitVec 1) : Prop where
  /-- the tile's 16 planes of the first array, -/
  h3 : ∀ (k : Fin 16) (y x : Fin 192), v3 (ValueIdx.ix5 (0 : Fin 1) (0 : Fin 1) k y x) = Cert.Spec.val X b (16 * zt + k.val) y.val x.val
  /-- and of the second; -/
  h5 : ∀ (k : Fin 16) (y x : Fin 192), v5 (ValueIdx.ix5 (0 : Fin 1) (0 : Fin 1) k y x) = Cert.Spec.val T b (16 * zt + k.val) y.val x.val
  /-- the plane after the tile, of the first array, -/
  h7 : zt ≠ 7 → ∀ (y x : Fin 192), v7 (ValueIdx.ix5 (0 : Fin 1) (0 : Fin 1) (0 : Fin 1) y x) = Cert.Spec.val X b (16 * zt + 16) y.val x.val
  /-- and of the second, when the tile is not the last; -/
  h9 : zt ≠ 7 → ∀ (y x : Fin 192), v9 (ValueIdx.ix5 (0 : Fin 1) (0 : Fin 1) (0 : Fin 1) y x) = Cert.Spec.val T b (16 * zt + 16) y.val x.val
  /-- the flag is set exactly at the last tile. -/
  hflag : v11 = if zt = 7 then 1#1 else 0#1

variable (m : (ℓ : Loc nD τ sig) → Buf (Elt Ideal) ℓ)

/-- The two argument arrays of core `c`, as the specification's arrays. -/
abbrev argX (c : Dev nD) : Cert.Spec.Arr := m ((c : Thread nD τ).loc main_arg0)
abbrev argT (c : Dev nD) : Cert.Spec.Arr := m ((c : Thread nD τ).loc main_arg1)

end Cert.KernelIdeal.Val

end
-- ==== Proof.Spec.Sums.lean ====
/-
  Finite-sum facts the value proofs rest on. Sums over a shape's index type as iterated sums over ranges of naturals;
  the depth axis cut into the kernel's 8 tiles of 16 planes; the accumulator's left-to-right additions as a sum over the
  tiles; the exchange of a direction's two shifts; and the scalar tail: the two orders in which the 13 ratios are added.
-/
import proofs.«408089_j31568009625984_3_alg».proof.Proof.Spec.Defs

noncomputable section

namespace Cert.Spec

open Idealize.ShloMosaic Finset

/-! ## Sums over index types -/

/-- The indices of a rank-5 shape with a unit second axis are the quadruples of the other four coordinates. -/
def idxEquiv5 (a d e f : ℕ) : (⟨5, ![a, 1, d, e, f]⟩ : Shape).Idx ≃ Fin a × Fin d × Fin e × Fin f where
  toFun i := (i 0, i 2, i 3, i 4)
  invFun p := ValueIdx.ix5 p.1 (0 : Fin 1) p.2.1 p.2.2.1 p.2.2.2
  left_inv i := by
    funext k
    match k with
    | ⟨0, _⟩ => rfl
    | ⟨1, _⟩ => exact Subsingleton.elim (α := Fin 1) _ _
    | ⟨2, _⟩ => rfl
    | ⟨3, _⟩ => rfl
    | ⟨4, _⟩ => rfl
  right_inv _ := rfl

/-- The indices of a rank-4 shape with a unit first axis are the triples of the other three coordinates. -/
def idxEquiv4 (d e f : ℕ) : (⟨4, ![1, d, e, f]⟩ : Shape).Idx ≃ Fin d × Fin e × Fin f where
  toFun i := (i 1, i 2, i 3)
  invFun p := ValueIdx.ix4 (0 : Fin 1) p.1 p.2.1 p.2.2
  left_inv i := by
    funext k
    match k with
    | ⟨0, _⟩ => exact Subsingleton.elim (α := Fin 1) _ _
    | ⟨1, _⟩ => rfl
    | ⟨2, _⟩ => rfl
    | ⟨3, _⟩ => rfl
  right_inv _ := rfl

/-- A sum over the indices of a rank-5 shape with a unit second axis, of a function of the coordinates' values. -/
theorem sum_idx5 {M : Type*} [AddCommMonoid M] (a d e f : ℕ) (G : ℕ → ℕ → ℕ → ℕ → M) :
    (∑ i : (⟨5, ![a, 1, d, e, f]⟩ : Shape).Idx, G (i 0).val (i 2).val (i 3).val (i 4).val)
      = ∑ b ∈ range a, ∑ z ∈ range d, ∑ y ∈ range e, ∑ x ∈ range f, G b z y x := by
  rw [← Equiv.sum_comp (idxEquiv5 a d e f).symm
    (fun i : (⟨5, ![a, 1, d, e, f]⟩ : Shape).Idx => G (i 0).val (i 2).val (i 3).val (i 4).val)]
  simp only [Fintype.sum_prod_type]
  show ∑ b : Fin a, ∑ z : Fin d, ∑ y : Fin e, ∑ x : Fin f, G b.val z.val y.val x.val = _
  rw [← Fin.sum_univ_eq_sum_range (fun b => ∑ z ∈ range d, ∑ y ∈ range e, ∑ x ∈ range f, G b z y x) a]
  refine Finset.sum_congr rfl fun b _ => ?_
  rw [← Fin.sum_univ_eq_sum_range (fun z => ∑ y ∈ range e, ∑ x ∈ range f, G b.val z y x) d]
  refine Finset.sum_congr rfl fun z _ => ?_
  rw [← Fin.sum_univ_eq_sum_range (fun y => ∑ x ∈ range f, G b.val z.val y x) e]
  refine Finset.sum_congr rfl fun y _ => ?_
  rw [← Fin.sum_univ_eq_sum_range (fun x => G b.val z.val y.val x) f]

/-- The same for a rank-4 shape with a unit first axis (what the kernel's reductions run over). -/
theorem sum_idx4 {M : Type*} [AddCommMonoid M] (d e f : ℕ) (G : ℕ → ℕ → ℕ → M) :
    (∑ i : (⟨4, ![1, d, e, f]⟩ : Shape).Idx, G (i 1).val (i 2).val (i 3).val)
      = ∑ z ∈ range d, ∑ y ∈ range e, ∑ x ∈ range f, G z y x := by
  rw [← Equiv.sum_comp (idxEquiv4 d e f).symm
    (fun i : (⟨4, ![1, d, e, f]⟩ : Shape).Idx => G (i 1).val (i 2).val (i 3).val)]
  simp only [Fintype.sum_prod_type]
  show ∑ z : Fin d, ∑ y : Fin e, ∑ x : Fin f, G z.val y.val x.val = _
  rw [← Fin.sum_univ_eq_sum_range (fun z => ∑ y ∈ range e, ∑ x ∈ range f, G z y x) d]
  refine Finset.sum_congr rfl fun z _ => ?_
  rw [← Fin.sum_univ_eq_sum_range (fun y => ∑ x ∈ range f, G z.val y x) e]
  refine Finset.sum_congr rfl fun y _ => ?_
  rw [← Fin.sum_univ_eq_sum_range (fun x => G z.val y.val x) f]

/-- An entry of the array is the array at its coordinates' values. -/
theorem val_idx (X : Arr) (i : (⟨5, ![4, 1, 128, 192, 192]⟩ : Shape).Idx) :
    val X (i 0).val (i 2).val (i 3).val (i 4).val = X i := by
  have hb : (i 0).val < 4 := (i 0).isLt
  have hz : (i 2).val < 128 := (i 2).isLt
  have hy : (i 3).val < 192 := (i 3).isLt
  have hx : (i 4).val < 192 := (i 4).isLt
  unfold val
  rw [dif_pos ⟨hb, hz, hy, hx⟩]
  congr 1
  funext k
  match k with
  | ⟨0, _⟩ => rfl
  | ⟨1, _⟩ => exact Subsingleton.elim (α := Fin 1) _ _
  | ⟨2, _⟩ => rfl
  | ⟨3, _⟩ => rfl
  | ⟨4, _⟩ => rfl

/-- The array at in-range natural coordinates is the entry there. -/
theorem val_of_lt (X : Arr) {b z y x : ℕ} (hb : b < 4) (hz : z < 128) (hy : y < 192) (hx : x < 192) :
    val X b z y x = X (ValueIdx.ix5 (⟨b, hb⟩ : Fin 4) (0 : Fin 1) (⟨z, hz⟩ : Fin 128) (⟨y, hy⟩ : Fin 192) (⟨x, hx⟩ : Fin 192)) := by
  unfold val
  rw [dif_pos ⟨hb, hz, hy, hx⟩]

/-- Every value of a finite array is a real number (zero outside the array). -/
theorem val_real {X : Arr} (hX : Finite X) (b z y x : ℕ) : ∃ r : ℝ, val X b z y x = (r : EReal) := by
  unfold val
  split
  · exact hX _
  · exact ⟨0, EReal.coe_zero.symm⟩

/-! ## The depth axis in tiles -/

/-- A range of c · n naturals is n consecutive blocks of c. -/
theorem sum_range_blocks {M : Type*} [AddCommMonoid M] (G : ℕ → M) (c n : ℕ) :
    ∑ z ∈ range (c * n), G z = ∑ zt ∈ range n, ∑ k ∈ range c, G (c * zt + k) := by
  induction n with
  | zero => simp
  | succ n ih => rw [Nat.mul_succ, Finset.sum_range_add, ih, Finset.sum_range_succ]

/-- 128 planes are 8 tiles of 16. -/
theorem sum_range_128 {M : Type*} [AddCommMonoid M] (G : ℕ → M) :
    ∑ z ∈ range 128, G z = ∑ zt ∈ range 8, ∑ k ∈ range 16, G (16 * zt + k) :=
  sum_range_blocks G 16 8

/-- 127 plane pairs are, per tile, the 15 pairs inside it and the pair across its end, which the last tile lacks. -/
theorem sum_range_127 {M : Type*} [AddCommMonoid M] (G : ℕ → M) :
    ∑ z ∈ range 127, G z = ∑ zt ∈ range 8, ((∑ k ∈ range 15, G (16 * zt + k)) + if zt = 7 then 0 else G (16 * zt + 15)) := by
  have h1 : ∑ z ∈ range 127, G z = ∑ z ∈ range 128, (if z = 127 then 0 else G z) := by
    rw [Finset.sum_range_succ (fun z => if z = 127 then 0 else G z) 127, if_pos rfl, add_zero]
    refine Finset.sum_congr rfl fun z hz => ?_
    rw [if_neg (by have := Finset.mem_range.1 hz; omega)]
  rw [h1, sum_range_128]
  refine Finset.sum_congr rfl fun zt hzt => ?_
  have hzt' := Finset.mem_range.1 hzt
  rw [Finset.sum_range_succ (fun k => if 16 * zt + k = 127 then 0 else G (16 * zt + k)) 15]
  congr 1
  · refine Finset.sum_congr rfl fun k hk => ?_
    rw [if_neg (by have := Finset.mem_range.1 hk; omega)]
  · by_cases h7 : zt = 7
    · rw [if_pos h7, if_pos (by omega)]
    · rw [if_neg h7, if_neg (by omega)]

/-- An in-plane direction's whole-array sum is the sum of its tiles' parts. -/
theorem sum_tiles0 (f : ℕ → ℕ → ℕ → ℕ → EReal) (A B : ℕ) :
    (∑ b ∈ range 4, ∑ z ∈ range 128, ∑ y ∈ range A, ∑ x ∈ range B, f b z y x)
      = ∑ b ∈ range 4, ∑ zt ∈ range 8, tile0 f A B b zt := by
  refine Finset.sum_congr rfl fun b _ => ?_
  rw [sum_range_128 (fun z => ∑ y ∈ range A, ∑ x ∈ range B, f b z y x)]
  rfl

/-- A forward direction's whole-array sum is the sum of its tiles' parts. -/
theorem sum_tiles1 (f : ℕ → ℕ → ℕ → ℕ → EReal) (A B : ℕ) :
    (∑ b ∈ range 4, ∑ z ∈ range 127, ∑ y ∈ range A, ∑ x ∈ range B, f b z y x)
      = ∑ b ∈ range 4, ∑ zt ∈ range 8, tile1 f A B b zt := by
  refine Finset.sum_congr rfl fun b _ => ?_
  rw [sum_range_127 (fun z => ∑ y ∈ range A, ∑ x ∈ range B, f b z y x)]
  rfl

/-! ## The lane totals are the whole-array sums -/

/-- The accumulator's eight additions from zero are the sum over the tiles. -/
theorem accLane_eq (X T : Arr) (b s : ℕ) : accLane X T b s = ∑ zt ∈ range 8, tileStat X T b zt s := by
  simp only [accLane, Finset.sum_range_succ, Finset.sum_range_zero]

/-- A lane's total is the sum of the tiles' statistics over batch entries and tiles. -/
theorem total_eq_sum (X T : Arr) (s : ℕ) : total X T s = ∑ b ∈ range 4, ∑ zt ∈ range 8, tileStat X T b zt s := by
  unfold total
  rw [zero_add, Fin.sum_univ_eq_sum_range (fun b => accLane X T b s) 4]
  refine Finset.sum_congr rfl fun b _ => accLane_eq X T b s

/-- The in-plane directions run over all 128 planes, -/
theorem kdir_D0 {k : ℕ} (hk : k < 4) : (kdir k).D = 128 := by
  interval_cases k <;> rfl
/-- the forward ones over the 127 plane pairs. -/
theorem kdir_D1 {k : ℕ} (h4 : 4 ≤ k) (hk : k < 13) : (kdir k).D = 127 := by
  interval_cases k <;> rfl

/-- The statistic in a numerator lane, -/
theorem tileStat_num (X T : Arr) (b zt k : ℕ) :
    tileStat X T b zt (1 + 2 * k)
      = if k < 4 then tile0 (pnum X T (kdir k)) (kdir k).A (kdir k).B b zt
        else tile1 (pnum X T (kdir k)) (kdir k).A (kdir k).B b zt := by
  have h0 : 1 + 2 * k ≠ 0 := by omega
  have h1 : (1 + 2 * k - 1) / 2 = k := by omega
  have h2 : (1 + 2 * k - 1) % 2 = 0 := by omega
  simp only [tileStat, if_neg h0, h1, h2, if_pos]
/-- and in a denominator lane. -/
theorem tileStat_den (X T : Arr) (b zt k : ℕ) :
    tileStat X T b zt (2 + 2 * k)
      = if k < 4 then tile0 (pden T (kdir k)) (kdir k).A (kdir k).B b zt
        else tile1 (pden T (kdir k)) (kdir k).A (kdir k).B b zt := by
  have h0 : 2 + 2 * k ≠ 0 := by omega
  have h1 : (2 + 2 * k - 1) / 2 = k := by omega
  have h2 : (2 + 2 * k - 1) % 2 = 1 := by omega
  have h3 : ¬ ((1 : ℕ) = 0) := by omega
  simp only [tileStat, if_neg h0, h1, h2, if_neg h3]

/-- Lane 0's total is the cross-entropy sum of the whole array, -/
theorem total_bce (X T : Arr) : total X T 0 = bce X T := by
  rw [total_eq_sum]
  unfold bce
  rw [sum_tiles0 (pbce X T) 192 192]
  refine Finset.sum_congr rfl fun b _ => Finset.sum_congr rfl fun zt _ => ?_
  rw [tileStat, if_pos rfl]
/-- lane 1 + 2k's the numerator of the kernel's direction k, -/
theorem total_num (X T : Arr) (k : ℕ) (hk : k < 13) : total X T (1 + 2 * k) = num X T (kdir k) := by
  rw [total_eq_sum]
  unfold num
  by_cases h4 : k < 4
  · rw [kdir_D0 h4, sum_tiles0]
    refine Finset.sum_congr rfl fun b _ => Finset.sum_congr rfl fun zt _ => ?_
    rw [tileStat_num, if_pos h4]
  · rw [kdir_D1 (not_lt.1 h4) hk, sum_tiles1]
    refine Finset.sum_congr rfl fun b _ => Finset.sum_congr rfl fun zt _ => ?_
    rw [tileStat_num, if_neg h4]
/-- and lane 2 + 2k's its denominator. -/
theorem total_den (X T : Arr) (k : ℕ) (hk : k < 13) : total X T (2 + 2 * k) = den T (kdir k) := by
  rw [total_eq_sum]
  unfold den
  by_cases h4 : k < 4
  · rw [kdir_D0 h4, sum_tiles0]
    refine Finset.sum_congr rfl fun b _ => Finset.sum_congr rfl fun zt _ => ?_
    rw [tileStat_den, if_pos h4]
  · rw [kdir_D1 (not_lt.1 h4) hk, sum_tiles1]
    refine Finset.sum_congr rfl fun b _ => Finset.sum_congr rfl fun zt _ => ?_
    rw [tileStat_den, if_neg h4]

/-! ## Exchanging a direction's shifts -/

/-- Exchanging the two shifts negates the difference, where the entries are real numbers. -/
theorem dif_swap {X : Arr} (hX : Finite X) (pz py px nz ny nx b z y x : ℕ) :
    dif X nz ny nx pz py px b z y x = -dif X pz py px nz ny nx b z y x := by
  unfold dif
  obtain ⟨r, hr⟩ := val_real hX b (z + nz) (y + ny) (x + nx)
  obtain ⟨s, hs⟩ := val_real hX b (z + pz) (y + py) (x + px)
  rw [hr, hs, ← EReal.coe_sub, ← EReal.coe_sub, ← EReal.coe_neg]
  congr 1
  ring

/-- The product of the two differences does not change, -/
theorem pnum_swap {X T : Arr} (hX : Finite X) (hT : Finite T) (d : Dir) (b z y x : ℕ) :
    pnum X T d.swap b z y x = pnum X T d b z y x := by
  show dif X d.nz d.ny d.nx d.pz d.py d.px b z y x * dif T d.nz d.ny d.nx d.pz d.py d.px b z y x = _
  rw [dif_swap hX, dif_swap hT, neg_mul_neg]
  rfl
/-- nor the square. -/
theorem pden_swap {T : Arr} (hT : Finite T) (d : Dir) (b z y x : ℕ) :
    pden T d.swap b z y x = pden T d b z y x := by
  show dif T d.nz d.ny d.nx d.pz d.py d.px b z y x * dif T d.nz d.ny d.nx d.pz d.py d.px b z y x = _
  rw [dif_swap hT, neg_mul_neg]
  rfl

/-- So the numerator does not change, -/
theorem num_swap {X T : Arr} (hX : Finite X) (hT : Finite T) (d : Dir) : num X T d.swap = num X T d := by
  show ∑ b ∈ range 4, ∑ z ∈ range d.D, ∑ y ∈ range d.A, ∑ x ∈ range d.B, pnum X T d.swap b z y x = _
  simp only [pnum_swap hX hT]
  rfl
/-- nor the denominator. -/
theorem den_swap {T : Arr} (hT : Finite T) (d : Dir) : den T d.swap = den T d := by
  show ∑ b ∈ range 4, ∑ z ∈ range d.D, ∑ y ∈ range d.A, ∑ x ∈ range d.B, pden T d.swap b z y x = _
  simp only [pden_swap hT]
  rfl

/-! ## The scalar tail -/

/-- The element count 4 · 128 · 192 · 192 as a real number. -/
theorem count_eq : count = ((18874368 : ℝ) : EReal) := by
  simp [count, Ideal.ofBits, Ideal.ieee, -EReal.coe_mul]; norm_num

/-- Dividing the negated sum by the count negates the quotient. -/
theorem div_neg_count (B : EReal) : Ideal.div (-B) count = -(Ideal.div B count) := by
  rw [count_eq, Ideal.div_coe (by norm_num), Ideal.div_coe (by norm_num), neg_mul]

/-- THE BRIDGE of the two scalars: the kernel's loss of its lane totals is the reference's loss of the whole-array sums
    taken in the reference's order of directions. -/
theorem loss_eq {X T : Arr} (hX : Finite X) (hT : Finite T) :
    kernelLoss (total X T) = refLoss (bce X T) (fun r => num X T (rdir r)) (fun r => den T (rdir r)) := by
  have r0 : rdir 0 = kdir 8 := rfl
  have r1 : rdir 1 = kdir 0 := rfl
  have r2 : rdir 2 = kdir 1 := rfl
  have r3 : rdir 3 = kdir 11 := rfl
  have r4 : rdir 4 = kdir 5 := rfl
  have r5 : rdir 5 = kdir 2 := rfl
  have r6 : rdir 6 = kdir 3 := rfl
  have r7 : rdir 7 = kdir 7 := rfl
  have r8 : rdir 8 = kdir 9 := rfl
  have r9 : rdir 9 = kdir 4 := rfl
  have r10 : rdir 10 = kdir 10 := rfl
  have r11 : rdir 11 = (kdir 12).swap := rfl
  have r12 : rdir 12 = (kdir 6).swap := rfl
  unfold kernelLoss refLoss
  simp only [r0, r1, r2, r3, r4, r5, r6, r7, r8, r9, r10, r11, r12, num_swap hX hT, den_swap hT]
  rw [total_bce,
    show total X T 1 = num X T (kdir 0) from total_num X T 0 (by norm_num),
    show total X T 2 = den T (kdir 0) from total_den X T 0 (by norm_num),
    show total X T 3 = num X T (kdir 1) from total_num X T 1 (by norm_num),
    show total X T 4 = den T (kdir 1) from total_den X T 1 (by norm_num),
    show total X T 5 = num X T (kdir 2) from total_num X T 2 (by norm_num),
    show total X T 6 = den T (kdir 2) from total_den X T 2 (by norm_num),
    show total X T 7 = num X T (kdir 3) from total_num X T 3 (by norm_num),
    show total X T 8 = den T (kdir 3) from total_den X T 3 (by norm_num),
    show total X T 9 = num X T (kdir 4) from total_num X T 4 (by norm_num),
    show total X T 10 = den T (kdir 4) from total_den X T 4 (by norm_num),
    show total X T 11 = num X T (kdir 5) from total_num X T 5 (by norm_num),
    show total X T 12 = den T (kdir 5) from total_den X T 5 (by norm_num),
    show total X T 13 = num X T (kdir 6) from total_num X T 6 (by norm_num),
    show total X T 14 = den T (kdir 6) from total_den X T 6 (by norm_num),
    show total X T 15 = num X T (kdir 7) from total_num X T 7 (by norm_num),
    show total X T 16 = den T (kdir 7) from total_den X T 7 (by norm_num),
    show total X T 17 = num X T (kdir 8) from total_num X T 8 (by norm_num),
    show total X T 18 = den T (kdir 8) from total_den X T 8 (by norm_num),
    show total X T 19 = num X T (kdir 9) from total_num X T 9 (by norm_num),
    show total X T 20 = den T (kdir 9) from total_den X T 9 (by norm_num),
    show total X T 21 = num X T (kdir 10) from total_num X T 10 (by norm_num),
    show total X T 22 = den T (kdir 10) from total_den X T 10 (by norm_num),
    show total X T 23 = num X T (kdir 11) from total_num X T 11 (by norm_num),
    show total X T 24 = den T (kdir 11) from total_den X T 11 (by norm_num),
    show total X T 25 = num X T (kdir 12) from total_num X T 12 (by norm_num),
    show total X T 26 = den T (kdir 12) from total_den X T 12 (by norm_num),
    div_neg_count]
  generalize ratio (num X T (kdir 0)) (den T (kdir 0)) = a0
  generalize ratio (num X T (kdir 1)) (den T (kdir 1)) = a1
  generalize ratio (num X T (kdir 2)) (den T (kdir 2)) = a2
  generalize ratio (num X T (kdir 3)) (den T (kdir 3)) = a3
  generalize ratio (num X T (kdir 4)) (den T (kdir 4)) = a4
  generalize ratio (num X T (kdir 5)) (den T (kdir 5)) = a5
  generalize ratio (num X T (kdir 6)) (den T (kdir 6)) = a6
  generalize ratio (num X T (kdir 7)) (den T (kdir 7)) = a7
  generalize ratio (num X T (kdir 8)) (den T (kdir 8)) = a8
  generalize ratio (num X T (kdir 9)) (den T (kdir 9)) = a9
  generalize ratio (num X T (kdir 10)) (den T (kdir 10)) = a10
  generalize ratio (num X T (kdir 11)) (den T (kdir 11)) = a11
  generalize ratio (num X T (kdir 12)) (den T (kdir 12)) = a12
  have hs : zero + a0 + a1 + a2 + a3 + a4 + a5 + a6 + a7 + a8 + a9 + a10 + a11 + a12
      = zero + a8 + a0 + a1 + a11 + a5 + a2 + a3 + a7 + a9 + a4 + a10 + a12 + a6 := by
    ac_rfl
  rw [hs]

end Cert.Spec

end
-- ==== Proof.Val.Tail.lean ====
/-
  The host tail. After the region the host slices row 0 of the output array f32[4, 8, 128] to its first 27 lanes, sums
  each lane over the 4 batch entries from zero, and combines the 27 totals into one scalar: minus lane 0 over the
  element count, the 13 ratios lane (1 + 2k) / (lane (2 + 2k) + 1e-5) added from zero in the order k = 0 … 12, their
  sum over 13 taken from 1, and 1 · the cross-entropy added. That scalar is the kernel's loss of the lane totals.
-/
import proofs.«408089_j31568009625984_3_alg».proof.Proof.Gen.KernelIdeal.Launch
import proofs.«408089_j31568009625984_3_alg».proof.Proof.Spec.Sums
import Idealize.ShloMosaic.Lib.StableHlo.Run
import Idealize.ShloMosaic.Lib.ValueIdx
import Idealize.ShloMosaic.Lib.Pipeline.Value
import Idealize.ShloMosaic.PureOps.Ideal.Laws

set_option maxRecDepth 8192

noncomputable section

namespace Cert.KernelIdeal.Val

open Cert.KernelIdeal Cert.KernelIdeal.Gen Idealize.ShloMosaic Idealize.ShloMosaic.TcCoe Idealize.SL.Sem Idealize.ShloMosaic.StableHlo

/-- Lane s of the output's row 0 summed over the batch, the way the host's reduction takes it: from zero. -/
def lanes (o : (⟨3, ![4, 8, 128]⟩ : Shape).Idx → EReal) (s : ℕ) : EReal :=
  if h : s < 128 then 0 + ∑ b : Fin 4, o (ValueIdx.ix3 b (0 : Fin 8) (⟨s, h⟩ : Fin 128)) else 0

/-- The host's 27 totals: row 0 of the output, lanes 0 … 26, summed over the batch from the constant zero. -/
def totals (o : S4x8x128.Idx → EReal) : S27.Idx → EReal :=
  Host.reduceAdd (F := Ideal) (φ := .f32)
    (fun i => shapeCast S4x27 (extractStridedSlice S4x1x27 ![0, 0, 0] o slices_S4x8x128_S4x1x27_0_0_0) shapeCasts_S4x1x27_S4x27 i)
    (constant S_ .f32 0x00000000#32) reducesTo_S4x27_S27_d0 h_S_

/-- A total is the lane's sum. -/
theorem totals_apply (o : S4x8x128.Idx → EReal) (s : ℕ) (hs : s < 27) :
    totals o (ValueIdx.ix1 (⟨s, hs⟩ : Fin 27)) = lanes o s := by
  have hR : S4x27.Reduces [0] S27 := by decide
  show Ideal.hostReduceAdd reducesTo_S4x27_S27_d0 _ (Ideal.ofBits .f32 0x00000000#32) _ = _
  rw [Ideal.hostReduceAdd_single reducesTo_S4x27_S27_d0 hR, Ideal.ofBits_zero_f32]
  unfold lanes
  rw [dif_pos (by omega)]
  congr 1
  refine Finset.sum_congr rfl fun b _ => ?_
  refine (shapeCast_apply _ shapeCasts_S4x1x27_S4x27 _ (ValueIdx.ix3 (b : Fin 4) (0 : Fin 1) (⟨s, hs⟩ : Fin 27)) ?_).trans ?_
  · rw [Shape.rowMajor_val_three, Shape.rowMajor_val_two]
    show ((b : Fin 4).val * 1 + 0) * 27 + s = (b : Fin 4).val * 27 + s
    omega
  · refine extractStridedSlice_apply _ o slices_S4x8x128_S4x1x27_0_0_0 _ (ValueIdx.ix3 (b : Fin 4) (0 : Fin 8) (⟨s, by omega⟩ : Fin 128)) ?_
    intro a
    match a with
    | ⟨0, _⟩ => show (b : Fin 4).val = 0 + (b : Fin 4).val; omega
    | ⟨1, _⟩ => rfl
    | ⟨2, _⟩ => show s = 0 + s; omega

/-- One lane of the totals read as a scalar. -/
theorem lane_read (T : S27.Idx → EReal) (s : ℕ) (hs : s < 27) (h : S27.Slices ![s] S1) (j : S_.Idx) :
    shapeCast S_ (extractStridedSlice S1 ![s] T h) shapeCasts_S1_S_ j = T (ValueIdx.ix1 (⟨s, hs⟩ : Fin 27)) := by
  refine (shapeCast_apply _ shapeCasts_S1_S_ j (ValueIdx.ix1 (0 : Fin 1)) ?_).trans ?_
  · rw [Shape.rowMajor_val_one]
    have := (S_.rowMajor j).isLt
    show (0 : ℕ) = _
    have h1 : S_.numel = 1 := by decide
    omega
  · refine extractStridedSlice_apply _ T h _ (ValueIdx.ix1 (⟨s, hs⟩ : Fin 27)) ?_
    intro a
    match a with
    | ⟨0, _⟩ => show s = s + 0; omega

/-- The host's division and negation read at an index. -/
theorem hostDivf_apply {s : Shape} {φ : FTy} (a b : FVec Ideal s φ) (i : s.Idx) : Host.divf a b i = Ideal.div (a i) (b i) := rfl
theorem hostNegf_apply {s : Shape} {φ : FTy} (a : FVec Ideal s φ) (i : s.Idx) : Host.negf a i = -(a i) := rfl

set_option maxHeartbeats 8000000 in
/-- The host tail: the scalar the host operations leave is the kernel's loss of the 27 lane totals of the output array. -/
theorem tail_eq (W : Valuation τ sig (Elt Ideal)) :
    StableHlo.after (hostOps1 (F := Ideal)) W (Proc.devRef .tc main_v102)
      = fun _ => Cert.Spec.kernelLoss (lanes (W (Proc.devRef .tc main_v0))) := by
  after_results_simp
  funext j
  simp only [ValueIdx.addf_apply, ValueIdx.mulf_apply, ValueIdx.subf_apply, hostDivf_apply, hostNegf_apply, ValueIdx.constant_apply]
  have e0 := lane_read (totals (W (Proc.devRef .tc main_v0))) 0 (by decide) slices_S27_S1_0 j
  have e1 := lane_read (totals (W (Proc.devRef .tc main_v0))) 1 (by decide) slices_S27_S1_1 j
  have e2 := lane_read (totals (W (Proc.devRef .tc main_v0))) 2 (by decide) slices_S27_S1_2 j
  have e3 := lane_read (totals (W (Proc.devRef .tc main_v0))) 3 (by decide) slices_S27_S1_3 j
  have e4 := lane_read (totals (W (Proc.devRef .tc main_v0))) 4 (by decide) slices_S27_S1_4 j
  have e5 := lane_read (totals (W (Proc.devRef .tc main_v0))) 5 (by decide) slices_S27_S1_5 j
  have e6 := lane_read (totals (W (Proc.devRef .tc main_v0))) 6 (by decide) slices_S27_S1_6 j
  have e7 := lane_read (totals (W (Proc.devRef .tc main_v0))) 7 (by decide) slices_S27_S1_7 j
  have e8 := lane_read (totals (W (Proc.devRef .tc main_v0))) 8 (by decide) slices_S27_S1_8 j
  have e9 := lane_read (totals (W (Proc.devRef .tc main_v0))) 9 (by decide) slices_S27_S1_9 j
  have e10 := lane_read (totals (W (Proc.devRef .tc main_v0))) 10 (by decide) slices_S27_S1_10 j
  have e11 := lane_read (totals (W (Proc.devRef .tc main_v0))) 11 (by decide) slices_S27_S1_11 j
  have e12 := lane_read (totals (W (Proc.devRef .tc main_v0))) 12 (by decide) slices_S27_S1_12 j
  have e13 := lane_read (totals (W (Proc.devRef .tc main_v0))) 13 (by decide) slices_S27_S1_13 j
  have e14 := lane_read (totals (W (Proc.devRef .tc main_v0))) 14 (by decide) slices_S27_S1_14 j
  have e15 := lane_read (totals (W (Proc.devRef .tc main_v0))) 15 (by decide) slices_S27_S1_15 j
  have e16 := lane_read (totals (W (Proc.devRef .tc main_v0))) 16 (by decide) slices_S27_S1_16 j
  have e17 := lane_read (totals (W (Proc.devRef .tc main_v0))) 17 (by decide) slices_S27_S1_17 j
  have e18 := lane_read (totals (W (Proc.devRef .tc main_v0))) 18 (by decide) slices_S27_S1_18 j
  have e19 := lane_read (totals (W (Proc.devRef .tc main_v0))) 19 (by decide) slices_S27_S1_19 j
  have e20 := lane_read (totals (W (Proc.devRef .tc main_v0))) 20 (by decide) slices_S27_S1_20 j
  have e21 := lane_read (totals (W (Proc.devRef .tc main_v0))) 21 (by decide) slices_S27_S1_21 j
  have e22 := lane_read (totals (W (Proc.devRef .tc main_v0))) 22 (by decide) slices_S27_S1_22 j
  have e23 := lane_read (totals (W (Proc.devRef .tc main_v0))) 23 (by decide) slices_S27_S1_23 j
  have e24 := lane_read (totals (W (Proc.devRef .tc main_v0))) 24 (by decide) slices_S27_S1_24 j
  have e25 := lane_read (totals (W (Proc.devRef .tc main_v0))) 25 (by decide) slices_S27_S1_25 j
  have e26 := lane_read (totals (W (Proc.devRef .tc main_v0))) 26 (by decide) slices_S27_S1_26 j
  rw [totals_apply] at e0 e1 e2 e3 e4 e5 e6 e7 e8 e9 e10 e11 e12 e13 e14 e15 e16 e17 e18 e19 e20 e21 e22 e23 e24 e25 e26
  unfold totals at e0 e1 e2 e3 e4 e5 e6 e7 e8 e9 e10 e11 e12 e13 e14 e15 e16 e17 e18 e19 e20 e21 e22 e23 e24 e25 e26
  unfold Cert.Spec.kernelLoss Cert.Spec.ratio
  rw [← e0, ← e1, ← e2, ← e3, ← e4, ← e5, ← e6, ← e7, ← e8, ← e9, ← e10, ← e11, ← e12, ← e13, ← e14, ← e15, ← e16, ← e17, ← e18, ← e19, ← e20, ← e21, ← e22, ← e23, ← e24, ← e25, ← e26]
  rfl

end Cert.KernelIdeal.Val
end
-- ==== Proof.Hand.Pieces.lean ====
/-
  What the two cases of the body leave in the output's staging buffer, in closed form over an index `y` of the block
  (row `y 1`, lane `y 2`). Row 0 is row 0 as the body found it (the zero fill in the reset case, the running contents
  otherwise) with the tile's 27 statistics, padded to 128 lanes, added; the other seven rows are the zero fill in the
  reset case and the running contents otherwise.
-/
import proofs.«408089_j31568009625984_3_alg».proof.Proof.Hand.RunB
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## Row 0 of the output block -/

/-- The rectangle of row 0 of the output block, -/
abbrev rRow0 : Rect S1x8x128 := Rect.unit (s := S1x8x128) ![0, 0, 0] S1x1x128.size inb_S1x8x128_S1x1x128_0_0_0

/-- and the rectangle of the whole block. -/
abbrev rBlock : Rect S1x8x128 := Rect.unit (s := S1x8x128) ![0, 0, 0] S1x8x128.size inb_S1x8x128_S1x8x128_0_0_0

/-- Row 0 of an output block: what a load of row 0's rectangle reads of a buffer holding `v`. -/
def row0 (v : Vec F S1x8x128 .f32) : Vec F S1x1x128 .f32 := View.ld v rRow0

/-- The index of a row with the lane of `y`. -/
def rowIdx (y : S1x8x128.Idx) : S1x1x128.Idx := ix3 (0 : Fin 1) (0 : Fin 1) (y 2 : Fin 128)

/-- Row 0's rectangle places lane `j 2` at row 0, lane `j 2`. -/
theorem rRow0_idx (j : S1x1x128.Idx) : rRow0.idx j = ix3 (0 : Fin 1) (0 : Fin 8) (j 2 : Fin 128) := by
  funext a
  apply Fin.ext
  have h0 : ((j 0 : Fin 1) : ℕ) < 1 := (j 0 : Fin 1).isLt
  have h1 : ((j 1 : Fin 1) : ℕ) < 1 := (j 1 : Fin 1).isLt
  match a with
  | ⟨0, _⟩ => show 0 + 1 * ((j 0 : Fin 1) : ℕ) = 0; omega
  | ⟨1, _⟩ => show 0 + 1 * ((j 1 : Fin 1) : ℕ) = 0; omega
  | ⟨2, _⟩ => show 0 + 1 * ((j 2 : Fin 128) : ℕ) = ((j 2 : Fin 128) : ℕ); omega

theorem row0_apply (v : Vec F S1x8x128 .f32) (j : S1x1x128.Idx) :
    row0 v j = v (ix3 (0 : Fin 1) (0 : Fin 8) (j 2 : Fin 128)) := by
  show v (rRow0.idx j) = _
  exact congrArg v (rRow0_idx j)

/-- An index of row 0 is the rectangle's placement of its lane; -/
theorem emb_rowIdx (y : S1x8x128.Idx) (h : (y 1).val = 0) : rRow0.emb (rowIdx y) = y := by
  show rRow0.idx (rowIdx y) = y
  rw [rRow0_idx]
  funext a
  apply Fin.ext
  have h0 : ((y 0 : Fin 1) : ℕ) < 1 := (y 0 : Fin 1).isLt
  match a with
  | ⟨0, _⟩ => show 0 = ((y 0 : Fin 1) : ℕ); omega
  | ⟨1, _⟩ => exact h.symm
  | ⟨2, _⟩ => rfl

/-- an index of another row is not in the rectangle. -/
theorem not_mem_rRow0 (y : S1x8x128.Idx) (h : ¬(y 1).val = 0) : y ∉ rRow0.set := by
  intro hy
  have h1 : ((y 1 : Fin 8) : ℕ) < 0 + 1 := (Rect.mem_set_unit.mp hy 1).2
  exact h (by omega)

/-- ONE store of row 0 over contents `xo`: row 0 is the payload, the other rows keep `xo`. -/
theorem piecesOver_row0 (xo : Vec F S1x8x128 .f32) (w : rRow0.shape.Idx → Elt F .f32) :
    piecesOver xo [(⟨rRow0, w⟩ : View.Piece (Elt F) S1x8x128 .f32)] = fun y => if (y 1).val = 0 then w (rowIdx y) else xo y := by
  funext y
  show rRow0.overlay xo w y = _
  by_cases h : (y 1).val = 0
  · rw [if_pos h]
    conv_lhs => rw [← emb_rowIdx y h]
    exact rRow0.overlay_emb _ _ _
  · rw [if_neg h]; exact rRow0.overlay_of_not_mem _ _ (not_mem_rRow0 y h)

private theorem zero3 : (![0, 0, 0] : Fin 3 → ℕ) = fun _ => 0 := by
  funext a; match a with | ⟨0, _⟩ => rfl | ⟨1, _⟩ => rfl | ⟨2, _⟩ => rfl

private theorem zero5 : (![0, 0, 0, 0, 0] : Fin 5 → ℕ) = fun _ => 0 := by
  funext a; match a with | ⟨0, _⟩ => rfl | ⟨1, _⟩ => rfl | ⟨2, _⟩ => rfl | ⟨3, _⟩ => rfl | ⟨4, _⟩ => rfl

/-- A store of the whole block, then a store of row 0: row 0 is the later payload, the other rows the fill. -/
theorem canon_row0_block (w : rRow0.shape.Idx → Elt F .f32) (z : Vec F S1x8x128 .f32) :
    View.canon [(⟨rRow0, w⟩ : View.Piece (Elt F) S1x8x128 .f32), ⟨rBlock, z⟩] = fun y => if (y 1).val = 0 then w (rowIdx y) else z y := by
  funext y
  by_cases h : (y 1).val = 0
  · rw [if_pos h]
    conv_lhs => rw [← emb_rowIdx y h]
    exact View.canon_cons_emb rRow0 w _ _
  · rw [if_neg h]
    refine (View.canon_cons_of_not_mem (⟨rRow0, w⟩ : View.Piece (Elt F) S1x8x128 .f32) [⟨rBlock, z⟩] (not_mem_rRow0 y h)).trans ?_
    exact congrFun (View.canon_unit_zero (S := S1x8x128) zero3 inb_S1x8x128_S1x8x128_0_0_0 z) y

/-! ## What the loads read -/

/-- A load of the whole shape of a whole memref reads its contents. -/
theorem readAt_whole {s : Shape} (M : Memref sig .tc .vmem s .f32) (h : M.IsWhole) (X : Vec F s .f32)
    {off : Fin s.rank → ℕ} (hz : off = fun _ => 0) (inb : ∀ a, off a + s.size a ≤ s.size a) :
    M.view.readAt (Elt F) (Rect.unit off s.size inb).toLoadRect (h.unread X) = X := by
  rw [View.readAt_eq_ld, h.read_unread]; exact View.ld_unit_zero hz inb X

/-! ## The pieces of the two cases -/

set_option maxHeartbeats 1000000 in
/-- The reset case's pieces: the zero fill of the block and, over it, row 0 of the fill plus the statistics. -/
theorem kernelRunA_val (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) :
    (kernelRunA c i arg2 harg2 arg3 harg3 arg4 harg4 arg5 harg5 arg6 harg6 hc0 x0 x1 x2 x3).1
      = [(⟨rRow0, k0_pay2 (statsVec x0 x2 x1 x3 (lastFlag i)) (row0 (k0_pay3 (F := F)))⟩ : View.Piece (Elt F) S1x8x128 .f32),
          ⟨rBlock, k0_pay3 (F := F)⟩] := by
  have h2 := readAt_whole arg2 harg2 x0 zero5 inb_S1x1x16x192x192_S1x1x16x192x192_0_0_0_0_0
  have h3 := readAt_whole arg3 harg3 x1 zero5 inb_S1x1x1x192x192_S1x1x1x192x192_0_0_0_0_0
  have h4 := readAt_whole arg4 harg4 x2 zero5 inb_S1x1x16x192x192_S1x1x16x192x192_0_0_0_0_0
  have h5 := readAt_whole arg5 harg5 x3 zero5 inb_S1x1x1x192x192_S1x1x1x192x192_0_0_0_0_0
  have h6 : arg6.view.readCov [(⟨rBlock, k0_pay3 (F := F)⟩ : View.Piece (Elt F) S1x8x128 .f32)] rRow0.toLoadRect = row0 (k0_pay3 (F := F)) := by
    rw [View.readCov_eq_canon', View.canon_unit_zero (S := S1x8x128) zero3 inb_S1x8x128_S1x8x128_0_0_0]; rfl
  refine Eq.trans (b := [(⟨rRow0, k0_pay2 (statsVec
        (arg2.view.readAt (Elt F) (Rect.unit ![0, 0, 0, 0, 0] S1x1x16x192x192.size inb_S1x1x16x192x192_S1x1x16x192x192_0_0_0_0_0).toLoadRect (harg2.unread x0))
        (arg4.view.readAt (Elt F) (Rect.unit ![0, 0, 0, 0, 0] S1x1x16x192x192.size inb_S1x1x16x192x192_S1x1x16x192x192_0_0_0_0_0).toLoadRect (harg4.unread x2))
        (arg3.view.readAt (Elt F) (Rect.unit ![0, 0, 0, 0, 0] S1x1x1x192x192.size inb_S1x1x1x192x192_S1x1x1x192x192_0_0_0_0_0).toLoadRect (harg3.unread x1))
        (arg5.view.readAt (Elt F) (Rect.unit ![0, 0, 0, 0, 0] S1x1x1x192x192.size inb_S1x1x1x192x192_S1x1x1x192x192_0_0_0_0_0).toLoadRect (harg5.unread x3))
        (lastFlag i))
      (arg6.view.readCov [(⟨rBlock, k0_pay3 (F := F)⟩ : View.Piece (Elt F) S1x8x128 .f32)] rRow0.toLoadRect)⟩ : View.Piece (Elt F) S1x8x128 .f32),
      ⟨rBlock, k0_pay3 (F := F)⟩]) ?_ (by rw [h2, h3, h4, h5, h6])
  rfl

set_option maxHeartbeats 1000000 in
/-- The other case's piece: row 0 as found plus the statistics. -/
theorem kernelRunB_val (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    (kernelRunB c i arg2 harg2 arg3 harg3 arg4 harg4 arg5 harg5 arg6 harg6 hc0 x0 x1 x2 x3 xo).1
      = [(⟨rRow0, k0_pay2 (statsVec x0 x2 x1 x3 (lastFlag i)) (row0 xo)⟩ : View.Piece (Elt F) S1x8x128 .f32)] := by
  have h2 := readAt_whole arg2 harg2 x0 zero5 inb_S1x1x16x192x192_S1x1x16x192x192_0_0_0_0_0
  have h3 := readAt_whole arg3 harg3 x1 zero5 inb_S1x1x1x192x192_S1x1x1x192x192_0_0_0_0_0
  have h4 := readAt_whole arg4 harg4 x2 zero5 inb_S1x1x16x192x192_S1x1x16x192x192_0_0_0_0_0
  have h5 := readAt_whole arg5 harg5 x3 zero5 inb_S1x1x1x192x192_S1x1x1x192x192_0_0_0_0_0
  have h6 : arg6.view.readAt (Elt F) rRow0.toLoadRect (harg6.unread xo) = row0 xo := by
    rw [View.readAt_eq_ld, harg6.read_unread]; rfl
  refine Eq.trans (b := [(⟨rRow0, k0_pay2 (statsVec
        (arg2.view.readAt (Elt F) (Rect.unit ![0, 0, 0, 0, 0] S1x1x16x192x192.size inb_S1x1x16x192x192_S1x1x16x192x192_0_0_0_0_0).toLoadRect (harg2.unread x0))
        (arg4.view.readAt (Elt F) (Rect.unit ![0, 0, 0, 0, 0] S1x1x16x192x192.size inb_S1x1x16x192x192_S1x1x16x192x192_0_0_0_0_0).toLoadRect (harg4.unread x2))
        (arg3.view.readAt (Elt F) (Rect.unit ![0, 0, 0, 0, 0] S1x1x1x192x192.size inb_S1x1x1x192x192_S1x1x1x192x192_0_0_0_0_0).toLoadRect (harg3.unread x1))
        (arg5.view.readAt (Elt F) (Rect.unit ![0, 0, 0, 0, 0] S1x1x1x192x192.size inb_S1x1x1x192x192_S1x1x1x192x192_0_0_0_0_0).toLoadRect (harg5.unread x3))
        (lastFlag i))
      (arg6.view.readAt (Elt F) rRow0.toLoadRect (harg6.unread xo))⟩ : View.Piece (Elt F) S1x8x128 .f32)]) ?_ (by rw [h2, h3, h4, h5, h6])
  rfl

/-! ## The closed forms -/

/-- THE RESET CASE: row 0 is the statistics added to row 0 of the zero fill, the other rows are the fill. -/
theorem outA_eq (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : cond0 i)
    (x0 : Vec F S1x1x16x192x192 .f32) (x1 : Vec F S1x1x1x192x192 .f32) (x2 : Vec F S1x1x16x192x192 .f32) (x3 : Vec F S1x1x1x192x192 .f32) :
    outA c i arg2 harg2 arg3 harg3 arg4 harg4 arg5 harg5 arg6 harg6 hc0 x0 x1 x2 x3
      = fun y => if (y 1).val = 0 then k0_pay2 (statsVec x0 x2 x1 x3 (lastFlag i)) (row0 (k0_pay3 (F := F))) (rowIdx y) else k0_pay3 (F := F) y := by
  unfold outA
  rw [View.read_writes_junk_eq_canon, kernelRunA_val]
  exact canon_row0_block _ _

/-- THE OTHER CASE: row 0 is the statistics added to row 0 of the running contents, the other rows keep them. -/
theorem outB_eq (c : Dev nD) (i : grid0.Coords)
    (arg2 : Memref sig .tc .vmem S1x1x16x192x192 .f32) (harg2 : arg2.IsWhole) (arg3 : Memref sig .tc .vmem S1x1x1x192x192 .f32) (harg3 : arg3.IsWhole)
    (arg4 : Memref sig .tc .vmem S1x1x16x192x192 .f32) (harg4 : arg4.IsWhole) (arg5 : Memref sig .tc .vmem S1x1x1x192x192 .f32) (harg5 : arg5.IsWhole)
    (arg6 : Memref sig .tc .vmem S1x8x128 .f32) (harg6 : arg6.IsWhole) (hc0 : ¬cond0 i)
    (x0 : Vec F S1x1x16x192x192 .f32) (x1 : Vec F S1x1x1x192x192 .f32) (x2 : Vec F S1x1x16x192x192 .f32) (x3 : Vec F S1x1x1x192x192 .f32) (xo : Vec F S1x8x128 .f32) :
    outB c i arg2 harg2 arg3 harg3 arg4 harg4 arg5 harg5 arg6 harg6 hc0 x0 x1 x2 x3 xo
      = fun y => if (y 1).val = 0 then k0_pay2 (statsVec x0 x2 x1 x3 (lastFlag i)) (row0 xo) (rowIdx y) else xo y := by
  unfold outB
  rw [kernelRunB_val]
  exact piecesOver_row0 xo _

end Cert.KernelIdeal.Hand

end
-- ==== Proof.Val.Fold1.lean ====
/-
  The accumulator, folded. The output block of a batch entry is carried over the entry's eight depth tiles: the first
  tile stores zeros and adds its 27 statistics to row 0, every later tile adds its statistics to row 0 of what the tile
  before left, and the block is written back to the output array after the eighth. So lane s (s < 27) of row 0 of batch
  entry b of the output array ends at ((((((((0 + S 0) + S 1) + S 2) + S 3) + S 4) + S 5) + S 6) + S 7), S zt the
  statistic of lane s of tile (b, zt). This module proves that from three facts: what the row store leaves at a lane
  (the row it loaded plus the statistics padded with zeros to 128 lanes), the recursion of the buffer's contents over
  the points (by induction on the point), and the array after the write-backs (each block written once, after the
  entry's last tile). That a point's statistic is the specification's is taken here as a hypothesis, `StatAt`.
-/
import proofs.«408089_j31568009625984_3_alg».proof.Proof.Hand.Pieces
import proofs.«408089_j31568009625984_3_alg».proof.Proof.Hand.Data
import proofs.«408089_j31568009625984_3_alg».proof.Proof.Val.Blocks
import proofs.«408089_j31568009625984_3_alg».proof.Proof.Spec.Defs
import Idealize.ShloMosaic.Lib.ValueLayout
import Idealize.ShloMosaic.Lib.Pipeline.Value
import Idealize.ShloMosaic.Lib.KernelVsHost

set_option maxRecDepth 16384

noncomputable section

namespace Cert.KernelIdeal.Val

open Cert.KernelIdeal Cert.KernelIdeal.Gen Cert.KernelIdeal.Hand
open Idealize.ShloMosaic Idealize.ShloMosaic.TcCoe
open Idealize.ShloMosaic.ValueIdx
open Idealize.ShloMosaic.Pipeline (Dat)

/-! ## The row store, at a lane -/

/-- The 27 statistics followed by 101 zeros: lane `l` is the statistic of lane `l` below 27 and zero from 27 on. -/
theorem pad_lane (v456 : FVec Ideal S27 .f32) (l : Fin 128) :
    concatenate S128 0 [⟨S27, v456⟩, ⟨S101, broadcast S101 (Scalar.sitofp .f32 0#32 : Ideal .f32)⟩] concatenates_S27_S101_S128_d0 (ix1 l)
      = if h : l.val < 27 then v456 (ix1 ⟨l.val, h⟩) else 0 := by
  by_cases h : l.val < 27
  · rw [dif_pos h]
    exact concatenate_pair_apply_left (t := S128) (s₁ := S27) (s₂ := S101) (0 : Fin 1) _ _ _ (ix1 l) rfl (ix1 ⟨l.val, h⟩) (fun b => by
      match b with
      | ⟨0, _⟩ => rfl)
  · rw [dif_neg h]
    have hl := l.isLt
    rw [concatenate_pair_apply_right (t := S128) (s₁ := S27) (s₂ := S101) (0 : Fin 1) _ _ _ (ix1 l) rfl rfl (ix1 ⟨l.val - 27, by omega⟩) (fun b hb => by
      match b with
      | ⟨0, _⟩ => exact absurd rfl hb) (by show l.val - 27 + 27 = l.val; omega)]
    rw [broadcast_apply]
    exact sitofp_zero

/-- The row the body stores back: at lane `l`, the row it loaded plus the padded statistics. -/
theorem pay2_lane (v456 : FVec Ideal S27 .f32) (v461 : Vec Ideal S1x1x128 .f32) (l : Fin 128) :
    k0_pay2 (F := Ideal) v456 v461 (ix3 (0 : Fin 1) (0 : Fin 1) l)
      = v461 (ix3 (0 : Fin 1) (0 : Fin 1) l) + (if h : l.val < 27 then v456 (ix1 ⟨l.val, h⟩) else 0) := by
  unfold k0_pay2
  rw [shapeCast_ab_1ab_apply, addf_apply, shapeCast_1ab_ab_apply, shapeCast_a_1a_apply, pad_lane]

/-- The zero fill, at row 0. -/
theorem pay3_row0 (l : Fin 128) : k0_pay3 (F := Ideal) (ix3 (0 : Fin 1) (0 : Fin 8) l) = 0 := by
  unfold k0_pay3
  rw [shapeCast_ab_1ab_apply, broadcast_apply]
  exact Ideal.ofBits_zero_f32

variable (m : (ℓ : Loc nD τ sig) → Buf (Elt Ideal) ℓ)

/-! ## The accumulator's lane, tile after tile -/

/-- The partial fold of lane `l` of batch entry `b`: from zero, the tiles 0 … `n` added one after the other. -/
def pf (X T : Cert.Spec.Arr) (b l : ℕ) : ℕ → EReal
  | 0 => 0 + Cert.Spec.tileStat X T b 0 l
  | n + 1 => pf X T b l n + Cert.Spec.tileStat X T b (n + 1) l

/-- After the eighth tile it is the accumulator's lane. -/
theorem pf_seven (X T : Cert.Spec.Arr) (b l : ℕ) : pf X T b l 7 = Cert.Spec.accLane X T b l := rfl

/-- Every point's statistics are the specification's: lane `s` at point `t` is the statistic of batch entry `t / 8`
    and tile `t % 8`. -/
def StatAt (c : Dev nD) : Prop := ∀ (t : Fin cfg0.N) (s : Fin 27),
  statsVec (iblk m c 0 t) (iblk m c 2 t) (iblk m c 1 t) (iblk m c 3 t) (lastFlag (grid0.coords t)) (ix1 s)
    = Cert.Spec.tileStat (argX m c) (argT m c) (t.val / 8) (t.val % 8) s.val

/-- THE FOLD. After point `n`, lane `l` of row 0 of the output's buffer is the partial fold of the tiles of the batch
    entry up to this one: the first tile of an entry adds its statistic to the zero fill, a later tile to what the
    point before left. -/
theorem lane_fold (c : Dev nD) (hs : StatAt m c) : ∀ (n : ℕ) (h : n < cfg0.N) (l : Fin 128) (hl : l.val < 27),
    outsAt m c n h (ix3 (0 : Fin 1) (0 : Fin 8) l) = pf (argX m c) (argT m c) (n / 8) l.val (n % 8)
  | 0, h, l, hl => by
    rw [outsAt_A m c ⟨0, h⟩ rfl, outA_eq]
    show k0_pay2 _ _ (ix3 (0 : Fin 1) (0 : Fin 1) l) = _
    rw [pay2_lane, dif_pos hl, row0_apply, hs _ ⟨l.val, hl⟩]
    show k0_pay3 (F := Ideal) (ix3 (0 : Fin 1) (0 : Fin 8) l) + _ = _
    rw [pay3_row0]
    rfl
  | n + 1, h, l, hl => by
    by_cases h0 : (n + 1) % 8 = 0
    · rw [outsAt_A m c ⟨n + 1, h⟩ h0, outA_eq]
      show k0_pay2 _ _ (ix3 (0 : Fin 1) (0 : Fin 1) l) = _
      rw [pay2_lane, dif_pos hl, row0_apply, hs _ ⟨l.val, hl⟩]
      show k0_pay3 (F := Ideal) (ix3 (0 : Fin 1) (0 : Fin 8) l) + Cert.Spec.tileStat _ _ ((n + 1) / 8) ((n + 1) % 8) l.val = _
      rw [pay3_row0, h0]
      rfl
    · rw [outsAt_B m c ⟨n + 1, h⟩ h0, outB_eq]
      show k0_pay2 _ _ (ix3 (0 : Fin 1) (0 : Fin 1) l) = _
      rw [pay2_lane, dif_pos hl, row0_apply, hs _ ⟨l.val, hl⟩]
      show outsAt m c n _ (ix3 (0 : Fin 1) (0 : Fin 8) l) + Cert.Spec.tileStat _ _ ((n + 1) / 8) ((n + 1) % 8) l.val = _
      rw [lane_fold c hs n _ l hl]
      obtain ⟨k, hk⟩ : ∃ k, (n + 1) % 8 = k + 1 := ⟨(n + 1) % 8 - 1, by omega⟩
      have e1 : n / 8 = (n + 1) / 8 := by omega
      have e2 : n % 8 = k := by omega
      rw [e1, e2, hk]
      rfl

/-! ## The array after the run -/

/-- What the point before the write-back left, as one array: block `b` is what point `8 b + 7` left. -/
def Gout (c : Dev nD) : Buf (Elt Ideal) ((c : Thread nD τ).loc main_v0) := fun i =>
  outsAt m c (8 * (i 0).val + 7) (by
    have h : (i 0).val < 4 := (i 0).isLt
    rw [show cfg0.N = 32 from N_0]; omega)
    (ix3 (0 : Fin 1) (⟨(i 1).val, (i 1).isLt⟩ : Fin 8) (⟨(i 2).val, (i 2).isLt⟩ : Fin 128))

/-- It reads, at an index, the buffer of the point and at the block index with the same coordinates. -/
theorem Gout_apply (c : Dev nD) (i : S4x8x128.Idx) (n : ℕ) (h : n < cfg0.N) (j : S1x8x128.Idx)
    (e : n = 8 * (i 0).val + 7) (e0 : (j 0).val = 0) (e1 : (j 1).val = (i 1).val) (e2 : (j 2).val = (i 2).val) :
    Gout m c i = outsAt m c n h j := by
  subst e
  unfold Gout
  congr 1
  funext a
  apply Fin.ext
  match a with
  | ⟨0, _⟩ => exact e0.symm
  | ⟨1, _⟩ => exact e1.symm
  | ⟨2, _⟩ => exact e2.symm

/-- The output window's block index at point `t`: the batch entry, whole. -/
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- What a point after a last tile writes back is its block of that array. -/
theorem flushed4_eq (c : Dev nD) (t : Fin cfg0.N) (hf : (cfg0.win 4).flush t = true) :
    (dats m c).flushed 4 t = ((cfg0.win 4).blk t).view.read (Elt Ideal) (Gout m c) := by
  have h7 : t.val % 8 = 7 := (flush0_4 t).mp hf
  obtain ⟨i0, i1, i2⟩ := idx4 t
  show (cfg0.win 4).cut (grid0.coords t) ((dats m c).after 4 t) = _
  rw [after4]
  funext y
  rw [View.read_apply]
  have y0 : (y 0).val < 1 := (y 0).isLt
  have y1 : (y 1).val < 8 := (y 1).isLt
  have y2 : (y 2).val < 128 := (y 2).isLt
  refine (Gout_apply m c _ t.val t.isLt _ ?_ ?_ ?_ ?_).symm
  · show t.val = 8 * (win0_4.index t (0 : Fin 3) * 1 + 1 * (y 0).val) + 7
    rw [i0]; omega
  · show (y 0).val = 0
    omega
  · show (y 1).val = win0_4.index t (1 : Fin 3) * 8 + 1 * (y 1).val
    rw [i1]; omega
  · show (y 2).val = win0_4.index t (2 : Fin 3) * 128 + 1 * (y 2).val
    rw [i2]; omega

/-- An index of batch entry `b` is in the block of the entry's last point. -/
theorem mem_blk4 (t : Fin cfg0.N) (i : S4x8x128.Idx) (hi : (i 0).val = t.val / 8) : i ∈ ((cfg0.win 4).blk t).view.set := by
  obtain ⟨i0, i1, i2⟩ := idx4 t
  show i ∈ ((View.whole main_v0).slice (win0_4.rect t)).set
  rw [View.set_slice_whole, Rect.mem_set_unit]
  intro a
  have h1 : (i 1).val < 8 := (i 1).isLt
  have h2 : (i 2).val < 128 := (i 2).isLt
  match a with
  | ⟨0, _⟩ =>
    show win0_4.index t (0 : Fin 3) * 1 ≤ (i 0).val ∧ (i 0).val < win0_4.index t (0 : Fin 3) * 1 + 1
    rw [i0]; omega
  | ⟨1, _⟩ =>
    show win0_4.index t (1 : Fin 3) * 8 ≤ (i 1).val ∧ (i 1).val < win0_4.index t (1 : Fin 3) * 8 + 8
    rw [i1]; omega
  | ⟨2, _⟩ =>
    show win0_4.index t (2 : Fin 3) * 128 ≤ (i 2).val ∧ (i 2).val < win0_4.index t (2 : Fin 3) * 128 + 128
    rw [i2]; omega

/-- THE ACCUMULATOR AFTER THE RUN, given the statistics: lane `s` of row 0 of batch entry `b` of the output array holds the entry's eight
    tile statistics added from zero, one tile after the other. -/
theorem out_final_of (c : Dev nD) (hs : StatAt m c) (b : Fin 4) (s : Fin 27) :
    (dats m c).arrAt 4 cfg0.N (ValueIdx.ix3 b (0 : Fin 8) (⟨s.val, by omega⟩ : Fin 128))
      = Cert.Spec.accLane (argX m c) (argT m c) b.val s.val := by
  have hN : cfg0.N = 32 := N_0
  have hb := b.isLt
  have ht : 8 * b.val + 7 < cfg0.N := by rw [hN]; omega
  have hf : (cfg0.win 4).flush ⟨8 * b.val + 7, ht⟩ = true := (flush0_4 _).mpr (by show (8 * b.val + 7) % 8 = 7; omega)
  rw [(dats m c).arrAt_apply_of_mem 4 (Gout m c) (flushed4_eq m c) cfg0.N ⟨8 * b.val + 7, ht⟩ _ ht hf
    (mem_blk4 ⟨8 * b.val + 7, ht⟩ _ (by show b.val = (8 * b.val + 7) / 8; omega))]
  rw [Gout_apply m c _ (8 * b.val + 7) ht (ix3 (0 : Fin 1) (0 : Fin 8) (⟨s.val, by omega⟩ : Fin 128)) rfl rfl rfl rfl,
    lane_fold m c hs _ ht _ s.isLt]
  rw [show (8 * b.val + 7) / 8 = b.val by omega, show (8 * b.val + 7) % 8 = 7 by omega]
  exact pf_seven _ _ _ _

end Cert.KernelIdeal.Val

end
-- ==== Proof.Val.TileBlocks.lean ====
/-
  The pipeline's blocks at a grid point, read in the specification's coordinates. The grid has 32 points t = 8·b + zt
  (b the batch entry, zt the depth tile). A window's block sits in its array at block index × block size on each axis,
  and the entry at position j inside the block is the array's entry at index × size + j. The four input windows' block
  indices, as functions of the point, are decided once over the 32 points:
    windows 0 and 2 (sixteen planes of the first and of the second array): (b, 0, zt, 0, 0), blocks of (1, 1, 16, 192, 192);
    windows 1 and 3 (one plane of each): (b, 0, min (16·zt + 16) 127, 0, 0), blocks of (1, 1, 1, 192, 192).
  So the sixteen-plane block holds planes 16·zt … 16·zt + 15 of batch entry b, and the one-plane block holds plane
  16·zt + 16 unless the tile is the last one of its batch entry (there the index is clamped to plane 127, and nothing is
  claimed about it). The last-tile flag is set exactly at the points that are 7 modulo 8.
-/
import proofs.«408089_j31568009625984_3_alg».proof.Proof.Val.Blocks
import proofs.«408089_j31568009625984_3_alg».proof.Proof.Spec.Sums

set_option maxRecDepth 16384

noncomputable section

namespace Cert.KernelIdeal.Val

open Cert.KernelIdeal Cert.KernelIdeal.Gen Cert.KernelIdeal.Hand
open Idealize.ShloMosaic Idealize.ShloMosaic.TcCoe

/-! ## The block indices, over the 32 grid points -/

/-- Window 0's block index at point t: batch entry t / 8, depth tile t % 8. -/
theorem idx0 : ∀ t : Fin cfg0.N, win0_0.index t (0 : Fin 5) = t.val / 8 ∧ win0_0.index t (1 : Fin 5) = 0
    ∧ win0_0.index t (2 : Fin 5) = t.val % 8 ∧ win0_0.index t (3 : Fin 5) = 0 ∧ win0_0.index t (4 : Fin 5) = 0 :=
  (by decide +kernel : ∀ t : Fin grid0.N, _)

/-- Window 1's: batch entry t / 8, the plane after the tile, clamped to the array's last plane. -/
theorem idx1 : ∀ t : Fin cfg0.N, win0_1.index t (0 : Fin 5) = t.val / 8 ∧ win0_1.index t (1 : Fin 5) = 0
    ∧ win0_1.index t (2 : Fin 5) = min (16 * (t.val % 8) + 16) 127 ∧ win0_1.index t (3 : Fin 5) = 0 ∧ win0_1.index t (4 : Fin 5) = 0 :=
  (by decide +kernel : ∀ t : Fin grid0.N, _)

/-- Window 2's is window 0's, -/
theorem idx2 : ∀ t : Fin cfg0.N, win0_2.index t (0 : Fin 5) = t.val / 8 ∧ win0_2.index t (1 : Fin 5) = 0
    ∧ win0_2.index t (2 : Fin 5) = t.val % 8 ∧ win0_2.index t (3 : Fin 5) = 0 ∧ win0_2.index t (4 : Fin 5) = 0 :=
  (by decide +kernel : ∀ t : Fin grid0.N, _)

/-- and window 3's is window 1's. -/
theorem idx3 : ∀ t : Fin cfg0.N, win0_3.index t (0 : Fin 5) = t.val / 8 ∧ win0_3.index t (1 : Fin 5) = 0
    ∧ win0_3.index t (2 : Fin 5) = min (16 * (t.val % 8) + 16) 127 ∧ win0_3.index t (3 : Fin 5) = 0 ∧ win0_3.index t (4 : Fin 5) = 0 :=
  (by decide +kernel : ∀ t : Fin grid0.N, _)

variable (m : (ℓ : Loc nD τ sig) → Buf (Elt Ideal) ℓ)

/-! ## Each block, entry by entry -/

/-- Window 0's block at point t holds planes 16·(t % 8) … 16·(t % 8) + 15 of batch entry t / 8 of the first array. -/
theorem read0 (c : Dev nD) (t : Fin cfg0.N) (k : Fin 16) (y x : Fin 192) :
    iblk m c 0 t (ValueIdx.ix5 (0 : Fin 1) (0 : Fin 1) k y x)
      = Cert.Spec.val (argX m c) (t.val / 8) (16 * (t.val % 8) + k.val) y.val x.val := by
  have ht : t.val < 32 := lt_of_lt_of_eq t.isLt N_0
  have hk : k.val < 16 := k.isLt
  obtain ⟨e0, e1, e2, e3, e4⟩ := idx0 t
  rw [Cert.Spec.val_of_lt (argX m c) (show t.val / 8 < 4 by omega) (show 16 * (t.val % 8) + k.val < 128 by omega) y.isLt x.isLt]
  show V m c main_arg0 (((cfg0.win 0).blk t).view.emb (ValueIdx.ix5 (0 : Fin 1) (0 : Fin 1) k y x)) = V m c main_arg0 _
  refine congrArg _ ?_
  funext a; apply Fin.ext
  match a with
  | ⟨0, _⟩ => show win0_0.index t (0 : Fin 5) * 1 + 1 * 0 = t.val / 8; omega
  | ⟨1, _⟩ => show win0_0.index t (1 : Fin 5) * 1 + 1 * 0 = 0; omega
  | ⟨2, _⟩ => show win0_0.index t (2 : Fin 5) * 16 + 1 * k.val = 16 * (t.val % 8) + k.val; omega
  | ⟨3, _⟩ => show win0_0.index t (3 : Fin 5) * 192 + 1 * y.val = y.val; omega
  | ⟨4, _⟩ => show win0_0.index t (4 : Fin 5) * 192 + 1 * x.val = x.val; omega

/-- Window 2's block holds the same planes of the second array. -/
theorem read2 (c : Dev nD) (t : Fin cfg0.N) (k : Fin 16) (y x : Fin 192) :
    iblk m c 2 t (ValueIdx.ix5 (0 : Fin 1) (0 : Fin 1) k y x)
      = Cert.Spec.val (argT m c) (t.val / 8) (16 * (t.val % 8) + k.val) y.val x.val := by
  have ht : t.val < 32 := lt_of_lt_of_eq t.isLt N_0
  have hk : k.val < 16 := k.isLt
  obtain ⟨e0, e1, e2, e3, e4⟩ := idx2 t
  rw [Cert.Spec.val_of_lt (argT m c) (show t.val / 8 < 4 by omega) (show 16 * (t.val % 8) + k.val < 128 by omega) y.isLt x.isLt]
  show V m c main_arg1 (((cfg0.win 2).blk t).view.emb (ValueIdx.ix5 (0 : Fin 1) (0 : Fin 1) k y x)) = V m c main_arg1 _
  refine congrArg _ ?_
  funext a; apply Fin.ext
  match a with
  | ⟨0, _⟩ => show win0_2.index t (0 : Fin 5) * 1 + 1 * 0 = t.val / 8; omega
  | ⟨1, _⟩ => show win0_2.index t (1 : Fin 5) * 1 + 1 * 0 = 0; omega
  | ⟨2, _⟩ => show win0_2.index t (2 : Fin 5) * 16 + 1 * k.val = 16 * (t.val % 8) + k.val; omega
  | ⟨3, _⟩ => show win0_2.index t (3 : Fin 5) * 192 + 1 * y.val = y.val; omega
  | ⟨4, _⟩ => show win0_2.index t (4 : Fin 5) * 192 + 1 * x.val = x.val; omega

/-- Window 1's block at a point that is not the last tile of its batch entry holds plane 16·(t % 8) + 16 of the first
    array: the first plane of the next tile. -/
theorem read1 (c : Dev nD) (t : Fin cfg0.N) (hne : t.val % 8 ≠ 7) (y x : Fin 192) :
    iblk m c 1 t (ValueIdx.ix5 (0 : Fin 1) (0 : Fin 1) (0 : Fin 1) y x)
      = Cert.Spec.val (argX m c) (t.val / 8) (16 * (t.val % 8) + 16) y.val x.val := by
  have ht : t.val < 32 := lt_of_lt_of_eq t.isLt N_0
  obtain ⟨e0, e1, e2, e3, e4⟩ := idx1 t
  have hmin : min (16 * (t.val % 8) + 16) 127 = 16 * (t.val % 8) + 16 := Nat.min_eq_left (by omega)
  rw [hmin] at e2
  rw [Cert.Spec.val_of_lt (argX m c) (show t.val / 8 < 4 by omega) (show 16 * (t.val % 8) + 16 < 128 by omega) y.isLt x.isLt]
  show V m c main_arg0 (((cfg0.win 1).blk t).view.emb (ValueIdx.ix5 (0 : Fin 1) (0 : Fin 1) (0 : Fin 1) y x)) = V m c main_arg0 _
  refine congrArg _ ?_
  funext a; apply Fin.ext
  match a with
  | ⟨0, _⟩ => show win0_1.index t (0 : Fin 5) * 1 + 1 * 0 = t.val / 8; omega
  | ⟨1, _⟩ => show win0_1.index t (1 : Fin 5) * 1 + 1 * 0 = 0; omega
  | ⟨2, _⟩ => show win0_1.index t (2 : Fin 5) * 1 + 1 * 0 = 16 * (t.val % 8) + 16; omega
  | ⟨3, _⟩ => show win0_1.index t (3 : Fin 5) * 192 + 1 * y.val = y.val; omega
  | ⟨4, _⟩ => show win0_1.index t (4 : Fin 5) * 192 + 1 * x.val = x.val; omega

/-- Window 3's block holds the same plane of the second array. -/
theorem read3 (c : Dev nD) (t : Fin cfg0.N) (hne : t.val % 8 ≠ 7) (y x : Fin 192) :
    iblk m c 3 t (ValueIdx.ix5 (0 : Fin 1) (0 : Fin 1) (0 : Fin 1) y x)
      = Cert.Spec.val (argT m c) (t.val / 8) (16 * (t.val % 8) + 16) y.val x.val := by
  have ht : t.val < 32 := lt_of_lt_of_eq t.isLt N_0
  obtain ⟨e0, e1, e2, e3, e4⟩ := idx3 t
  have hmin : min (16 * (t.val % 8) + 16) 127 = 16 * (t.val % 8) + 16 := Nat.min_eq_left (by omega)
  rw [hmin] at e2
  rw [Cert.Spec.val_of_lt (argT m c) (show t.val / 8 < 4 by omega) (show 16 * (t.val % 8) + 16 < 128 by omega) y.isLt x.isLt]
  show V m c main_arg1 (((cfg0.win 3).blk t).view.emb (ValueIdx.ix5 (0 : Fin 1) (0 : Fin 1) (0 : Fin 1) y x)) = V m c main_arg1 _
  refine congrArg _ ?_
  funext a; apply Fin.ext
  match a with
  | ⟨0, _⟩ => show win0_3.index t (0 : Fin 5) * 1 + 1 * 0 = t.val / 8; omega
  | ⟨1, _⟩ => show win0_3.index t (1 : Fin 5) * 1 + 1 * 0 = 0; omega
  | ⟨2, _⟩ => show win0_3.index t (2 : Fin 5) * 1 + 1 * 0 = 16 * (t.val % 8) + 16; omega
  | ⟨3, _⟩ => show win0_3.index t (3 : Fin 5) * 192 + 1 * y.val = y.val; omega
  | ⟨4, _⟩ => show win0_3.index t (4 : Fin 5) * 192 + 1 * x.val = x.val; omega

/-! ## The tile's blocks -/

/-- At grid point t the four input blocks and the flag are those of tile (t / 8, t % 8) of the two argument arrays. -/
theorem tileBlocks (c : Dev nD) (t : Fin cfg0.N) :
    TileBlocks (argX m c) (argT m c) (t.val / 8) (t.val % 8) (iblk m c 0 t) (iblk m c 2 t) (iblk m c 1 t) (iblk m c 3 t)
      (lastFlag (grid0.coords t)) where
  h3 := read0 m c t
  h5 := read2 m c t
  h7 := fun hne => read1 m c t hne
  h9 := fun hne => read3 m c t hne
  hflag := by
    by_cases h : t.val % 8 = 7
    · rw [if_pos h]; exact (hlast t).mpr h
    · rw [if_neg h]; exact (hlast' t).mpr h

end Cert.KernelIdeal.Val

end
-- ==== Proof.Val.Reduce.lean ====
/-
  The kernel's vector operations read as finite sums and as functions of natural coordinates.

  Every statistic of a tile is a total sum: a rank-3 array of products is given a leading unit axis, summed over its three
  other axes into a one-element vector, and that element is read out. Here that chain is read once as an iterated sum over
  ranges of naturals; a shifted slice of a rank-3 array is read at an index as the array at the shifted coordinates; and
  the reshape that forgets the two leading unit axes of a block is read at an index.
-/
import Idealize.ShloMosaic.PureOps.Ideal.Laws
import Idealize.ShloMosaic.Lib.ValueIdx
import Idealize.ShloMosaic.Lib.Pipeline.Value
import Idealize.ShloMosaic.Lib.ValueLayout
import proofs.«408089_j31568009625984_3_alg».proof.Proof.Spec.Sums

noncomputable section

namespace Cert.KernelIdeal.Val

open Idealize.ShloMosaic Finset

/-- The total sum of a rank-3 array, taken the way the kernel takes it (a leading unit axis added, the three other axes
    reduced into a one-element vector, that element extracted), is the iterated sum over the three ranges of whatever
    function of the natural coordinates the array is. -/
theorem reduce4_eq (D A B : ℕ) (v : FVec Ideal ⟨3, ![D, A, B]⟩ .f32)
    (hc : (⟨3, ![D, A, B]⟩ : Shape).ShapeCasts ⟨4, ![1, D, A, B]⟩)
    (hr : Shape.Reduces ⟨4, ![1, D, A, B]⟩ [1, 2, 3] ⟨1, ![1]⟩)
    (h1 : FKind.Formats .f32) (h2 : (0x00000000#32 : BitVec 32) = FKind.add.neutral .f32 h1)
    (hc' : (⟨1, ![1]⟩ : Shape).ShapeCasts ⟨4, ![1, 1, 1, 1]⟩)
    (hp : ∀ a, (![0, 0, 0, 0] : Fin 4 → ℕ) a < (⟨4, ![1, 1, 1, 1]⟩ : Shape).size a)
    (G : ℕ → ℕ → ℕ → EReal)
    (hG : ∀ (k : Fin D) (y : Fin A) (x : Fin B), v (ValueIdx.ix3 k y x) = G k.val y.val x.val) :
    extractAt ![0, 0, 0, 0] (shapeCast ⟨4, ![1, 1, 1, 1]⟩
        (multiReduction (F := Ideal) .add [1, 2, 3] ⟨1, ![1]⟩ (shapeCast ⟨4, ![1, D, A, B]⟩ v hc) 0x00000000#32 hr h1 h2) hc') hp
      = ∑ k ∈ range D, ∑ y ∈ range A, ∑ x ∈ range B, G k y x := by
  show multiReduction (F := Ideal) .add [1, 2, 3] ⟨1, ![1]⟩ (shapeCast ⟨4, ![1, D, A, B]⟩ v hc) 0x00000000#32 hr h1 h2 _ = _
  rw [Ideal.multiReduction_add_total _ _ hr (fun b => match b with | ⟨0, _⟩ => rfl) h1 h2]
  rw [← Cert.Spec.sum_idx4 D A B G]
  refine Finset.sum_congr rfl fun i _ => ?_
  refine (shapeCast_apply v hc i (ValueIdx.ix3 (i 1) (i 2) (i 3)) ?_).trans (hG _ _ _)
  have hu : (i 0).val = 0 := by
    have h0 : (i 0).val < 1 := (i 0).isLt
    omega
  rw [Shape.rowMajor_val_three, Shape.rowMajor_val_four]
  show ((i 1).val * A + (i 2).val) * B + (i 3).val = (((i 0).val * D + (i 1).val) * A + (i 2).val) * B + (i 3).val
  rw [hu, Nat.zero_mul, Nat.zero_add]

/-- A shifted slice of a rank-3 array read at an index: the array, as a function of natural coordinates, at the
    coordinates moved by the slice's offsets. -/
theorem slice3_nat {α : Type} {D A B D' A' B' : ℕ} (p0 p1 p2 : ℕ) (v : (⟨3, ![D, A, B]⟩ : Shape).Idx → α)
    (h : (⟨3, ![D, A, B]⟩ : Shape).Slices ![p0, p1, p2] ⟨3, ![D', A', B']⟩)
    (Gv : ℕ → ℕ → ℕ → α) (hv : ∀ (k : Fin D) (y : Fin A) (x : Fin B), v (ValueIdx.ix3 k y x) = Gv k.val y.val x.val)
    (k : Fin D') (y : Fin A') (x : Fin B') :
    extractStridedSlice ⟨3, ![D', A', B']⟩ ![p0, p1, p2] v h (ValueIdx.ix3 k y x) = Gv (k.val + p0) (y.val + p1) (x.val + p2) := by
  have b0 : p0 + k.val < D := Nat.lt_of_lt_of_le (Nat.add_lt_add_left k.isLt _) (h.2 0)
  have b1 : p1 + y.val < A := Nat.lt_of_lt_of_le (Nat.add_lt_add_left y.isLt _) (h.2 1)
  have b2 : p2 + x.val < B := Nat.lt_of_lt_of_le (Nat.add_lt_add_left x.isLt _) (h.2 2)
  refine (extractStridedSlice_apply _ v h _ (ValueIdx.ix3 ⟨p0 + k.val, b0⟩ ⟨p1 + y.val, b1⟩ ⟨p2 + x.val, b2⟩) fun a =>
    match a with | ⟨0, _⟩ => rfl | ⟨1, _⟩ => rfl | ⟨2, _⟩ => rfl).trans ?_
  rw [hv]
  show Gv (p0 + k.val) (p1 + y.val) (p2 + x.val) = _
  rw [Nat.add_comm p0, Nat.add_comm p1, Nat.add_comm p2]

/-- The difference of two shifted slices of one rank-3 array, read at an index. -/
theorem dslice3_nat {D A B D' A' B' : ℕ} (p0 p1 p2 n0 n1 n2 : ℕ) (v : FVec Ideal ⟨3, ![D, A, B]⟩ .f32)
    (hp : (⟨3, ![D, A, B]⟩ : Shape).Slices ![p0, p1, p2] ⟨3, ![D', A', B']⟩)
    (hn : (⟨3, ![D, A, B]⟩ : Shape).Slices ![n0, n1, n2] ⟨3, ![D', A', B']⟩)
    (Gv : ℕ → ℕ → ℕ → EReal) (hv : ∀ (k : Fin D) (y : Fin A) (x : Fin B), v (ValueIdx.ix3 k y x) = Gv k.val y.val x.val)
    (k : Fin D') (y : Fin A') (x : Fin B') :
    subf (extractStridedSlice ⟨3, ![D', A', B']⟩ ![p0, p1, p2] v hp) (extractStridedSlice ⟨3, ![D', A', B']⟩ ![n0, n1, n2] v hn)
        (ValueIdx.ix3 k y x)
      = Gv (k.val + p0) (y.val + p1) (x.val + p2) - Gv (k.val + n0) (y.val + n1) (x.val + n2) := by
  rw [ValueIdx.subf_apply, slice3_nat p0 p1 p2 v hp Gv hv, slice3_nat n0 n1 n2 v hn Gv hv]

/-- A block with two leading unit axes viewed without them reads, at (k, i, j), the block at (0, 0, k, i, j). -/
theorem shapeCast_11abc_abc_apply {α : Type} {m a b : ℕ} (x : (⟨5, ![1, 1, m, a, b]⟩ : Shape).Idx → α)
    (h : (⟨5, ![1, 1, m, a, b]⟩ : Shape).ShapeCasts ⟨3, ![m, a, b]⟩) (k : Fin m) (i : Fin a) (j : Fin b) :
    shapeCast ⟨3, ![m, a, b]⟩ x h (ValueIdx.ix3 k i j) = x (ValueIdx.ix5 (0 : Fin 1) (0 : Fin 1) k i j) :=
  shapeCast_apply x h _ _ (by
    rw [Shape.rowMajor_val_five, Shape.rowMajor_val_three]
    show ((((0 * 1 + 0) * m + k.val) * a + i.val) * b + j.val) = (k.val * a + i.val) * b + j.val
    simp only [Nat.zero_mul, Nat.zero_add])

end Cert.KernelIdeal.Val

end
-- ==== Proof.Val.Lanes.lean ====
/-
  The 27 statistics as one vector, read lane by lane. The vector is the concatenation of 27 one-element vectors: the
  first twenty are given as vectors, the last seven are scalars spread to one element each. Lane s of the concatenation is
  the s-th piece's one element; so lane s of a tile's statistics is the s-th scalar the body computed.
-/
import proofs.«408089_j31568009625984_3_alg».proof.Proof.Hand.Base
import proofs.«408089_j31568009625984_3_alg».proof.Proof.Val.Blocks
import proofs.«408089_j31568009625984_3_alg».proof.Proof.Val.Reduce
import Idealize.ShloMosaic.PureOps.Ideal
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic

/-- A concatenation of 27 one-element vectors, read at lane k: the k-th piece's element. -/
theorem concat27_apply (xs : List ((s : Shape) × (s.Idx → Ideal .f32))) (h : Shape.Concatenates (xs.map (·.1)) S27 0)
    (hall : xs.map (·.1) = List.replicate 27 S1)
    (k : ℕ) (hk27 : k < 27) (hk : k < xs.length) (x₁ : S1.Idx → Ideal .f32) (hxk : xs[k] = ⟨S1, x₁⟩) :
    concatenate S27 0 xs h (ValueIdx.ix1 (⟨k, hk27⟩ : Fin 27)) = x₁ (ValueIdx.ix1 (0 : Fin 1)) := by
  have h1 : (xs.take k).map (·.1) = List.replicate k S1 := by
    rw [List.map_take, hall, List.take_replicate, Nat.min_eq_left (by omega)]
  have hpre : (((xs.take k).map (·.1)).map fun s => if h : s.rank = S27.rank then s.size ((0 : Fin S27.rank).cast h.symm) else 0).sum = k := by
    rw [h1, List.map_replicate, List.sum_replicate]
    show k • (1 : ℕ) = k
    simp
  exact concatenate_apply_piece (0 : Fin S27.rank) xs h _ k hk S1 x₁ hxk rfl k hpre (ValueIdx.ix1 (0 : Fin 1))
    (fun b hb => absurd (Fin.ext (by have hb1 : b.val < 1 := b.isLt; show b.val = 0; omega)) hb) (Nat.add_zero k)

section
variable (a0 a1 a2 a3 a4 a5 a6 : Ideal .f32)
  (w0 w1 w2 w3 w4 w5 w6 w7 w8 w9 w10 w11 w12 w13 w14 w15 w16 w17 w18 w19 : FVec Ideal S1 .f32)

/-- Lane s of the concatenated vector: the first twenty lanes are the given vectors' elements, the last seven the
    scalars. -/
theorem k0_pay1_lane (s : Fin 27) :
    k0_pay1 (F := Ideal) a0 a1 a2 a3 a4 a5 a6 w0 w1 w2 w3 w4 w5 w6 w7 w8 w9 w10 w11 w12 w13 w14 w15 w16 w17 w18 w19 (ValueIdx.ix1 s)
      = (![w0 (ValueIdx.ix1 0), w1 (ValueIdx.ix1 0), w2 (ValueIdx.ix1 0), w3 (ValueIdx.ix1 0), w4 (ValueIdx.ix1 0),
          w5 (ValueIdx.ix1 0), w6 (ValueIdx.ix1 0), w7 (ValueIdx.ix1 0), w8 (ValueIdx.ix1 0), w9 (ValueIdx.ix1 0),
          w10 (ValueIdx.ix1 0), w11 (ValueIdx.ix1 0), w12 (ValueIdx.ix1 0), w13 (ValueIdx.ix1 0), w14 (ValueIdx.ix1 0),
          w15 (ValueIdx.ix1 0), w16 (ValueIdx.ix1 0), w17 (ValueIdx.ix1 0), w18 (ValueIdx.ix1 0), w19 (ValueIdx.ix1 0),
          a0, a1, a2, a3, a4, a5, a6] : Fin 27 → Ideal .f32) s := by
  unfold k0_pay1
  match s with
  | ⟨0, h⟩ => exact concat27_apply _ _ rfl 0 h (by show _ < 27; omega) _ rfl
  | ⟨1, h⟩ => exact concat27_apply _ _ rfl 1 h (by show _ < 27; omega) _ rfl
  | ⟨2, h⟩ => exact concat27_apply _ _ rfl 2 h (by show _ < 27; omega) _ rfl
  | ⟨3, h⟩ => exact concat27_apply _ _ rfl 3 h (by show _ < 27; omega) _ rfl
  | ⟨4, h⟩ => exact concat27_apply _ _ rfl 4 h (by show _ < 27; omega) _ rfl
  | ⟨5, h⟩ => exact concat27_apply _ _ rfl 5 h (by show _ < 27; omega) _ rfl
  | ⟨6, h⟩ => exact concat27_apply _ _ rfl 6 h (by show _ < 27; omega) _ rfl
  | ⟨7, h⟩ => exact concat27_apply _ _ rfl 7 h (by show _ < 27; omega) _ rfl
  | ⟨8, h⟩ => exact concat27_apply _ _ rfl 8 h (by show _ < 27; omega) _ rfl
  | ⟨9, h⟩ => exact concat27_apply _ _ rfl 9 h (by show _ < 27; omega) _ rfl
  | ⟨10, h⟩ => exact concat27_apply _ _ rfl 10 h (by show _ < 27; omega) _ rfl
  | ⟨11, h⟩ => exact concat27_apply _ _ rfl 11 h (by show _ < 27; omega) _ rfl
  | ⟨12, h⟩ => exact concat27_apply _ _ rfl 12 h (by show _ < 27; omega) _ rfl
  | ⟨13, h⟩ => exact concat27_apply _ _ rfl 13 h (by show _ < 27; omega) _ rfl
  | ⟨14, h⟩ => exact concat27_apply _ _ rfl 14 h (by show _ < 27; omega) _ rfl
  | ⟨15, h⟩ => exact concat27_apply _ _ rfl 15 h (by show _ < 27; omega) _ rfl
  | ⟨16, h⟩ => exact concat27_apply _ _ rfl 16 h (by show _ < 27; omega) _ rfl
  | ⟨17, h⟩ => exact concat27_apply _ _ rfl 17 h (by show _ < 27; omega) _ rfl
  | ⟨18, h⟩ => exact concat27_apply _ _ rfl 18 h (by show _ < 27; omega) _ rfl
  | ⟨19, h⟩ => exact concat27_apply _ _ rfl 19 h (by show _ < 27; omega) _ rfl
  | ⟨20, h⟩ => exact concat27_apply _ _ rfl 20 h (by show _ < 27; omega) (broadcast S1 a0) rfl
  | ⟨21, h⟩ => exact concat27_apply _ _ rfl 21 h (by show _ < 27; omega) (broadcast S1 a1) rfl
  | ⟨22, h⟩ => exact concat27_apply _ _ rfl 22 h (by show _ < 27; omega) (broadcast S1 a2) rfl
  | ⟨23, h⟩ => exact concat27_apply _ _ rfl 23 h (by show _ < 27; omega) (broadcast S1 a3) rfl
  | ⟨24, h⟩ => exact concat27_apply _ _ rfl 24 h (by show _ < 27; omega) (broadcast S1 a4) rfl
  | ⟨25, h⟩ => exact concat27_apply _ _ rfl 25 h (by show _ < 27; omega) (broadcast S1 a5) rfl
  | ⟨26, h⟩ => exact concat27_apply _ _ rfl 26 h (by show _ < 27; omega) (broadcast S1 a6) rfl
  | ⟨n + 27, h⟩ => exact absurd h (by omega)

end

section
variable (v3 v5 : Vec Ideal S1x1x16x192x192 .f32) (v7 v9 : Vec Ideal S1x1x1x192x192 .f32) (v11 : BitVec 1)

/-- Lane 0 of the statistics is the scalar the body computed for it. -/
theorem statsVec_lane0 : statsVec v3 v5 v7 v9 v11 (ValueIdx.ix1 (0 : Fin 27)) = k0_pay8 v3 v5 :=
  (k0_pay1_lane _ _ _ _ _ _ _ _ _ _ _ _ _ _ _ _ _ _ _ _ _ _ _ _ _ _ _ (0 : Fin 27)).trans rfl
/-- Lane 1 of the statistics is the scalar the body computed for it. -/
theorem statsVec_lane1 : statsVec v3 v5 v7 v9 v11 (ValueIdx.ix1 (1 : Fin 27)) = k0_pay11 (k0_pay9 v3) (k0_pay10 v5) :=
  (k0_pay1_lane _ _ _ _ _ _ _ _ _ _ _ _ _ _ _ _ _ _ _ _ _ _ _ _ _ _ _ (1 : Fin 27)).trans rfl
/-- Lane 2 of the statistics is the scalar the body computed for it. -/
theorem statsVec_lane2 : statsVec v3 v5 v7 v9 v11 (ValueIdx.ix1 (2 : Fin 27)) = k0_pay12 (k0_pay10 v5) :=
  (k0_pay1_lane _ _ _ _ _ _ _ _ _ _ _ _ _ _ _ _ _ _ _ _ _ _ _ _ _ _ _ (2 : Fin 27)).trans rfl
/-- Lane 3 of the statistics is the scalar the body computed for it. -/
theorem statsVec_lane3 : statsVec v3 v5 v7 v9 v11 (ValueIdx.ix1 (3 : Fin 27)) = k0_pay14 (k0_pay4 v3) (k0_pay5 v5) :=
  (k0_pay1_lane _ _ _ _ _ _ _ _ _ _ _ _ _ _ _ _ _ _ _ _ _ _ _ _ _ _ _ (3 : Fin 27)).trans rfl
/-- Lane 4 of the statistics is the scalar the body computed for it. -/
theorem statsVec_lane4 : statsVec v3 v5 v7 v9 v11 (ValueIdx.ix1 (4 : Fin 27)) = k0_pay15 (k0_pay5 v5) :=
  (k0_pay1_lane _ _ _ _ _ _ _ _ _ _ _ _ _ _ _ _ _ _ _ _ _ _ _ _ _ _ _ (4 : Fin 27)).trans rfl
/-- Lane 5 of the statistics is the scalar the body computed for it. -/
theorem statsVec_lane5 : statsVec v3 v5 v7 v9 v11 (ValueIdx.ix1 (5 : Fin 27)) = k0_pay17 (k0_pay4 v3) (k0_pay5 v5) :=
  (k0_pay1_lane _ _ _ _ _ _ _ _ _ _ _ _ _ _ _ _ _ _ _ _ _ _ _ _ _ _ _ (5 : Fin 27)).trans rfl
/-- Lane 6 of the statistics is the scalar the body computed for it. -/
theorem statsVec_lane6 : statsVec v3 v5 v7 v9 v11 (ValueIdx.ix1 (6 : Fin 27)) = k0_pay18 (k0_pay5 v5) :=
  (k0_pay1_lane _ _ _ _ _ _ _ _ _ _ _ _ _ _ _ _ _ _ _ _ _ _ _ _ _ _ _ (6 : Fin 27)).trans rfl
/-- Lane 7 of the statistics is the scalar the body computed for it. -/
theorem statsVec_lane7 : statsVec v3 v5 v7 v9 v11 (ValueIdx.ix1 (7 : Fin 27)) = k0_pay20 (k0_pay4 v3) (k0_pay5 v5) :=
  (k0_pay1_lane _ _ _ _ _ _ _ _ _ _ _ _ _ _ _ _ _ _ _ _ _ _ _ _ _ _ _ (7 : Fin 27)).trans rfl
/-- Lane 8 of the statistics is the scalar the body computed for it. -/
theorem statsVec_lane8 : statsVec v3 v5 v7 v9 v11 (ValueIdx.ix1 (8 : Fin 27)) = k0_pay21 (k0_pay19 (k0_pay5 v5)) :=
  (k0_pay1_lane _ _ _ _ _ _ _ _ _ _ _ _ _ _ _ _ _ _ _ _ _ _ _ _ _ _ _ (8 : Fin 27)).trans rfl
/-- Lane 9 of the statistics is the scalar the body computed for it. -/
theorem statsVec_lane9 : statsVec v3 v5 v7 v9 v11 (ValueIdx.ix1 (9 : Fin 27)) = k0_pay30 (k0_pay4 v3) (k0_pay5 v5) (k0_pay6 v7) (k0_pay7 v9) v11 :=
  (k0_pay1_lane _ _ _ _ _ _ _ _ _ _ _ _ _ _ _ _ _ _ _ _ _ _ _ _ _ _ _ (9 : Fin 27)).trans rfl
/-- Lane 10 of the statistics is the scalar the body computed for it. -/
theorem statsVec_lane10 : statsVec v3 v5 v7 v9 v11 (ValueIdx.ix1 (10 : Fin 27)) = k0_pay31 (k0_pay5 v5) (k0_pay7 v9) v11 :=
  (k0_pay1_lane _ _ _ _ _ _ _ _ _ _ _ _ _ _ _ _ _ _ _ _ _ _ _ _ _ _ _ (10 : Fin 27)).trans rfl
/-- Lane 11 of the statistics is the scalar the body computed for it. -/
theorem statsVec_lane11 : statsVec v3 v5 v7 v9 v11 (ValueIdx.ix1 (11 : Fin 27)) = k0_pay36 (k0_pay6 v7) (k0_pay7 v9) v11 (k0_pay25 (k0_pay5 v5)) (k0_pay26 (k0_pay4 v3)) (k0_pay27 (k0_pay5 v5)) (k0_pay32 (k0_pay4 v3)) (k0_pay33 (k0_pay5 v5)) :=
  (k0_pay1_lane _ _ _ _ _ _ _ _ _ _ _ _ _ _ _ _ _ _ _ _ _ _ _ _ _ _ _ (11 : Fin 27)).trans rfl
/-- Lane 12 of the statistics is the scalar the body computed for it. -/
theorem statsVec_lane12 : statsVec v3 v5 v7 v9 v11 (ValueIdx.ix1 (12 : Fin 27)) = k0_pay37 (k0_pay7 v9) v11 (k0_pay25 (k0_pay5 v5)) (k0_pay27 (k0_pay5 v5)) (k0_pay33 (k0_pay5 v5)) :=
  (k0_pay1_lane _ _ _ _ _ _ _ _ _ _ _ _ _ _ _ _ _ _ _ _ _ _ _ _ _ _ _ (12 : Fin 27)).trans rfl
/-- Lane 13 of the statistics is the scalar the body computed for it. -/
theorem statsVec_lane13 : statsVec v3 v5 v7 v9 v11 (ValueIdx.ix1 (13 : Fin 27)) = k0_pay42 (k0_pay39 (k0_pay6 v7) v11 (k0_pay26 (k0_pay4 v3))) (k0_pay40 (k0_pay7 v9) v11 (k0_pay27 (k0_pay5 v5))) (k0_pay41 (k0_pay22 (k0_pay4 v3)) (k0_pay23 (k0_pay4 v3)) (k0_pay24 (k0_pay5 v5)) (k0_pay25 (k0_pay5 v5))) :=
  (k0_pay1_lane _ _ _ _ _ _ _ _ _ _ _ _ _ _ _ _ _ _ _ _ _ _ _ _ _ _ _ (13 : Fin 27)).trans rfl
/-- Lane 14 of the statistics is the scalar the body computed for it. -/
theorem statsVec_lane14 : statsVec v3 v5 v7 v9 v11 (ValueIdx.ix1 (14 : Fin 27)) = k0_pay43 (k0_pay38 (k0_pay24 (k0_pay5 v5)) (k0_pay25 (k0_pay5 v5))) (k0_pay40 (k0_pay7 v9) v11 (k0_pay27 (k0_pay5 v5))) :=
  (k0_pay1_lane _ _ _ _ _ _ _ _ _ _ _ _ _ _ _ _ _ _ _ _ _ _ _ _ _ _ _ (14 : Fin 27)).trans rfl
/-- Lane 15 of the statistics is the scalar the body computed for it. -/
theorem statsVec_lane15 : statsVec v3 v5 v7 v9 v11 (ValueIdx.ix1 (15 : Fin 27)) = k0_pay46 (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5)) :=
  (k0_pay1_lane _ _ _ _ _ _ _ _ _ _ _ _ _ _ _ _ _ _ _ _ _ _ _ _ _ _ _ (15 : Fin 27)).trans rfl
/-- Lane 16 of the statistics is the scalar the body computed for it. -/
theorem statsVec_lane16 : statsVec v3 v5 v7 v9 v11 (ValueIdx.ix1 (16 : Fin 27)) = k0_pay48 (k0_pay45 (k0_pay7 v9) v11 (k0_pay27 (k0_pay5 v5))) (k0_pay47 (k0_pay24 (k0_pay5 v5)) (k0_pay25 (k0_pay5 v5))) :=
  (k0_pay1_lane _ _ _ _ _ _ _ _ _ _ _ _ _ _ _ _ _ _ _ _ _ _ _ _ _ _ _ (16 : Fin 27)).trans rfl
/-- Lane 17 of the statistics is the scalar the body computed for it. -/
theorem statsVec_lane17 : statsVec v3 v5 v7 v9 v11 (ValueIdx.ix1 (17 : Fin 27)) = k0_pay51 (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5)) :=
  (k0_pay1_lane _ _ _ _ _ _ _ _ _ _ _ _ _ _ _ _ _ _ _ _ _ _ _ _ _ _ _ (17 : Fin 27)).trans rfl
/-- Lane 18 of the statistics is the scalar the body computed for it. -/
theorem statsVec_lane18 : statsVec v3 v5 v7 v9 v11 (ValueIdx.ix1 (18 : Fin 27)) = k0_pay52 (k0_pay7 v9) v11 (k0_pay24 (k0_pay5 v5)) (k0_pay25 (k0_pay5 v5)) (k0_pay27 (k0_pay5 v5)) :=
  (k0_pay1_lane _ _ _ _ _ _ _ _ _ _ _ _ _ _ _ _ _ _ _ _ _ _ _ _ _ _ _ (18 : Fin 27)).trans rfl
/-- Lane 19 of the statistics is the scalar the body computed for it. -/
theorem statsVec_lane19 : statsVec v3 v5 v7 v9 v11 (ValueIdx.ix1 (19 : Fin 27)) = k0_pay58 v11 (k0_pay53 (k0_pay22 (k0_pay4 v3)) (k0_pay23 (k0_pay4 v3))) (k0_pay54 (k0_pay24 (k0_pay5 v5)) (k0_pay25 (k0_pay5 v5))) (k0_pay55 (k0_pay7 v9) (k0_pay27 (k0_pay5 v5))) (k0_pay56 (k0_pay6 v7) v11 (k0_pay26 (k0_pay4 v3))) (Scalar.ofBits .f32 0x00000000#32 : Ideal .f32) :=
  (k0_pay1_lane _ _ _ _ _ _ _ _ _ _ _ _ _ _ _ _ _ _ _ _ _ _ _ _ _ _ _ (19 : Fin 27)).trans rfl
/-- Lane 20 of the statistics is the scalar the body computed for it. -/
theorem statsVec_lane20 : statsVec v3 v5 v7 v9 v11 (ValueIdx.ix1 (20 : Fin 27)) = k0_pay59 v11 (k0_pay54 (k0_pay24 (k0_pay5 v5)) (k0_pay25 (k0_pay5 v5))) (k0_pay55 (k0_pay7 v9) (k0_pay27 (k0_pay5 v5))) (Scalar.ofBits .f32 0x00000000#32 : Ideal .f32) :=
  (k0_pay1_lane _ _ _ _ _ _ _ _ _ _ _ _ _ _ _ _ _ _ _ _ _ _ _ _ _ _ _ (20 : Fin 27)).trans rfl
/-- Lane 21 of the statistics is the scalar the body computed for it. -/
theorem statsVec_lane21 : statsVec v3 v5 v7 v9 v11 (ValueIdx.ix1 (21 : Fin 27)) = k0_pay62 (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5)) :=
  (k0_pay1_lane _ _ _ _ _ _ _ _ _ _ _ _ _ _ _ _ _ _ _ _ _ _ _ _ _ _ _ (21 : Fin 27)).trans rfl
/-- Lane 22 of the statistics is the scalar the body computed for it. -/
theorem statsVec_lane22 : statsVec v3 v5 v7 v9 v11 (ValueIdx.ix1 (22 : Fin 27)) = k0_pay64 (k0_pay61 (k0_pay7 v9) v11 (k0_pay27 (k0_pay5 v5))) (k0_pay63 (k0_pay24 (k0_pay5 v5)) (k0_pay25 (k0_pay5 v5))) :=
  (k0_pay1_lane _ _ _ _ _ _ _ _ _ _ _ _ _ _ _ _ _ _ _ _ _ _ _ _ _ _ _ (22 : Fin 27)).trans rfl
/-- Lane 23 of the statistics is the scalar the body computed for it. -/
theorem statsVec_lane23 : statsVec v3 v5 v7 v9 v11 (ValueIdx.ix1 (23 : Fin 27)) = k0_pay67 (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5)) :=
  (k0_pay1_lane _ _ _ _ _ _ _ _ _ _ _ _ _ _ _ _ _ _ _ _ _ _ _ _ _ _ _ (23 : Fin 27)).trans rfl
/-- Lane 24 of the statistics is the scalar the body computed for it. -/
theorem statsVec_lane24 : statsVec v3 v5 v7 v9 v11 (ValueIdx.ix1 (24 : Fin 27)) = k0_pay68 (k0_pay7 v9) v11 (k0_pay24 (k0_pay5 v5)) (k0_pay25 (k0_pay5 v5)) (k0_pay27 (k0_pay5 v5)) :=
  (k0_pay1_lane _ _ _ _ _ _ _ _ _ _ _ _ _ _ _ _ _ _ _ _ _ _ _ _ _ _ _ (24 : Fin 27)).trans rfl
/-- Lane 25 of the statistics is the scalar the body computed for it. -/
theorem statsVec_lane25 : statsVec v3 v5 v7 v9 v11 (ValueIdx.ix1 (25 : Fin 27)) = k0_pay73 (k0_pay6 v7) (k0_pay7 v9) v11 (k0_pay25 (k0_pay5 v5)) (k0_pay26 (k0_pay4 v3)) (k0_pay27 (k0_pay5 v5)) (k0_pay69 (k0_pay22 (k0_pay4 v3)) (k0_pay23 (k0_pay4 v3))) (k0_pay70 (k0_pay24 (k0_pay5 v5))) :=
  (k0_pay1_lane _ _ _ _ _ _ _ _ _ _ _ _ _ _ _ _ _ _ _ _ _ _ _ _ _ _ _ (25 : Fin 27)).trans rfl
/-- Lane 26 of the statistics is the scalar the body computed for it. -/
theorem statsVec_lane26 : statsVec v3 v5 v7 v9 v11 (ValueIdx.ix1 (26 : Fin 27)) = k0_pay74 (k0_pay7 v9) v11 (k0_pay25 (k0_pay5 v5)) (k0_pay27 (k0_pay5 v5)) (k0_pay70 (k0_pay24 (k0_pay5 v5))) :=
  (k0_pay1_lane _ _ _ _ _ _ _ _ _ _ _ _ _ _ _ _ _ _ _ _ _ _ _ _ _ _ _ (26 : Fin 27)).trans rfl

end

/-! ## The blocks as functions of natural coordinates -/

section
variable {X T : Cert.Spec.Arr} {b zt : ℕ} {v3 v5 : Vec Ideal S1x1x16x192x192 .f32} {v7 v9 : Vec Ideal S1x1x1x192x192 .f32}
  {v11 : BitVec 1}

/-- The tile's 16 planes of the first array, without the unit axes: plane k is the array's plane 16·zt + k. -/
theorem v4_nat (hB : TileBlocks X T b zt v3 v5 v7 v9 v11) (k : Fin 16) (y x : Fin 192) :
    k0_pay4 v3 (ValueIdx.ix3 k y x) = Cert.Spec.val X b (16 * zt + k.val) y.val x.val :=
  (shapeCast_11abc_abc_apply v3 _ k y x).trans (hB.h3 k y x)

/-- The same for the second array. -/
theorem v6_nat (hB : TileBlocks X T b zt v3 v5 v7 v9 v11) (k : Fin 16) (y x : Fin 192) :
    k0_pay5 v5 (ValueIdx.ix3 k y x) = Cert.Spec.val T b (16 * zt + k.val) y.val x.val :=
  (shapeCast_11abc_abc_apply v5 _ k y x).trans (hB.h5 k y x)

/-- The plane after the tile, of the first array, when the tile is not the last: the array's plane 16·zt + 16. -/
theorem v8_nat (hB : TileBlocks X T b zt v3 v5 v7 v9 v11) (hz : zt ≠ 7) (k : Fin 1) (y x : Fin 192) :
    k0_pay6 v7 (ValueIdx.ix3 k y x) = Cert.Spec.val X b (16 * zt + 16 + k.val) y.val x.val := by
  have hk : k = 0 := Subsingleton.elim _ _
  subst hk
  exact (shapeCast_11abc_abc_apply v7 _ 0 y x).trans (hB.h7 hz y x)

/-- The same for the second array. -/
theorem v10_nat (hB : TileBlocks X T b zt v3 v5 v7 v9 v11) (hz : zt ≠ 7) (k : Fin 1) (y x : Fin 192) :
    k0_pay7 v9 (ValueIdx.ix3 k y x) = Cert.Spec.val T b (16 * zt + 16 + k.val) y.val x.val := by
  have hk : k = 0 := Subsingleton.elim _ _
  subst hk
  exact (shapeCast_11abc_abc_apply v9 _ 0 y x).trans (hB.h9 hz y x)

end

/-- The difference of two shifted slices of a block that holds planes z0, z0 + 1, … of an array is the specification's
    shifted difference at plane z0 + k. -/
theorem dif_of_block {D A B D' A' B' : ℕ} (X : Cert.Spec.Arr) (b z0 : ℕ) (v : FVec Ideal ⟨3, ![D, A, B]⟩ .f32)
    (hv : ∀ (k : Fin D) (y : Fin A) (x : Fin B), v (ValueIdx.ix3 k y x) = Cert.Spec.val X b (z0 + k.val) y.val x.val)
    (pz py px nz ny nx : ℕ)
    (hp : (⟨3, ![D, A, B]⟩ : Shape).Slices ![pz, py, px] ⟨3, ![D', A', B']⟩)
    (hn : (⟨3, ![D, A, B]⟩ : Shape).Slices ![nz, ny, nx] ⟨3, ![D', A', B']⟩)
    (k : Fin D') (y : Fin A') (x : Fin B') :
    subf (extractStridedSlice ⟨3, ![D', A', B']⟩ ![pz, py, px] v hp) (extractStridedSlice ⟨3, ![D', A', B']⟩ ![nz, ny, nx] v hn)
        (ValueIdx.ix3 k y x)
      = Cert.Spec.dif X pz py px nz ny nx b (z0 + k.val) y.val x.val := by
  rw [dslice3_nat pz py px nz ny nx v hp hn (fun k y x => Cert.Spec.val X b (z0 + k) y x) hv]
  unfold Cert.Spec.dif
  rw [Nat.add_assoc, Nat.add_assoc]

end Cert.KernelIdeal.Val

end
-- ==== Proof.Val.LanesPlane.lean ====
/-
  The first nine lanes of a tile's statistics: the cross-entropy sum and the numerators and denominators of the four
  directions that stay in the plane. Each is a total sum over the tile's 16 planes of a product read at natural
  coordinates: for lane 0 the cross-entropy term of the two arrays' entries, for the others the product of two shifted
  differences, which are the specification's differences at plane 16·zt + k.
-/
import proofs.«408089_j31568009625984_3_alg».proof.Proof.Val.Lanes

set_option maxRecDepth 16384

noncomputable section

namespace Cert.KernelIdeal.Val

open Cert.KernelIdeal Cert.KernelIdeal.Gen Cert.KernelIdeal.Hand
open Idealize.ShloMosaic Finset

variable {X T : Cert.Spec.Arr} {b zt : ℕ} {v3 v5 : Vec Ideal S1x1x16x192x192 .f32} {v7 v9 : Vec Ideal S1x1x1x192x192 .f32}
  {v11 : BitVec 1}

/-- Lane 0: the cross-entropy sum over the tile's 16 planes. -/
theorem lane_0 (hB : TileBlocks X T b zt v3 v5 v7 v9 v11) (hzt : zt < 8) :
    statsVec v3 v5 v7 v9 v11 (ValueIdx.ix1 (0 : Fin 27)) = Cert.Spec.tileStat X T b zt 0 := by
  rw [statsVec_lane0]
  unfold k0_pay8
  refine (reduce4_eq 16 192 192 _ _ _ _ _ _ _ (fun k y x => Cert.Spec.pbce X T b (16 * zt + k) y x) ?_).trans rfl
  intro k y x
  show k0_pay5 v5 (ValueIdx.ix3 k y x) * Ideal.log (k0_pay4 v3 (ValueIdx.ix3 k y x))
      + (Cert.Spec.one - k0_pay5 v5 (ValueIdx.ix3 k y x)) * Ideal.log (Cert.Spec.one - k0_pay4 v3 (ValueIdx.ix3 k y x)) = _
  rw [v4_nat hB, v6_nat hB]
  rfl

/-- Lane 1: the numerator of the in-plane direction 0 (one row down) over the tile's 16 planes. -/
theorem lane_1 (hB : TileBlocks X T b zt v3 v5 v7 v9 v11) (hzt : zt < 8) :
    statsVec v3 v5 v7 v9 v11 (ValueIdx.ix1 (1 : Fin 27)) = Cert.Spec.tileStat X T b zt 1 := by
  rw [statsVec_lane1]
  unfold k0_pay11 k0_pay9 k0_pay10
  refine (reduce4_eq 16 191 192 _ _ _ _ _ _ _ (fun k y x => Cert.Spec.pnum X T (Cert.Spec.kdir 0) b (16 * zt + k) y x) ?_).trans rfl
  intro k y x
  exact congrArg₂ (· * ·) (dif_of_block X b (16 * zt) _ (v4_nat hB) 0 1 0 0 0 0 _ _ k y x)
    (dif_of_block T b (16 * zt) _ (v6_nat hB) 0 1 0 0 0 0 _ _ k y x)

/-- Lane 2: the denominator of the in-plane direction 0 (one row down) over the tile's 16 planes. -/
theorem lane_2 (hB : TileBlocks X T b zt v3 v5 v7 v9 v11) (hzt : zt < 8) :
    statsVec v3 v5 v7 v9 v11 (ValueIdx.ix1 (2 : Fin 27)) = Cert.Spec.tileStat X T b zt 2 := by
  rw [statsVec_lane2]
  unfold k0_pay12 k0_pay10
  refine (reduce4_eq 16 191 192 _ _ _ _ _ _ _ (fun k y x => Cert.Spec.pden T (Cert.Spec.kdir 0) b (16 * zt + k) y x) ?_).trans rfl
  intro k y x
  exact congrArg₂ (· * ·) (dif_of_block T b (16 * zt) _ (v6_nat hB) 0 1 0 0 0 0 _ _ k y x)
    (dif_of_block T b (16 * zt) _ (v6_nat hB) 0 1 0 0 0 0 _ _ k y x)

/-- Lane 3: the numerator of the in-plane direction 1 (one column right) over the tile's 16 planes. -/
theorem lane_3 (hB : TileBlocks X T b zt v3 v5 v7 v9 v11) (hzt : zt < 8) :
    statsVec v3 v5 v7 v9 v11 (ValueIdx.ix1 (3 : Fin 27)) = Cert.Spec.tileStat X T b zt 3 := by
  rw [statsVec_lane3]
  unfold k0_pay14 k0_pay13
  refine (reduce4_eq 16 192 191 _ _ _ _ _ _ _ (fun k y x => Cert.Spec.pnum X T (Cert.Spec.kdir 1) b (16 * zt + k) y x) ?_).trans rfl
  intro k y x
  exact congrArg₂ (· * ·) (dif_of_block X b (16 * zt) _ (v4_nat hB) 0 0 1 0 0 0 _ _ k y x)
    (dif_of_block T b (16 * zt) _ (v6_nat hB) 0 0 1 0 0 0 _ _ k y x)

/-- Lane 4: the denominator of the in-plane direction 1 (one column right) over the tile's 16 planes. -/
theorem lane_4 (hB : TileBlocks X T b zt v3 v5 v7 v9 v11) (hzt : zt < 8) :
    statsVec v3 v5 v7 v9 v11 (ValueIdx.ix1 (4 : Fin 27)) = Cert.Spec.tileStat X T b zt 4 := by
  rw [statsVec_lane4]
  unfold k0_pay15 k0_pay13
  refine (reduce4_eq 16 192 191 _ _ _ _ _ _ _ (fun k y x => Cert.Spec.pden T (Cert.Spec.kdir 1) b (16 * zt + k) y x) ?_).trans rfl
  intro k y x
  exact congrArg₂ (· * ·) (dif_of_block T b (16 * zt) _ (v6_nat hB) 0 0 1 0 0 0 _ _ k y x)
    (dif_of_block T b (16 * zt) _ (v6_nat hB) 0 0 1 0 0 0 _ _ k y x)

/-- Lane 5: the numerator of the in-plane direction 2 (one row down and one column right) over the tile's 16 planes. -/
theorem lane_5 (hB : TileBlocks X T b zt v3 v5 v7 v9 v11) (hzt : zt < 8) :
    statsVec v3 v5 v7 v9 v11 (ValueIdx.ix1 (5 : Fin 27)) = Cert.Spec.tileStat X T b zt 5 := by
  rw [statsVec_lane5]
  unfold k0_pay17 k0_pay16
  refine (reduce4_eq 16 191 191 _ _ _ _ _ _ _ (fun k y x => Cert.Spec.pnum X T (Cert.Spec.kdir 2) b (16 * zt + k) y x) ?_).trans rfl
  intro k y x
  exact congrArg₂ (· * ·) (dif_of_block X b (16 * zt) _ (v4_nat hB) 0 1 1 0 0 0 _ _ k y x)
    (dif_of_block T b (16 * zt) _ (v6_nat hB) 0 1 1 0 0 0 _ _ k y x)

/-- Lane 6: the denominator of the in-plane direction 2 (one row down and one column right) over the tile's 16 planes. -/
theorem lane_6 (hB : TileBlocks X T b zt v3 v5 v7 v9 v11) (hzt : zt < 8) :
    statsVec v3 v5 v7 v9 v11 (ValueIdx.ix1 (6 : Fin 27)) = Cert.Spec.tileStat X T b zt 6 := by
  rw [statsVec_lane6]
  unfold k0_pay18 k0_pay16
  refine (reduce4_eq 16 191 191 _ _ _ _ _ _ _ (fun k y x => Cert.Spec.pden T (Cert.Spec.kdir 2) b (16 * zt + k) y x) ?_).trans rfl
  intro k y x
  exact congrArg₂ (· * ·) (dif_of_block T b (16 * zt) _ (v6_nat hB) 0 1 1 0 0 0 _ _ k y x)
    (dif_of_block T b (16 * zt) _ (v6_nat hB) 0 1 1 0 0 0 _ _ k y x)

/-- Lane 7: the numerator of the in-plane direction 3 (one row down against one column right) over the tile's 16 planes. -/
theorem lane_7 (hB : TileBlocks X T b zt v3 v5 v7 v9 v11) (hzt : zt < 8) :
    statsVec v3 v5 v7 v9 v11 (ValueIdx.ix1 (7 : Fin 27)) = Cert.Spec.tileStat X T b zt 7 := by
  rw [statsVec_lane7]
  unfold k0_pay20 k0_pay19
  refine (reduce4_eq 16 191 191 _ _ _ _ _ _ _ (fun k y x => Cert.Spec.pnum X T (Cert.Spec.kdir 3) b (16 * zt + k) y x) ?_).trans rfl
  intro k y x
  exact congrArg₂ (· * ·) (dif_of_block X b (16 * zt) _ (v4_nat hB) 0 1 0 0 0 1 _ _ k y x)
    (dif_of_block T b (16 * zt) _ (v6_nat hB) 0 1 0 0 0 1 _ _ k y x)

/-- Lane 8: the denominator of the in-plane direction 3 (one row down against one column right) over the tile's 16 planes. -/
theorem lane_8 (hB : TileBlocks X T b zt v3 v5 v7 v9 v11) (hzt : zt < 8) :
    statsVec v3 v5 v7 v9 v11 (ValueIdx.ix1 (8 : Fin 27)) = Cert.Spec.tileStat X T b zt 8 := by
  rw [statsVec_lane8]
  unfold k0_pay21 k0_pay19
  refine (reduce4_eq 16 191 191 _ _ _ _ _ _ _ (fun k y x => Cert.Spec.pden T (Cert.Spec.kdir 3) b (16 * zt + k) y x) ?_).trans rfl
  intro k y x
  exact congrArg₂ (· * ·) (dif_of_block T b (16 * zt) _ (v6_nat hB) 0 1 0 0 0 1 _ _ k y x)
    (dif_of_block T b (16 * zt) _ (v6_nat hB) 0 1 0 0 0 1 _ _ k y x)

end Cert.KernelIdeal.Val

end
-- ==== Proof.Val.ReduceFwd.lean ====
/-
  General readings of the forward statistics. A statistic of a tile is a total sum of products over a box; this module
  reads such a total reduction as iterated sums over ranges, reads a shifted sub-block at an index, reads a masked
  vector (replaced by zeros when the flag is set) at an index, and assembles the reading of a forward direction's
  statistic: the sum over the 15 plane pairs inside the tile plus the sum over the pair across the tile's end, which
  the last tile replaces by zero.
-/
import Idealize.ShloMosaic.PureOps.Ideal.Laws
import Idealize.ShloMosaic.Lib.ValueIdx
import Idealize.ShloMosaic.Lib.Pipeline.Value
import Idealize.ShloMosaic.Lib.ValueLayout
import proofs.«408089_j31568009625984_3_alg».proof.Proof.Spec.Sums

noncomputable section

namespace Cert.KernelIdeal.Val.Fwd

open Idealize.ShloMosaic Finset

/-- A total sum-reduction of a rank-3 vector, taken as the kernel takes it (a unit axis added, every other axis
    reduced, the one remaining element extracted), is the iterated sum of the vector's entries over the three ranges. -/
theorem reduce4_eq (D A B : ℕ) (v : FVec Ideal ⟨3, ![D, A, B]⟩ .f32)
    (hc : (⟨3, ![D, A, B]⟩ : Shape).ShapeCasts ⟨4, ![1, D, A, B]⟩)
    (hr : Shape.Reduces ⟨4, ![1, D, A, B]⟩ [1, 2, 3] ⟨1, ![1]⟩)
    (h1 : FKind.Formats .f32) (h2 : (0x00000000#32 : BitVec 32) = FKind.add.neutral .f32 h1)
    (hc' : (⟨1, ![1]⟩ : Shape).ShapeCasts ⟨4, ![1, 1, 1, 1]⟩)
    (hp : ∀ a, (![0, 0, 0, 0] : Fin 4 → Nat) a < (⟨4, ![1, 1, 1, 1]⟩ : Shape).size a)
    (G : ℕ → ℕ → ℕ → EReal) (hG : ∀ (k : Fin D) (y : Fin A) (x : Fin B), v (ValueIdx.ix3 k y x) = G k.val y.val x.val) :
    extractAt ![0, 0, 0, 0] (shapeCast ⟨4, ![1, 1, 1, 1]⟩
        (multiReduction (F := Ideal) .add [1, 2, 3] ⟨1, ![1]⟩ (shapeCast ⟨4, ![1, D, A, B]⟩ v hc) 0x00000000#32 hr h1 h2) hc') hp
      = ∑ k ∈ range D, ∑ y ∈ range A, ∑ x ∈ range B, G k y x := by
  refine (Ideal.multiReduction_add_total (φ := .f32) _ _ hr (fun b => by fin_cases b; rfl) h1 h2 _).trans ?_
  have hi : ∀ i : (⟨4, ![1, D, A, B]⟩ : Shape).Idx,
      shapeCast ⟨4, ![1, D, A, B]⟩ v hc i = G (i 1).val (i 2).val (i 3).val := by
    intro i
    refine (shapeCast_addUnit_apply ![D, A, B] v hc i).trans ?_
    have e : (fun a : Fin 3 => i a.succ) = ValueIdx.ix3 (i 1) (i 2) (i 3) := by
      funext a
      match a with
      | ⟨0, _⟩ => rfl
      | ⟨1, _⟩ => rfl
      | ⟨2, _⟩ => rfl
    rw [e]
    exact hG (i 1) (i 2) (i 3)
  simp only [hi]
  exact Cert.Spec.sum_idx4 D A B G

/-- A shifted sub-block of a rank-3 vector, at an index, is the vector at the shifted index. -/
theorem slice3_apply {α : Type} {D A B D' A' B' : ℕ} (o0 o1 o2 : ℕ) (v : (⟨3, ![D, A, B]⟩ : Shape).Idx → α)
    (h : (⟨3, ![D, A, B]⟩ : Shape).Slices ![o0, o1, o2] ⟨3, ![D', A', B']⟩) (k : Fin D') (y : Fin A') (x : Fin B')
    (h0 : o0 + k.val < D) (h1 : o1 + y.val < A) (h2 : o2 + x.val < B) :
    extractStridedSlice ⟨3, ![D', A', B']⟩ ![o0, o1, o2] v h (ValueIdx.ix3 k y x)
      = v (ValueIdx.ix3 (⟨o0 + k.val, h0⟩ : Fin D) (⟨o1 + y.val, h1⟩ : Fin A) (⟨o2 + x.val, h2⟩ : Fin B)) :=
  extractStridedSlice_apply _ v h _ _ fun a => match a with
    | ⟨0, _⟩ => rfl
    | ⟨1, _⟩ => rfl
    | ⟨2, _⟩ => rfl

/-- The value of an array does not change when its coordinates are replaced by equal ones. -/
theorem val_congr (X : Cert.Spec.Arr) (b : ℕ) {z z' y y' x x' : ℕ} (hz : z = z') (hy : y = y') (hx : x = x') :
    Cert.Spec.val X b z y x = Cert.Spec.val X b z' y' x' := by
  subst hz hy hx; rfl

/-- The difference of two shifted sub-blocks of two stacks of planes of one array: when the first stack's plane k is
    the array's plane z0 + k + pz and the second's is plane z0 + k + nz, the difference at (k, y, x) is the
    specification's shifted difference at plane z0 + k. -/
theorem dif_slices (X : Cert.Spec.Arr) (b z0 D A B pz nz py px ny nx : ℕ)
    (p n : FVec Ideal ⟨3, ![D, 192, 192]⟩ .f32)
    (hp : ∀ (k : Fin D) (y x : Fin 192), p (ValueIdx.ix3 k y x) = Cert.Spec.val X b (z0 + k.val + pz) y.val x.val)
    (hn : ∀ (k : Fin D) (y x : Fin 192), n (ValueIdx.ix3 k y x) = Cert.Spec.val X b (z0 + k.val + nz) y.val x.val)
    (hsp : (⟨3, ![D, 192, 192]⟩ : Shape).Slices ![0, py, px] ⟨3, ![D, A, B]⟩)
    (hsn : (⟨3, ![D, 192, 192]⟩ : Shape).Slices ![0, ny, nx] ⟨3, ![D, A, B]⟩)
    (hpy : py + A ≤ 192) (hpx : px + B ≤ 192) (hny : ny + A ≤ 192) (hnx : nx + B ≤ 192)
    (k : Fin D) (y : Fin A) (x : Fin B) :
    subf (extractStridedSlice ⟨3, ![D, A, B]⟩ ![0, py, px] p hsp) (extractStridedSlice ⟨3, ![D, A, B]⟩ ![0, ny, nx] n hsn)
        (ValueIdx.ix3 k y x)
      = Cert.Spec.dif X pz py px nz ny nx b (z0 + k.val) y.val x.val := by
  have hk := k.isLt
  have hy := y.isLt
  have hx := x.isLt
  rw [ValueIdx.subf_apply,
    slice3_apply 0 py px p hsp k y x (by omega) (by omega) (by omega),
    slice3_apply 0 ny nx n hsn k y x (by omega) (by omega) (by omega), hp, hn]
  unfold Cert.Spec.dif
  refine congrArg₂ (· - ·) (val_congr X b ?_ ?_ ?_) (val_congr X b ?_ ?_ ?_)
  · show z0 + (0 + k.val) + pz = z0 + k.val + pz; omega
  · show py + y.val = y.val + py; omega
  · show px + x.val = x.val + px; omega
  · show z0 + (0 + k.val) + nz = z0 + k.val + nz; omega
  · show ny + y.val = y.val + ny; omega
  · show nx + x.val = x.val + nx; omega

/-- A vector masked by the last-tile flag (replaced whole by zeros when the flag is set), at an index. -/
theorem masked_apply {S : Shape} (zt : ℕ) (v11 : BitVec 1) (hflag : v11 = if zt = 7 then 1#1 else 0#1)
    (w : FVec Ideal S .f32) (i : S.Idx) :
    (Scalar.select v11 (broadcast S (Scalar.ofBits (F := Ideal) .f32 0x00000000#32)) w : FVec Ideal S .f32) i
      = if zt = 7 then 0 else w i := by
  subst hflag
  by_cases h : zt = 7
  · rw [if_pos h, if_pos h, ValueIdx.select_one]
    exact Ideal.ofBits_zero_f32
  · rw [if_neg h, if_neg h, ValueIdx.select_zero]

/-- The product of two masked vectors at an index: zero at the last tile, the product of the two otherwise. -/
theorem masked_mul {S : Shape} (zt : ℕ) (e e' : FVec Ideal S .f32) (i : S.Idx) (a a' : EReal)
    (he : e i = if zt = 7 then 0 else a) (he' : e' i = if zt = 7 then 0 else a') :
    mulf e e' i = if zt = 7 then 0 else a * a' := by
  rw [ValueIdx.mulf_apply, he, he']
  by_cases h : zt = 7
  · rw [if_pos h, if_pos h, if_pos h, zero_mul]
  · rw [if_neg h, if_neg h, if_neg h]

/-- A FORWARD STATISTIC. The sum of the total reduction of a vector over the 15 plane pairs inside the tile and of
    the total reduction of a vector over the one pair across the tile's end, when the first holds the terms of the
    tile's planes 16·zt + k and the second holds the terms of plane 16·zt + 15 or, at the last tile, zeros, is the
    tile's share of the forward sum. -/
theorem fwd_stat (A B : ℕ) (f : ℕ → ℕ → ℕ → ℕ → EReal) (b zt : ℕ)
    (P : FVec Ideal ⟨3, ![15, A, B]⟩ .f32) (Q : FVec Ideal ⟨3, ![1, A, B]⟩ .f32)
    (hcP : (⟨3, ![15, A, B]⟩ : Shape).ShapeCasts ⟨4, ![1, 15, A, B]⟩)
    (hrP : Shape.Reduces ⟨4, ![1, 15, A, B]⟩ [1, 2, 3] ⟨1, ![1]⟩)
    (hcQ : (⟨3, ![1, A, B]⟩ : Shape).ShapeCasts ⟨4, ![1, 1, A, B]⟩)
    (hrQ : Shape.Reduces ⟨4, ![1, 1, A, B]⟩ [1, 2, 3] ⟨1, ![1]⟩)
    (h1 : FKind.Formats .f32) (h2 : (0x00000000#32 : BitVec 32) = FKind.add.neutral .f32 h1)
    (hc' : (⟨1, ![1]⟩ : Shape).ShapeCasts ⟨4, ![1, 1, 1, 1]⟩)
    (hp : ∀ a, (![0, 0, 0, 0] : Fin 4 → Nat) a < (⟨4, ![1, 1, 1, 1]⟩ : Shape).size a)
    (hP : ∀ (k : Fin 15) (y : Fin A) (x : Fin B), P (ValueIdx.ix3 k y x) = f b (16 * zt + k.val) y.val x.val)
    (hQ : ∀ (y : Fin A) (x : Fin B),
      Q (ValueIdx.ix3 (0 : Fin 1) y x) = if zt = 7 then 0 else f b (16 * zt + 15) y.val x.val) :
    Scalar.addf
        (extractAt ![0, 0, 0, 0] (shapeCast ⟨4, ![1, 1, 1, 1]⟩
          (multiReduction (F := Ideal) .add [1, 2, 3] ⟨1, ![1]⟩ (shapeCast ⟨4, ![1, 15, A, B]⟩ P hcP) 0x00000000#32 hrP h1 h2) hc') hp)
        (extractAt ![0, 0, 0, 0] (shapeCast ⟨4, ![1, 1, 1, 1]⟩
          (multiReduction (F := Ideal) .add [1, 2, 3] ⟨1, ![1]⟩ (shapeCast ⟨4, ![1, 1, A, B]⟩ Q hcQ) 0x00000000#32 hrQ h1 h2) hc') hp)
      = Cert.Spec.tile1 f A B b zt := by
  refine Eq.trans (congrArg₂ (· + ·)
    (reduce4_eq 15 A B P hcP hrP h1 h2 hc' hp (fun k y x => f b (16 * zt + k) y x) hP)
    (reduce4_eq 1 A B Q hcQ hrQ h1 h2 hc' hp (fun _ y x => if zt = 7 then 0 else f b (16 * zt + 15) y x)
      (fun k y x => by rw [Subsingleton.elim k (0 : Fin 1)]; exact hQ y x))) ?_
  unfold Cert.Spec.tile1
  congr 1
  rw [Finset.sum_range_one]
  by_cases h : zt = 7
  · simp only [if_pos h, Finset.sum_const_zero]
  · simp only [if_neg h]

end Cert.KernelIdeal.Val.Fwd

end
-- ==== Proof.Val.FwdBlocks.lean ====
/-
  The tile's blocks as the forward directions read them. The tile's 16 planes of each array as the stack of planes
  1 … 15 (the positive side of a forward step), the stack of planes 0 … 14 (the negative side), the last plane and the
  plane after the tile, each at an index in the specification's coordinates; the masked difference across the tile's
  end; and the forward statistic of a pair of arrays for a direction given by its row and column shifts.
-/
import proofs.«408089_j31568009625984_3_alg».proof.Proof.Val.Blocks
import proofs.«408089_j31568009625984_3_alg».proof.Proof.Val.ReduceFwd

noncomputable section

namespace Cert.KernelIdeal.Val.Fwd

open Cert.KernelIdeal Cert.KernelIdeal.Gen Cert.KernelIdeal.Hand Cert.KernelIdeal.Val
open Idealize.ShloMosaic Finset

/-! ## The blocks without their unit axes -/

/-- A tile's block [1, 1, 16, 192, 192] viewed [16, 192, 192], at (k, y, x), is the block at (0, 0, k, y, x). -/
theorem pay4_at (v3 : Vec Ideal S1x1x16x192x192 .f32) (k : Fin 16) (y x : Fin 192) :
    k0_pay4 (F := Ideal) v3 (ValueIdx.ix3 k y x) = v3 (ValueIdx.ix5 (0 : Fin 1) (0 : Fin 1) k y x) := by
  unfold k0_pay4
  exact shapeCast_apply v3 _ _ _ (by
    rw [Shape.rowMajor_val_five, Shape.rowMajor_val_three]
    show ((((0 * 1 + 0) * 16 + k.val) * 192 + y.val) * 192 + x.val) = (k.val * 192 + y.val) * 192 + x.val
    simp only [Nat.zero_mul, Nat.zero_add])

theorem pay5_at (v5 : Vec Ideal S1x1x16x192x192 .f32) (k : Fin 16) (y x : Fin 192) :
    k0_pay5 (F := Ideal) v5 (ValueIdx.ix3 k y x) = v5 (ValueIdx.ix5 (0 : Fin 1) (0 : Fin 1) k y x) := by
  unfold k0_pay5
  exact shapeCast_apply v5 _ _ _ (by
    rw [Shape.rowMajor_val_five, Shape.rowMajor_val_three]
    show ((((0 * 1 + 0) * 16 + k.val) * 192 + y.val) * 192 + x.val) = (k.val * 192 + y.val) * 192 + x.val
    simp only [Nat.zero_mul, Nat.zero_add])

/-- The plane after the tile [1, 1, 1, 192, 192] viewed [1, 192, 192], at (0, y, x), is the block at (0, 0, 0, y, x). -/
theorem pay6_at (v7 : Vec Ideal S1x1x1x192x192 .f32) (k : Fin 1) (y x : Fin 192) :
    k0_pay6 (F := Ideal) v7 (ValueIdx.ix3 k y x) = v7 (ValueIdx.ix5 (0 : Fin 1) (0 : Fin 1) (0 : Fin 1) y x) := by
  unfold k0_pay6
  have hk : k.val = 0 := by omega
  exact shapeCast_apply v7 _ _ _ (by
    rw [Shape.rowMajor_val_five, Shape.rowMajor_val_three]
    show ((((0 * 1 + 0) * 1 + 0) * 192 + y.val) * 192 + x.val) = (k.val * 192 + y.val) * 192 + x.val
    rw [hk])

theorem pay7_at (v9 : Vec Ideal S1x1x1x192x192 .f32) (k : Fin 1) (y x : Fin 192) :
    k0_pay7 (F := Ideal) v9 (ValueIdx.ix3 k y x) = v9 (ValueIdx.ix5 (0 : Fin 1) (0 : Fin 1) (0 : Fin 1) y x) := by
  unfold k0_pay7
  have hk : k.val = 0 := by omega
  exact shapeCast_apply v9 _ _ _ (by
    rw [Shape.rowMajor_val_five, Shape.rowMajor_val_three]
    show ((((0 * 1 + 0) * 1 + 0) * 192 + y.val) * 192 + x.val) = (k.val * 192 + y.val) * 192 + x.val
    rw [hk])

/-! ## The stacks of planes a forward step reads -/

section Stacks
variable {X T : Cert.Spec.Arr} {b zt : ℕ} {v3 v5 : Vec Ideal S1x1x16x192x192 .f32} {v7 v9 : Vec Ideal S1x1x1x192x192 .f32}
  {v11 : BitVec 1}

/-- Planes 1 … 15 of the tile, of the first array: plane k of the stack is the array's plane 16·zt + k + 1. -/
theorem xpos_at (hB : TileBlocks X T b zt v3 v5 v7 v9 v11) (k : Fin 15) (y x : Fin 192) :
    k0_pay22 (F := Ideal) (k0_pay4 v3) (ValueIdx.ix3 k y x) = Cert.Spec.val X b (16 * zt + k.val + 1) y.val x.val := by
  have hk := k.isLt
  have hy := y.isLt
  have hx := x.isLt
  unfold k0_pay22
  rw [slice3_apply 1 0 0 _ _ k y x (by omega) (by omega) (by omega), pay4_at, hB.h3]
  exact val_congr X b (by show 16 * zt + (1 + k.val) = 16 * zt + k.val + 1; omega) (Nat.zero_add _) (Nat.zero_add _)

/-- Planes 0 … 14 of the tile, of the first array. -/
theorem xneg_at (hB : TileBlocks X T b zt v3 v5 v7 v9 v11) (k : Fin 15) (y x : Fin 192) :
    k0_pay23 (F := Ideal) (k0_pay4 v3) (ValueIdx.ix3 k y x) = Cert.Spec.val X b (16 * zt + k.val + 0) y.val x.val := by
  have hk := k.isLt
  have hy := y.isLt
  have hx := x.isLt
  unfold k0_pay23
  rw [slice3_apply 0 0 0 _ _ k y x (by omega) (by omega) (by omega), pay4_at, hB.h3]
  exact val_congr X b (by show 16 * zt + (0 + k.val) = 16 * zt + k.val + 0; omega) (Nat.zero_add _) (Nat.zero_add _)

/-- Planes 1 … 15 of the tile, of the second array. -/
theorem tpos_at (hB : TileBlocks X T b zt v3 v5 v7 v9 v11) (k : Fin 15) (y x : Fin 192) :
    k0_pay24 (F := Ideal) (k0_pay5 v5) (ValueIdx.ix3 k y x) = Cert.Spec.val T b (16 * zt + k.val + 1) y.val x.val := by
  have hk := k.isLt
  have hy := y.isLt
  have hx := x.isLt
  unfold k0_pay24
  rw [slice3_apply 1 0 0 _ _ k y x (by omega) (by omega) (by omega), pay5_at, hB.h5]
  exact val_congr T b (by show 16 * zt + (1 + k.val) = 16 * zt + k.val + 1; omega) (Nat.zero_add _) (Nat.zero_add _)

/-- Planes 0 … 14 of the tile, of the second array. -/
theorem tneg_at (hB : TileBlocks X T b zt v3 v5 v7 v9 v11) (k : Fin 15) (y x : Fin 192) :
    k0_pay25 (F := Ideal) (k0_pay5 v5) (ValueIdx.ix3 k y x) = Cert.Spec.val T b (16 * zt + k.val + 0) y.val x.val := by
  have hk := k.isLt
  have hy := y.isLt
  have hx := x.isLt
  unfold k0_pay25
  rw [slice3_apply 0 0 0 _ _ k y x (by omega) (by omega) (by omega), pay5_at, hB.h5]
  exact val_congr T b (by show 16 * zt + (0 + k.val) = 16 * zt + k.val + 0; omega) (Nat.zero_add _) (Nat.zero_add _)

/-- The tile's last plane, of the first array: the array's plane 16·zt + 15. -/
theorem xlast_at (hB : TileBlocks X T b zt v3 v5 v7 v9 v11) (k : Fin 1) (y x : Fin 192) :
    k0_pay26 (F := Ideal) (k0_pay4 v3) (ValueIdx.ix3 k y x) = Cert.Spec.val X b (16 * zt + 15 + k.val + 0) y.val x.val := by
  have hk := k.isLt
  have hy := y.isLt
  have hx := x.isLt
  unfold k0_pay26
  rw [slice3_apply 15 0 0 _ _ k y x (by omega) (by omega) (by omega), pay4_at, hB.h3]
  exact val_congr X b (by show 16 * zt + (15 + k.val) = 16 * zt + 15 + k.val + 0; omega) (Nat.zero_add _) (Nat.zero_add _)

/-- The tile's last plane, of the second array. -/
theorem tlast_at (hB : TileBlocks X T b zt v3 v5 v7 v9 v11) (k : Fin 1) (y x : Fin 192) :
    k0_pay27 (F := Ideal) (k0_pay5 v5) (ValueIdx.ix3 k y x) = Cert.Spec.val T b (16 * zt + 15 + k.val + 0) y.val x.val := by
  have hk := k.isLt
  have hy := y.isLt
  have hx := x.isLt
  unfold k0_pay27
  rw [slice3_apply 15 0 0 _ _ k y x (by omega) (by omega) (by omega), pay5_at, hB.h5]
  exact val_congr T b (by show 16 * zt + (15 + k.val) = 16 * zt + 15 + k.val + 0; omega) (Nat.zero_add _) (Nat.zero_add _)

/-- The plane after the tile, of the first array, when the tile is not the last: the array's plane 16·zt + 16. -/
theorem xnext_at (hB : TileBlocks X T b zt v3 v5 v7 v9 v11) (hz : zt ≠ 7) (k : Fin 1) (y x : Fin 192) :
    k0_pay6 (F := Ideal) v7 (ValueIdx.ix3 k y x) = Cert.Spec.val X b (16 * zt + 15 + k.val + 1) y.val x.val := by
  have hk := k.isLt
  rw [pay6_at, hB.h7 hz]
  exact val_congr X b (by omega) rfl rfl

/-- The plane after the tile, of the second array, when the tile is not the last. -/
theorem tnext_at (hB : TileBlocks X T b zt v3 v5 v7 v9 v11) (hz : zt ≠ 7) (k : Fin 1) (y x : Fin 192) :
    k0_pay7 (F := Ideal) v9 (ValueIdx.ix3 k y x) = Cert.Spec.val T b (16 * zt + 15 + k.val + 1) y.val x.val := by
  have hk := k.isLt
  rw [pay7_at, hB.h9 hz]
  exact val_congr T b (by omega) rfl rfl

end Stacks

/-! ## The forward statistic of a direction -/

/-- The masked difference across the tile's end, at (0, y, x): zero at the last tile, the specification's shifted
    difference at the tile's last plane otherwise. -/
theorem bdry_dif (U : Cert.Spec.Arr) (b zt A B py px ny nx : ℕ) (v11 : BitVec 1)
    (hflag : v11 = if zt = 7 then 1#1 else 0#1) (nxt lst : FVec Ideal ⟨3, ![1, 192, 192]⟩ .f32)
    (hnxt : zt ≠ 7 → ∀ (k : Fin 1) (y x : Fin 192),
      nxt (ValueIdx.ix3 k y x) = Cert.Spec.val U b (16 * zt + 15 + k.val + 1) y.val x.val)
    (hlst : ∀ (k : Fin 1) (y x : Fin 192), lst (ValueIdx.ix3 k y x) = Cert.Spec.val U b (16 * zt + 15 + k.val + 0) y.val x.val)
    (hsp : (⟨3, ![1, 192, 192]⟩ : Shape).Slices ![0, py, px] ⟨3, ![1, A, B]⟩)
    (hsn : (⟨3, ![1, 192, 192]⟩ : Shape).Slices ![0, ny, nx] ⟨3, ![1, A, B]⟩)
    (hpy : py + A ≤ 192) (hpx : px + B ≤ 192) (hny : ny + A ≤ 192) (hnx : nx + B ≤ 192) (y : Fin A) (x : Fin B) :
    (Scalar.select v11 (broadcast ⟨3, ![1, A, B]⟩ (Scalar.ofBits (F := Ideal) .f32 0x00000000#32))
        (subf (extractStridedSlice ⟨3, ![1, A, B]⟩ ![0, py, px] nxt hsp) (extractStridedSlice ⟨3, ![1, A, B]⟩ ![0, ny, nx] lst hsn))
      : FVec Ideal ⟨3, ![1, A, B]⟩ .f32) (ValueIdx.ix3 (0 : Fin 1) y x)
      = if zt = 7 then 0 else Cert.Spec.dif U 1 py px 0 ny nx b (16 * zt + 15) y.val x.val := by
  refine (masked_apply zt v11 hflag _ _).trans ?_
  by_cases h : zt = 7
  · rw [if_pos h, if_pos h]
  · rw [if_neg h, if_neg h]
    exact dif_slices U b (16 * zt + 15) 1 A B 1 0 py px ny nx nxt lst (hnxt h) hlst hsp hsn hpy hpx hny hnx (0 : Fin 1) y x

/-- The forward statistic of a pair of arrays (U, W) from four difference vectors: the two arrays' differences over the
    15 plane pairs inside the tile, and their masked differences across the tile's end. -/
theorem fwd_gen (U W : Cert.Spec.Arr) (d : Cert.Spec.Dir) (b zt A B : ℕ)
    (dU dW : FVec Ideal ⟨3, ![15, A, B]⟩ .f32) (eU eW : FVec Ideal ⟨3, ![1, A, B]⟩ .f32)
    (hdU : ∀ (k : Fin 15) (y : Fin A) (x : Fin B),
      dU (ValueIdx.ix3 k y x) = Cert.Spec.dif U d.pz d.py d.px d.nz d.ny d.nx b (16 * zt + k.val) y.val x.val)
    (hdW : ∀ (k : Fin 15) (y : Fin A) (x : Fin B),
      dW (ValueIdx.ix3 k y x) = Cert.Spec.dif W d.pz d.py d.px d.nz d.ny d.nx b (16 * zt + k.val) y.val x.val)
    (heU : ∀ (y : Fin A) (x : Fin B), eU (ValueIdx.ix3 (0 : Fin 1) y x)
      = if zt = 7 then 0 else Cert.Spec.dif U d.pz d.py d.px d.nz d.ny d.nx b (16 * zt + 15) y.val x.val)
    (heW : ∀ (y : Fin A) (x : Fin B), eW (ValueIdx.ix3 (0 : Fin 1) y x)
      = if zt = 7 then 0 else Cert.Spec.dif W d.pz d.py d.px d.nz d.ny d.nx b (16 * zt + 15) y.val x.val)
    (hcP : (⟨3, ![15, A, B]⟩ : Shape).ShapeCasts ⟨4, ![1, 15, A, B]⟩)
    (hrP : Shape.Reduces ⟨4, ![1, 15, A, B]⟩ [1, 2, 3] ⟨1, ![1]⟩)
    (hcQ : (⟨3, ![1, A, B]⟩ : Shape).ShapeCasts ⟨4, ![1, 1, A, B]⟩)
    (hrQ : Shape.Reduces ⟨4, ![1, 1, A, B]⟩ [1, 2, 3] ⟨1, ![1]⟩)
    (h1 : FKind.Formats .f32) (h2 : (0x00000000#32 : BitVec 32) = FKind.add.neutral .f32 h1)
    (hc' : (⟨1, ![1]⟩ : Shape).ShapeCasts ⟨4, ![1, 1, 1, 1]⟩)
    (hp : ∀ a, (![0, 0, 0, 0] : Fin 4 → Nat) a < (⟨4, ![1, 1, 1, 1]⟩ : Shape).size a) :
    Scalar.addf
        (extractAt ![0, 0, 0, 0] (shapeCast ⟨4, ![1, 1, 1, 1]⟩
          (multiReduction (F := Ideal) .add [1, 2, 3] ⟨1, ![1]⟩ (shapeCast ⟨4, ![1, 15, A, B]⟩ (mulf dU dW) hcP) 0x00000000#32 hrP h1 h2) hc') hp)
        (extractAt ![0, 0, 0, 0] (shapeCast ⟨4, ![1, 1, 1, 1]⟩
          (multiReduction (F := Ideal) .add [1, 2, 3] ⟨1, ![1]⟩ (shapeCast ⟨4, ![1, 1, A, B]⟩ (mulf eU eW) hcQ) 0x00000000#32 hrQ h1 h2) hc') hp)
      = Cert.Spec.tile1 (Cert.Spec.pnum U W d) A B b zt := by
  refine fwd_stat A B (Cert.Spec.pnum U W d) b zt (mulf dU dW) (mulf eU eW) hcP hrP hcQ hrQ h1 h2 hc' hp ?_ ?_
  · intro k y x
    rw [ValueIdx.mulf_apply, hdU, hdW]
    rfl
  · intro y x
    exact masked_mul zt eU eW _ _ _ (heU y x) (heW y x)

/-- The forward statistic of a pair of arrays for the direction with row and column shifts (py, px) on the positive
    side and (ny, nx) on the negative side, from the stacks of planes of the two arrays. -/
theorem fwd_sliced (U W : Cert.Spec.Arr) (b zt A B py px ny nx : ℕ) (v11 : BitVec 1)
    (hflag : v11 = if zt = 7 then 1#1 else 0#1)
    (up un wp wn : FVec Ideal ⟨3, ![15, 192, 192]⟩ .f32) (unx ul wnx wl : FVec Ideal ⟨3, ![1, 192, 192]⟩ .f32)
    (hup : ∀ (k : Fin 15) (y x : Fin 192), up (ValueIdx.ix3 k y x) = Cert.Spec.val U b (16 * zt + k.val + 1) y.val x.val)
    (hun : ∀ (k : Fin 15) (y x : Fin 192), un (ValueIdx.ix3 k y x) = Cert.Spec.val U b (16 * zt + k.val + 0) y.val x.val)
    (hwp : ∀ (k : Fin 15) (y x : Fin 192), wp (ValueIdx.ix3 k y x) = Cert.Spec.val W b (16 * zt + k.val + 1) y.val x.val)
    (hwn : ∀ (k : Fin 15) (y x : Fin 192), wn (ValueIdx.ix3 k y x) = Cert.Spec.val W b (16 * zt + k.val + 0) y.val x.val)
    (hunx : zt ≠ 7 → ∀ (k : Fin 1) (y x : Fin 192),
      unx (ValueIdx.ix3 k y x) = Cert.Spec.val U b (16 * zt + 15 + k.val + 1) y.val x.val)
    (hul : ∀ (k : Fin 1) (y x : Fin 192), ul (ValueIdx.ix3 k y x) = Cert.Spec.val U b (16 * zt + 15 + k.val + 0) y.val x.val)
    (hwnx : zt ≠ 7 → ∀ (k : Fin 1) (y x : Fin 192),
      wnx (ValueIdx.ix3 k y x) = Cert.Spec.val W b (16 * zt + 15 + k.val + 1) y.val x.val)
    (hwl : ∀ (k : Fin 1) (y x : Fin 192), wl (ValueIdx.ix3 k y x) = Cert.Spec.val W b (16 * zt + 15 + k.val + 0) y.val x.val)
    (hpy : py + A ≤ 192) (hpx : px + B ≤ 192) (hny : ny + A ≤ 192) (hnx : nx + B ≤ 192)
    (hsPp : (⟨3, ![15, 192, 192]⟩ : Shape).Slices ![0, py, px] ⟨3, ![15, A, B]⟩)
    (hsPn : (⟨3, ![15, 192, 192]⟩ : Shape).Slices ![0, ny, nx] ⟨3, ![15, A, B]⟩)
    (hsQp : (⟨3, ![1, 192, 192]⟩ : Shape).Slices ![0, py, px] ⟨3, ![1, A, B]⟩)
    (hsQn : (⟨3, ![1, 192, 192]⟩ : Shape).Slices ![0, ny, nx] ⟨3, ![1, A, B]⟩)
    (hcP : (⟨3, ![15, A, B]⟩ : Shape).ShapeCasts ⟨4, ![1, 15, A, B]⟩)
    (hrP : Shape.Reduces ⟨4, ![1, 15, A, B]⟩ [1, 2, 3] ⟨1, ![1]⟩)
    (hcQ : (⟨3, ![1, A, B]⟩ : Shape).ShapeCasts ⟨4, ![1, 1, A, B]⟩)
    (hrQ : Shape.Reduces ⟨4, ![1, 1, A, B]⟩ [1, 2, 3] ⟨1, ![1]⟩)
    (h1 : FKind.Formats .f32) (h2 : (0x00000000#32 : BitVec 32) = FKind.add.neutral .f32 h1)
    (hc' : (⟨1, ![1]⟩ : Shape).ShapeCasts ⟨4, ![1, 1, 1, 1]⟩)
    (hp : ∀ a, (![0, 0, 0, 0] : Fin 4 → Nat) a < (⟨4, ![1, 1, 1, 1]⟩ : Shape).size a) :
    Scalar.addf
        (extractAt ![0, 0, 0, 0] (shapeCast ⟨4, ![1, 1, 1, 1]⟩
          (multiReduction (F := Ideal) .add [1, 2, 3] ⟨1, ![1]⟩ (shapeCast ⟨4, ![1, 15, A, B]⟩ (mulf
            (subf (extractStridedSlice ⟨3, ![15, A, B]⟩ ![0, py, px] up hsPp) (extractStridedSlice ⟨3, ![15, A, B]⟩ ![0, ny, nx] un hsPn))
            (subf (extractStridedSlice ⟨3, ![15, A, B]⟩ ![0, py, px] wp hsPp) (extractStridedSlice ⟨3, ![15, A, B]⟩ ![0, ny, nx] wn hsPn))) hcP) 0x00000000#32 hrP h1 h2) hc') hp)
        (extractAt ![0, 0, 0, 0] (shapeCast ⟨4, ![1, 1, 1, 1]⟩
          (multiReduction (F := Ideal) .add [1, 2, 3] ⟨1, ![1]⟩ (shapeCast ⟨4, ![1, 1, A, B]⟩ (mulf
            (Scalar.select v11 (broadcast ⟨3, ![1, A, B]⟩ (Scalar.ofBits (F := Ideal) .f32 0x00000000#32))
              (subf (extractStridedSlice ⟨3, ![1, A, B]⟩ ![0, py, px] unx hsQp) (extractStridedSlice ⟨3, ![1, A, B]⟩ ![0, ny, nx] ul hsQn)))
            (Scalar.select v11 (broadcast ⟨3, ![1, A, B]⟩ (Scalar.ofBits (F := Ideal) .f32 0x00000000#32))
              (subf (extractStridedSlice ⟨3, ![1, A, B]⟩ ![0, py, px] wnx hsQp) (extractStridedSlice ⟨3, ![1, A, B]⟩ ![0, ny, nx] wl hsQn)))) hcQ) 0x00000000#32 hrQ h1 h2) hc') hp)
      = Cert.Spec.tile1 (Cert.Spec.pnum U W ⟨1, py, px, 0, ny, nx, 127, A, B⟩) A B b zt :=
  fwd_gen U W ⟨1, py, px, 0, ny, nx, 127, A, B⟩ b zt A B _ _ _ _
    (dif_slices U b (16 * zt) 15 A B 1 0 py px ny nx up un hup hun hsPp hsPn hpy hpx hny hnx)
    (dif_slices W b (16 * zt) 15 A B 1 0 py px ny nx wp wn hwp hwn hsPp hsPn hpy hpx hny hnx)
    (bdry_dif U b zt A B py px ny nx v11 hflag unx ul hunx hul hsQp hsQn hpy hpx hny hnx)
    (bdry_dif W b zt A B py px ny nx v11 hflag wnx wl hwnx hwl hsQp hsQn hpy hpx hny hnx)
    hcP hrP hcQ hrQ h1 h2 hc' hp

end Cert.KernelIdeal.Val.Fwd

end
-- ==== Proof.Val.LanesFwd1.lean ====
/-
  The forward lanes 9 … 18 of a tile's statistics: the numerators and denominators of the five directions that step one
  plane forward with the row moving back or staying (and the column back, staying or forward). Each scalar the body
  computes for such a lane is the sum, over the 15 plane pairs inside the tile, of the products of the two arrays'
  shifted differences, plus the same over the pair across the tile's end, masked at the last tile: the
  specification's share of the tile in the direction's sum.
-/
import proofs.«408089_j31568009625984_3_alg».proof.Proof.Val.Lanes
import proofs.«408089_j31568009625984_3_alg».proof.Proof.Val.FwdBlocks

noncomputable section

namespace Cert.KernelIdeal.Val.Fwd

open Cert.KernelIdeal Cert.KernelIdeal.Gen Cert.KernelIdeal.Hand Cert.KernelIdeal.Val
open Idealize.ShloMosaic Finset

section Scalars
variable {X T : Cert.Spec.Arr} {b zt : ℕ} {v3 v5 : Vec Ideal S1x1x16x192x192 .f32} {v7 v9 : Vec Ideal S1x1x1x192x192 .f32}
  {v11 : BitVec 1}

/-- The difference of the two stacks of planes with no row or column shift, of the first array, -/
theorem plainX_int (hB : TileBlocks X T b zt v3 v5 v7 v9 v11) (k : Fin 15) (y x : Fin 192) :
    subf (k0_pay22 (F := Ideal) (k0_pay4 v3)) (k0_pay23 (k0_pay4 v3)) (ValueIdx.ix3 k y x)
      = Cert.Spec.dif X 1 0 0 0 0 0 b (16 * zt + k.val) y.val x.val := by
  rw [ValueIdx.subf_apply, xpos_at hB, xneg_at hB]
  rfl
/-- and of the second; -/
theorem plainT_int (hB : TileBlocks X T b zt v3 v5 v7 v9 v11) (k : Fin 15) (y x : Fin 192) :
    subf (k0_pay24 (F := Ideal) (k0_pay5 v5)) (k0_pay25 (k0_pay5 v5)) (ValueIdx.ix3 k y x)
      = Cert.Spec.dif T 1 0 0 0 0 0 b (16 * zt + k.val) y.val x.val := by
  rw [ValueIdx.subf_apply, tpos_at hB, tneg_at hB]
  rfl
/-- the masked difference across the tile's end with no row or column shift, of the first array, -/
theorem plainX_bdry (hB : TileBlocks X T b zt v3 v5 v7 v9 v11) (y x : Fin 192) :
    (Scalar.select v11 (broadcast ⟨3, ![1, 192, 192]⟩ (Scalar.ofBits (F := Ideal) .f32 0x00000000#32))
        (subf (k0_pay6 (F := Ideal) v7) (k0_pay26 (k0_pay4 v3))) : FVec Ideal ⟨3, ![1, 192, 192]⟩ .f32)
        (ValueIdx.ix3 (0 : Fin 1) y x)
      = if zt = 7 then 0 else Cert.Spec.dif X 1 0 0 0 0 0 b (16 * zt + 15) y.val x.val := by
  refine (masked_apply zt v11 hB.hflag _ _).trans ?_
  by_cases h : zt = 7
  · rw [if_pos h, if_pos h]
  · rw [if_neg h, if_neg h, ValueIdx.subf_apply, xnext_at hB h, xlast_at hB]
    rfl
/-- and of the second. -/
theorem plainT_bdry (hB : TileBlocks X T b zt v3 v5 v7 v9 v11) (y x : Fin 192) :
    (Scalar.select v11 (broadcast ⟨3, ![1, 192, 192]⟩ (Scalar.ofBits (F := Ideal) .f32 0x00000000#32))
        (subf (k0_pay7 (F := Ideal) v9) (k0_pay27 (k0_pay5 v5))) : FVec Ideal ⟨3, ![1, 192, 192]⟩ .f32)
        (ValueIdx.ix3 (0 : Fin 1) y x)
      = if zt = 7 then 0 else Cert.Spec.dif T 1 0 0 0 0 0 b (16 * zt + 15) y.val x.val := by
  refine (masked_apply zt v11 hB.hflag _ _).trans ?_
  by_cases h : zt = 7
  · rw [if_pos h, if_pos h]
  · rw [if_neg h, if_neg h, ValueIdx.subf_apply, tnext_at hB h, tlast_at hB]
    rfl

/-- Lane 9: the numerator of the direction one plane forward, one row and one column back. -/
theorem s9 (hB : TileBlocks X T b zt v3 v5 v7 v9 v11) :
    k0_pay30 (F := Ideal) (k0_pay4 v3) (k0_pay5 v5) (k0_pay6 v7) (k0_pay7 v9) v11
      = Cert.Spec.tileStat X T b zt 9 := by
  have hs : Cert.Spec.tileStat X T b zt 9
      = Cert.Spec.tile1 (Cert.Spec.pnum X T ⟨1, 0, 0, 0, 1, 1, 127, 191, 191⟩) 191 191 b zt := rfl
  rw [hs]
  unfold k0_pay30 k0_pay28 k0_pay29
  exact fwd_sliced X T b zt 191 191 0 0 1 1 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 10: the denominator of the direction one plane forward, one row and one column back. -/
theorem s10 (hB : TileBlocks X T b zt v3 v5 v7 v9 v11) :
    k0_pay31 (F := Ideal) (k0_pay5 v5) (k0_pay7 v9) v11
      = Cert.Spec.tileStat X T b zt 10 := by
  have hs : Cert.Spec.tileStat X T b zt 10
      = Cert.Spec.tile1 (Cert.Spec.pnum T T ⟨1, 0, 0, 0, 1, 1, 127, 191, 191⟩) 191 191 b zt := rfl
  rw [hs]
  unfold k0_pay31 k0_pay28 k0_pay29
  exact fwd_sliced T T b zt 191 191 0 0 1 1 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 11: the numerator of the direction one plane forward, one row back. -/
theorem s11 (hB : TileBlocks X T b zt v3 v5 v7 v9 v11) :
    k0_pay36 (F := Ideal) (k0_pay6 v7) (k0_pay7 v9) v11 (k0_pay25 (k0_pay5 v5)) (k0_pay26 (k0_pay4 v3)) (k0_pay27 (k0_pay5 v5)) (k0_pay32 (k0_pay4 v3)) (k0_pay33 (k0_pay5 v5))
      = Cert.Spec.tileStat X T b zt 11 := by
  have hs : Cert.Spec.tileStat X T b zt 11
      = Cert.Spec.tile1 (Cert.Spec.pnum X T ⟨1, 0, 0, 0, 1, 0, 127, 191, 192⟩) 191 192 b zt := rfl
  rw [hs]
  unfold k0_pay36 k0_pay34 k0_pay35 k0_pay32 k0_pay33
  exact fwd_sliced X T b zt 191 192 0 0 1 0 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 12: the denominator of the direction one plane forward, one row back. -/
theorem s12 (hB : TileBlocks X T b zt v3 v5 v7 v9 v11) :
    k0_pay37 (F := Ideal) (k0_pay7 v9) v11 (k0_pay25 (k0_pay5 v5)) (k0_pay27 (k0_pay5 v5)) (k0_pay33 (k0_pay5 v5))
      = Cert.Spec.tileStat X T b zt 12 := by
  have hs : Cert.Spec.tileStat X T b zt 12
      = Cert.Spec.tile1 (Cert.Spec.pnum T T ⟨1, 0, 0, 0, 1, 0, 127, 191, 192⟩) 191 192 b zt := rfl
  rw [hs]
  unfold k0_pay37 k0_pay34 k0_pay35 k0_pay33
  exact fwd_sliced T T b zt 191 192 0 0 1 0 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 13: the numerator of the direction one plane forward, one row back and one column forward. -/
theorem s13 (hB : TileBlocks X T b zt v3 v5 v7 v9 v11) :
    k0_pay42 (F := Ideal) (k0_pay39 (k0_pay6 v7) v11 (k0_pay26 (k0_pay4 v3))) (k0_pay40 (k0_pay7 v9) v11 (k0_pay27 (k0_pay5 v5))) (k0_pay41 (k0_pay22 (k0_pay4 v3)) (k0_pay23 (k0_pay4 v3)) (k0_pay24 (k0_pay5 v5)) (k0_pay25 (k0_pay5 v5)))
      = Cert.Spec.tileStat X T b zt 13 := by
  have hs : Cert.Spec.tileStat X T b zt 13
      = Cert.Spec.tile1 (Cert.Spec.pnum X T ⟨1, 0, 1, 0, 1, 0, 127, 191, 191⟩) 191 191 b zt := rfl
  rw [hs]
  unfold k0_pay42 k0_pay39 k0_pay40 k0_pay41 k0_pay38
  exact fwd_sliced X T b zt 191 191 0 1 1 0 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 14: the denominator of the direction one plane forward, one row back and one column forward. -/
theorem s14 (hB : TileBlocks X T b zt v3 v5 v7 v9 v11) :
    k0_pay43 (F := Ideal) (k0_pay38 (k0_pay24 (k0_pay5 v5)) (k0_pay25 (k0_pay5 v5))) (k0_pay40 (k0_pay7 v9) v11 (k0_pay27 (k0_pay5 v5)))
      = Cert.Spec.tileStat X T b zt 14 := by
  have hs : Cert.Spec.tileStat X T b zt 14
      = Cert.Spec.tile1 (Cert.Spec.pnum T T ⟨1, 0, 1, 0, 1, 0, 127, 191, 191⟩) 191 191 b zt := rfl
  rw [hs]
  unfold k0_pay43 k0_pay38 k0_pay40
  exact fwd_sliced T T b zt 191 191 0 1 1 0 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 15: the numerator of the direction one plane forward, one column back. -/
theorem s15 (hB : TileBlocks X T b zt v3 v5 v7 v9 v11) :
    k0_pay46 (F := Ideal) (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5))
      = Cert.Spec.tileStat X T b zt 15 := by
  have hs : Cert.Spec.tileStat X T b zt 15
      = Cert.Spec.tile1 (Cert.Spec.pnum X T ⟨1, 0, 0, 0, 0, 1, 127, 192, 191⟩) 192 191 b zt := rfl
  rw [hs]
  unfold k0_pay46 k0_pay44 k0_pay45
  exact fwd_sliced X T b zt 192 191 0 0 0 1 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 16: the denominator of the direction one plane forward, one column back. -/
theorem s16 (hB : TileBlocks X T b zt v3 v5 v7 v9 v11) :
    k0_pay48 (F := Ideal) (k0_pay45 (k0_pay7 v9) v11 (k0_pay27 (k0_pay5 v5))) (k0_pay47 (k0_pay24 (k0_pay5 v5)) (k0_pay25 (k0_pay5 v5)))
      = Cert.Spec.tileStat X T b zt 16 := by
  have hs : Cert.Spec.tileStat X T b zt 16
      = Cert.Spec.tile1 (Cert.Spec.pnum T T ⟨1, 0, 0, 0, 0, 1, 127, 192, 191⟩) 192 191 b zt := rfl
  rw [hs]
  unfold k0_pay48 k0_pay47 k0_pay45 k0_pay44
  exact fwd_sliced T T b zt 192 191 0 0 0 1 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 17: the numerator of the direction one plane forward. -/
theorem s17 (hB : TileBlocks X T b zt v3 v5 v7 v9 v11) :
    k0_pay51 (F := Ideal) (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5))
      = Cert.Spec.tileStat X T b zt 17 := by
  have hs : Cert.Spec.tileStat X T b zt 17
      = Cert.Spec.tile1 (Cert.Spec.pnum X T ⟨1, 0, 0, 0, 0, 0, 127, 192, 192⟩) 192 192 b zt := rfl
  rw [hs]
  unfold k0_pay51 k0_pay49 k0_pay50
  exact fwd_gen X T ⟨1, 0, 0, 0, 0, 0, 127, 192, 192⟩ b zt 192 192 _ _ _ _ (plainX_int hB) (plainT_int hB) (plainX_bdry hB) (plainT_bdry hB) _ _ _ _ _ _ _ _

/-- Lane 18: the denominator of the direction one plane forward. -/
theorem s18 (hB : TileBlocks X T b zt v3 v5 v7 v9 v11) :
    k0_pay52 (F := Ideal) (k0_pay7 v9) v11 (k0_pay24 (k0_pay5 v5)) (k0_pay25 (k0_pay5 v5)) (k0_pay27 (k0_pay5 v5))
      = Cert.Spec.tileStat X T b zt 18 := by
  have hs : Cert.Spec.tileStat X T b zt 18
      = Cert.Spec.tile1 (Cert.Spec.pnum T T ⟨1, 0, 0, 0, 0, 0, 127, 192, 192⟩) 192 192 b zt := rfl
  rw [hs]
  unfold k0_pay52 k0_pay49 k0_pay50
  exact fwd_gen T T ⟨1, 0, 0, 0, 0, 0, 127, 192, 192⟩ b zt 192 192 _ _ _ _ (plainT_int hB) (plainT_int hB) (plainT_bdry hB) (plainT_bdry hB) _ _ _ _ _ _ _ _

end Scalars

end Cert.KernelIdeal.Val.Fwd

namespace Cert.KernelIdeal.Val

open Cert.KernelIdeal Cert.KernelIdeal.Gen Cert.KernelIdeal.Hand
open Idealize.ShloMosaic

/-- Lane 9 of a tile's statistics is the specification's: the numerator of the direction one plane forward, one row and one column back. -/
theorem lane_9 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (9 : Fin 27)) = Cert.Spec.tileStat X T b zt 9 :=
  (statsVec_lane9 v3 v5 v7 v9 v11).trans (Fwd.s9 hB)

/-- Lane 10 of a tile's statistics is the specification's: the denominator of the direction one plane forward, one row and one column back. -/
theorem lane_10 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (10 : Fin 27)) = Cert.Spec.tileStat X T b zt 10 :=
  (statsVec_lane10 v3 v5 v7 v9 v11).trans (Fwd.s10 hB)

/-- Lane 11 of a tile's statistics is the specification's: the numerator of the direction one plane forward, one row back. -/
theorem lane_11 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (11 : Fin 27)) = Cert.Spec.tileStat X T b zt 11 :=
  (statsVec_lane11 v3 v5 v7 v9 v11).trans (Fwd.s11 hB)

/-- Lane 12 of a tile's statistics is the specification's: the denominator of the direction one plane forward, one row back. -/
theorem lane_12 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (12 : Fin 27)) = Cert.Spec.tileStat X T b zt 12 :=
  (statsVec_lane12 v3 v5 v7 v9 v11).trans (Fwd.s12 hB)

/-- Lane 13 of a tile's statistics is the specification's: the numerator of the direction one plane forward, one row back and one column forward. -/
theorem lane_13 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (13 : Fin 27)) = Cert.Spec.tileStat X T b zt 13 :=
  (statsVec_lane13 v3 v5 v7 v9 v11).trans (Fwd.s13 hB)

/-- Lane 14 of a tile's statistics is the specification's: the denominator of the direction one plane forward, one row back and one column forward. -/
theorem lane_14 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (14 : Fin 27)) = Cert.Spec.tileStat X T b zt 14 :=
  (statsVec_lane14 v3 v5 v7 v9 v11).trans (Fwd.s14 hB)

/-- Lane 15 of a tile's statistics is the specification's: the numerator of the direction one plane forward, one column back. -/
theorem lane_15 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (15 : Fin 27)) = Cert.Spec.tileStat X T b zt 15 :=
  (statsVec_lane15 v3 v5 v7 v9 v11).trans (Fwd.s15 hB)

/-- Lane 16 of a tile's statistics is the specification's: the denominator of the direction one plane forward, one column back. -/
theorem lane_16 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (16 : Fin 27)) = Cert.Spec.tileStat X T b zt 16 :=
  (statsVec_lane16 v3 v5 v7 v9 v11).trans (Fwd.s16 hB)

/-- Lane 17 of a tile's statistics is the specification's: the numerator of the direction one plane forward. -/
theorem lane_17 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (17 : Fin 27)) = Cert.Spec.tileStat X T b zt 17 :=
  (statsVec_lane17 v3 v5 v7 v9 v11).trans (Fwd.s17 hB)

/-- Lane 18 of a tile's statistics is the specification's: the denominator of the direction one plane forward. -/
theorem lane_18 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (18 : Fin 27)) = Cert.Spec.tileStat X T b zt 18 :=
  (statsVec_lane18 v3 v5 v7 v9 v11).trans (Fwd.s18 hB)

end Cert.KernelIdeal.Val

end
-- ==== Proof.Val.LanesFwd2.lean ====
/-
  The forward lanes 19 … 26 of a tile's statistics: the numerators and denominators of the four directions that step
  one plane forward with the column moving forward in the same row, or the row moving forward. Each scalar the body
  computes for such a lane is the sum, over the 15 plane pairs inside the tile, of the products of the two arrays'
  shifted differences, plus the same over the pair across the tile's end, masked at the last tile: the
  specification's share of the tile in the direction's sum.
-/
import proofs.«408089_j31568009625984_3_alg».proof.Proof.Val.Lanes
import proofs.«408089_j31568009625984_3_alg».proof.Proof.Val.FwdBlocks

noncomputable section

namespace Cert.KernelIdeal.Val.Fwd

open Cert.KernelIdeal Cert.KernelIdeal.Gen Cert.KernelIdeal.Hand Cert.KernelIdeal.Val
open Idealize.ShloMosaic Finset

section Scalars
variable {X T : Cert.Spec.Arr} {b zt : ℕ} {v3 v5 : Vec Ideal S1x1x16x192x192 .f32} {v7 v9 : Vec Ideal S1x1x1x192x192 .f32}
  {v11 : BitVec 1}

/-- Lane 19: the numerator of the direction one plane forward, one column forward. -/
theorem s19 (hB : TileBlocks X T b zt v3 v5 v7 v9 v11) :
    k0_pay58 (F := Ideal) v11 (k0_pay53 (k0_pay22 (k0_pay4 v3)) (k0_pay23 (k0_pay4 v3))) (k0_pay54 (k0_pay24 (k0_pay5 v5)) (k0_pay25 (k0_pay5 v5))) (k0_pay55 (k0_pay7 v9) (k0_pay27 (k0_pay5 v5))) (k0_pay56 (k0_pay6 v7) v11 (k0_pay26 (k0_pay4 v3))) (Scalar.ofBits .f32 0x00000000#32 : Ideal .f32)
      = Cert.Spec.tileStat X T b zt 19 := by
  have hs : Cert.Spec.tileStat X T b zt 19
      = Cert.Spec.tile1 (Cert.Spec.pnum X T ⟨1, 0, 1, 0, 0, 0, 127, 192, 191⟩) 192 191 b zt := rfl
  rw [hs]
  unfold k0_pay58 k0_pay57 k0_pay53 k0_pay54 k0_pay55 k0_pay56
  exact fwd_sliced X T b zt 192 191 0 1 0 0 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 20: the denominator of the direction one plane forward, one column forward. -/
theorem s20 (hB : TileBlocks X T b zt v3 v5 v7 v9 v11) :
    k0_pay59 (F := Ideal) v11 (k0_pay54 (k0_pay24 (k0_pay5 v5)) (k0_pay25 (k0_pay5 v5))) (k0_pay55 (k0_pay7 v9) (k0_pay27 (k0_pay5 v5))) (Scalar.ofBits .f32 0x00000000#32 : Ideal .f32)
      = Cert.Spec.tileStat X T b zt 20 := by
  have hs : Cert.Spec.tileStat X T b zt 20
      = Cert.Spec.tile1 (Cert.Spec.pnum T T ⟨1, 0, 1, 0, 0, 0, 127, 192, 191⟩) 192 191 b zt := rfl
  rw [hs]
  unfold k0_pay59 k0_pay57 k0_pay54 k0_pay55
  exact fwd_sliced T T b zt 192 191 0 1 0 0 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 21: the numerator of the direction one plane forward, one row forward and one column back. -/
theorem s21 (hB : TileBlocks X T b zt v3 v5 v7 v9 v11) :
    k0_pay62 (F := Ideal) (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5))
      = Cert.Spec.tileStat X T b zt 21 := by
  have hs : Cert.Spec.tileStat X T b zt 21
      = Cert.Spec.tile1 (Cert.Spec.pnum X T ⟨1, 1, 0, 0, 0, 1, 127, 191, 191⟩) 191 191 b zt := rfl
  rw [hs]
  unfold k0_pay62 k0_pay60 k0_pay61
  exact fwd_sliced X T b zt 191 191 1 0 0 1 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 22: the denominator of the direction one plane forward, one row forward and one column back. -/
theorem s22 (hB : TileBlocks X T b zt v3 v5 v7 v9 v11) :
    k0_pay64 (F := Ideal) (k0_pay61 (k0_pay7 v9) v11 (k0_pay27 (k0_pay5 v5))) (k0_pay63 (k0_pay24 (k0_pay5 v5)) (k0_pay25 (k0_pay5 v5)))
      = Cert.Spec.tileStat X T b zt 22 := by
  have hs : Cert.Spec.tileStat X T b zt 22
      = Cert.Spec.tile1 (Cert.Spec.pnum T T ⟨1, 1, 0, 0, 0, 1, 127, 191, 191⟩) 191 191 b zt := rfl
  rw [hs]
  unfold k0_pay64 k0_pay63 k0_pay61 k0_pay60
  exact fwd_sliced T T b zt 191 191 1 0 0 1 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 23: the numerator of the direction one plane forward, one row forward. -/
theorem s23 (hB : TileBlocks X T b zt v3 v5 v7 v9 v11) :
    k0_pay67 (F := Ideal) (k0_pay6 v7) (k0_pay7 v9) v11 (k0_pay22 (k0_pay4 v3)) (k0_pay23 (k0_pay4 v3)) (k0_pay24 (k0_pay5 v5)) (k0_pay25 (k0_pay5 v5)) (k0_pay26 (k0_pay4 v3)) (k0_pay27 (k0_pay5 v5))
      = Cert.Spec.tileStat X T b zt 23 := by
  have hs : Cert.Spec.tileStat X T b zt 23
      = Cert.Spec.tile1 (Cert.Spec.pnum X T ⟨1, 1, 0, 0, 0, 0, 127, 191, 192⟩) 191 192 b zt := rfl
  rw [hs]
  unfold k0_pay67 k0_pay65 k0_pay66
  exact fwd_sliced X T b zt 191 192 1 0 0 0 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 24: the denominator of the direction one plane forward, one row forward. -/
theorem s24 (hB : TileBlocks X T b zt v3 v5 v7 v9 v11) :
    k0_pay68 (F := Ideal) (k0_pay7 v9) v11 (k0_pay24 (k0_pay5 v5)) (k0_pay25 (k0_pay5 v5)) (k0_pay27 (k0_pay5 v5))
      = Cert.Spec.tileStat X T b zt 24 := by
  have hs : Cert.Spec.tileStat X T b zt 24
      = Cert.Spec.tile1 (Cert.Spec.pnum T T ⟨1, 1, 0, 0, 0, 0, 127, 191, 192⟩) 191 192 b zt := rfl
  rw [hs]
  unfold k0_pay68 k0_pay65 k0_pay66
  exact fwd_sliced T T b zt 191 192 1 0 0 0 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

/-- Lane 25: the numerator of the direction one plane forward, one row and one column forward. -/
theorem s25 (hB : TileBlocks X T b zt v3 v5 v7 v9 v11) :
    k0_pay73 (F := Ideal) (k0_pay6 v7) (k0_pay7 v9) v11 (k0_pay25 (k0_pay5 v5)) (k0_pay26 (k0_pay4 v3)) (k0_pay27 (k0_pay5 v5)) (k0_pay69 (k0_pay22 (k0_pay4 v3)) (k0_pay23 (k0_pay4 v3))) (k0_pay70 (k0_pay24 (k0_pay5 v5)))
      = Cert.Spec.tileStat X T b zt 25 := by
  have hs : Cert.Spec.tileStat X T b zt 25
      = Cert.Spec.tile1 (Cert.Spec.pnum X T ⟨1, 1, 1, 0, 0, 0, 127, 191, 191⟩) 191 191 b zt := rfl
  rw [hs]
  unfold k0_pay73 k0_pay71 k0_pay72 k0_pay69 k0_pay70
  exact fwd_sliced X T b zt 191 191 1 1 0 0 v11 hB.hflag _ _ _ _ _ _ _ _
    (xpos_at hB) (xneg_at hB) (tpos_at hB) (tneg_at hB) (xnext_at hB) (xlast_at hB) (tnext_at hB) (tlast_at hB)
    (by omega) (by omega) (by omega) (by omega) _ _ _ _ _ _ _ _ _ _ _ _

/-- Lane 26: the denominator of the direction one plane forward, one row and one column forward. -/
theorem s26 (hB : TileBlocks X T b zt v3 v5 v7 v9 v11) :
    k0_pay74 (F := Ideal) (k0_pay7 v9) v11 (k0_pay25 (k0_pay5 v5)) (k0_pay27 (k0_pay5 v5)) (k0_pay70 (k0_pay24 (k0_pay5 v5)))
      = Cert.Spec.tileStat X T b zt 26 := by
  have hs : Cert.Spec.tileStat X T b zt 26
      = Cert.Spec.tile1 (Cert.Spec.pnum T T ⟨1, 1, 1, 0, 0, 0, 127, 191, 191⟩) 191 191 b zt := rfl
  rw [hs]
  unfold k0_pay74 k0_pay71 k0_pay72 k0_pay70
  exact fwd_sliced T T b zt 191 191 1 1 0 0 v11 hB.hflag _ _ _ _ _ _ _ _
    (tpos_at hB) (tneg_at hB) (tpos_at hB) (tneg_at hB) (tnext_at hB) (tlast_at hB) (tnext_at hB) (tlast_at hB)
    (by omega) (by omega) (by omega) (by omega) _ _ _ _ _ _ _ _ _ _ _ _

end Scalars

end Cert.KernelIdeal.Val.Fwd

namespace Cert.KernelIdeal.Val

open Cert.KernelIdeal Cert.KernelIdeal.Gen Cert.KernelIdeal.Hand
open Idealize.ShloMosaic

/-- Lane 19 of a tile's statistics is the specification's: the numerator of the direction one plane forward, one column forward. -/
theorem lane_19 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (19 : Fin 27)) = Cert.Spec.tileStat X T b zt 19 :=
  (statsVec_lane19 v3 v5 v7 v9 v11).trans (Fwd.s19 hB)

/-- Lane 20 of a tile's statistics is the specification's: the denominator of the direction one plane forward, one column forward. -/
theorem lane_20 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (20 : Fin 27)) = Cert.Spec.tileStat X T b zt 20 :=
  (statsVec_lane20 v3 v5 v7 v9 v11).trans (Fwd.s20 hB)

/-- Lane 21 of a tile's statistics is the specification's: the numerator of the direction one plane forward, one row forward and one column back. -/
theorem lane_21 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (21 : Fin 27)) = Cert.Spec.tileStat X T b zt 21 :=
  (statsVec_lane21 v3 v5 v7 v9 v11).trans (Fwd.s21 hB)

/-- Lane 22 of a tile's statistics is the specification's: the denominator of the direction one plane forward, one row forward and one column back. -/
theorem lane_22 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (22 : Fin 27)) = Cert.Spec.tileStat X T b zt 22 :=
  (statsVec_lane22 v3 v5 v7 v9 v11).trans (Fwd.s22 hB)

/-- Lane 23 of a tile's statistics is the specification's: the numerator of the direction one plane forward, one row forward. -/
theorem lane_23 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (23 : Fin 27)) = Cert.Spec.tileStat X T b zt 23 :=
  (statsVec_lane23 v3 v5 v7 v9 v11).trans (Fwd.s23 hB)

/-- Lane 24 of a tile's statistics is the specification's: the denominator of the direction one plane forward, one row forward. -/
theorem lane_24 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (24 : Fin 27)) = Cert.Spec.tileStat X T b zt 24 :=
  (statsVec_lane24 v3 v5 v7 v9 v11).trans (Fwd.s24 hB)

/-- Lane 25 of a tile's statistics is the specification's: the numerator of the direction one plane forward, one row and one column forward. -/
theorem lane_25 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (25 : Fin 27)) = Cert.Spec.tileStat X T b zt 25 :=
  (statsVec_lane25 v3 v5 v7 v9 v11).trans (Fwd.s25 hB)

/-- Lane 26 of a tile's statistics is the specification's: the denominator of the direction one plane forward, one row and one column forward. -/
theorem lane_26 {X T : Cert.Spec.Arr} {b zt : ℕ} {v3 v5 : Vec Ideal S1x1x16x192x192 .f32} {v7 v9 : Vec Ideal S1x1x1x192x192 .f32}
    {v11 : BitVec 1} (hB : TileBlocks X T b zt v3 v5 v7 v9 v11) (hzt : zt < 8) :
    statsVec v3 v5 v7 v9 v11 (ValueIdx.ix1 (26 : Fin 27)) = Cert.Spec.tileStat X T b zt 26 :=
  (statsVec_lane26 v3 v5 v7 v9 v11).trans (Fwd.s26 hB)

end Cert.KernelIdeal.Val

end
-- ==== Proof.Val.StatsLane.lean ====
/-
  Every lane of a tile's statistics is the specification's statistic of that lane: the 27 lane facts gathered into one
  statement over the lane index.
-/
import proofs.«408089_j31568009625984_3_alg».proof.Proof.Val.LanesPlane
import proofs.«408089_j31568009625984_3_alg».proof.Proof.Val.LanesFwd1
import proofs.«408089_j31568009625984_3_alg».proof.Proof.Val.LanesFwd2

set_option maxRecDepth 16384

noncomputable section

namespace Cert.KernelIdeal.Val

open Cert.KernelIdeal Cert.KernelIdeal.Gen Cert.KernelIdeal.Hand
open Idealize.ShloMosaic

variable {X T : Cert.Spec.Arr} {b zt : ℕ} {v3 v5 : Vec Ideal S1x1x16x192x192 .f32} {v7 v9 : Vec Ideal S1x1x1x192x192 .f32}
  {v11 : BitVec 1}

/-- Lane s of the tile's statistics is the specification's statistic of lane s. -/
theorem statsVec_lane (hB : TileBlocks X T b zt v3 v5 v7 v9 v11) (hzt : zt < 8) (s : Fin 27) :
    statsVec v3 v5 v7 v9 v11 (ValueIdx.ix1 s) = Cert.Spec.tileStat X T b zt s.val := by
  match s with
  | ⟨0, _⟩ => exact lane_0 hB hzt
  | ⟨1, _⟩ => exact lane_1 hB hzt
  | ⟨2, _⟩ => exact lane_2 hB hzt
  | ⟨3, _⟩ => exact lane_3 hB hzt
  | ⟨4, _⟩ => exact lane_4 hB hzt
  | ⟨5, _⟩ => exact lane_5 hB hzt
  | ⟨6, _⟩ => exact lane_6 hB hzt
  | ⟨7, _⟩ => exact lane_7 hB hzt
  | ⟨8, _⟩ => exact lane_8 hB hzt
  | ⟨9, _⟩ => exact lane_9 hB hzt
  | ⟨10, _⟩ => exact lane_10 hB hzt
  | ⟨11, _⟩ => exact lane_11 hB hzt
  | ⟨12, _⟩ => exact lane_12 hB hzt
  | ⟨13, _⟩ => exact lane_13 hB hzt
  | ⟨14, _⟩ => exact lane_14 hB hzt
  | ⟨15, _⟩ => exact lane_15 hB hzt
  | ⟨16, _⟩ => exact lane_16 hB hzt
  | ⟨17, _⟩ => exact lane_17 hB hzt
  | ⟨18, _⟩ => exact lane_18 hB hzt
  | ⟨19, _⟩ => exact lane_19 hB hzt
  | ⟨20, _⟩ => exact lane_20 hB hzt
  | ⟨21, _⟩ => exact lane_21 hB hzt
  | ⟨22, _⟩ => exact lane_22 hB hzt
  | ⟨23, _⟩ => exact lane_23 hB hzt
  | ⟨24, _⟩ => exact lane_24 hB hzt
  | ⟨25, _⟩ => exact lane_25 hB hzt
  | ⟨26, _⟩ => exact lane_26 hB hzt
  | ⟨n + 27, h⟩ => exact absurd h (by omega)

end Cert.KernelIdeal.Val

end
-- ==== Proof.Val.Fold.lean ====
/-
  The accumulator after the run, closed. Every point's 27 statistics are the specification's tile statistics (the lane
  lemma, at the blocks the point reads), so lane s of row 0 of batch entry b of the output array is the entry's eight
  tile statistics added from zero, one tile after the other: the specification's `accLane`.
-/
import proofs.«408089_j31568009625984_3_alg».proof.Proof.Val.Fold1
import proofs.«408089_j31568009625984_3_alg».proof.Proof.Val.TileBlocks
import proofs.«408089_j31568009625984_3_alg».proof.Proof.Val.StatsLane

noncomputable section

namespace Cert.KernelIdeal.Val

open Cert.KernelIdeal Cert.KernelIdeal.Gen Cert.KernelIdeal.Hand
open Idealize.ShloMosaic Idealize.ShloMosaic.TcCoe

variable (m : (ℓ : Loc nD τ sig) → Buf (Elt Ideal) ℓ)

/-- Every point's statistics are the specification's: the lane lemma at the blocks the point reads. -/
theorem statAt (c : Dev nD) : StatAt m c := fun t s =>
  statsVec_lane (tileBlocks m c t) (Nat.mod_lt _ (by decide)) s

/-- THE ACCUMULATOR AFTER THE RUN: lane `s` of row 0 of batch entry `b` of the output array holds the entry's eight
    tile statistics added from zero, one tile after the other. -/
theorem out_final (c : Dev nD) (b : Fin 4) (s : Fin 27) :
    (dats m c).arrAt 4 cfg0.N (ValueIdx.ix3 b (0 : Fin 8) (⟨s.val, by omega⟩ : Fin 128))
      = Cert.Spec.accLane (argX m c) (argT m c) b.val s.val :=
  out_final_of m c (statAt m c) b s

end Cert.KernelIdeal.Val

end
-- ==== Proof.Val.KernelValue.lean ====
/-
  The kernel's result as the specification's scalar. When the region is left, row 0 of the result array holds, for each
  batch entry b and each of the 27 statistics s, the sum of the 8 tiles' statistic accumulated from zero (lane s of row 0
  of block b). The host operations that follow add the four batch entries' rows lane by lane — giving the 27 lane totals —
  and combine the totals into the loss: the cross-entropy term from lane 0 and the 13 ratios of a numerator lane and a
  denominator lane. The loss mentions lanes 0 … 26 only, so it is the specification's kernel loss of the specification's
  lane totals.
-/
import proofs.«408089_j31568009625984_3_alg».proof.Proof.Val.Blocks
import proofs.«408089_j31568009625984_3_alg».proof.Proof.Hand.Launch
import proofs.«408089_j31568009625984_3_alg».proof.Proof.Hand.Data
import proofs.«408089_j31568009625984_3_alg».proof.Proof.Val.Tail
import proofs.«408089_j31568009625984_3_alg».proof.Proof.Val.Fold

set_option maxRecDepth 16384

noncomputable section

namespace Cert.KernelIdeal.Val

open Cert.KernelIdeal Cert.KernelIdeal.Gen Cert.KernelIdeal.Hand
open Idealize.ShloMosaic Idealize.ShloMosaic.TcCoe

/-- The loss reads its 27 lane totals only: totals that agree on lanes 0 … 26 give the same loss. -/
theorem kernelLoss_congr {t t' : ℕ → EReal} (h : ∀ s, s < 27 → t s = t' s) :
    Cert.Spec.kernelLoss t = Cert.Spec.kernelLoss t' := by
  unfold Cert.Spec.kernelLoss
  rw [h 0 (by omega), h 1 (by omega), h 2 (by omega), h 3 (by omega), h 4 (by omega), h 5 (by omega), h 6 (by omega),
    h 7 (by omega), h 8 (by omega), h 9 (by omega), h 10 (by omega), h 11 (by omega), h 12 (by omega), h 13 (by omega),
    h 14 (by omega), h 15 (by omega), h 16 (by omega), h 17 (by omega), h 18 (by omega), h 19 (by omega), h 20 (by omega),
    h 21 (by omega), h 22 (by omega), h 23 (by omega), h 24 (by omega), h 25 (by omega), h 26 (by omega)]

/-- A result array whose row 0 holds, in lane s < 27 of block b, the accumulated statistic s of batch entry b: its lane s,
    added over the four batch entries, is the specification's lane total. -/
theorem lanes_of (X T : Cert.Spec.Arr) (o : (⟨3, ![4, 8, 128]⟩ : Shape).Idx → EReal)
    (ho : ∀ (b : Fin 4) (s : Fin 27), o (ValueIdx.ix3 b (0 : Fin 8) (⟨s.val, by omega⟩ : Fin 128)) = Cert.Spec.accLane X T b.val s.val)
    (s : ℕ) (hs : s < 27) : lanes o s = Cert.Spec.total X T s := by
  unfold lanes Cert.Spec.total
  rw [dif_pos (show s < 128 by omega)]
  refine congrArg (fun r : EReal => 0 + r) (Finset.sum_congr rfl fun b _ => ?_)
  exact ho b ⟨s, hs⟩

/-- From buffer contents whose result array is such an array, the host operations return the specification's kernel loss
    of the lane totals. -/
theorem value_of (X T : Cert.Spec.Arr) (W : Valuation τ sig (Elt Ideal)) (o : (⟨3, ![4, 8, 128]⟩ : Shape).Idx → EReal)
    (hW : W (Proc.devRef .tc main_v0) = o)
    (ho : ∀ (b : Fin 4) (s : Fin 27), o (ValueIdx.ix3 b (0 : Fin 8) (⟨s.val, by omega⟩ : Fin 128)) = Cert.Spec.accLane X T b.val s.val) :
    StableHlo.after (hostOps1 (F := Ideal)) W (Proc.devRef .tc main_v102) = fun _ => Cert.Spec.kernelLoss (Cert.Spec.total X T) := by
  refine (tail_eq _).trans ?_
  funext _
  refine kernelLoss_congr fun s hs => ?_
  rw [hW]
  exact lanes_of X T o ho s hs

variable (m : (ℓ : Loc nD τ sig) → Buf (Elt Ideal) ℓ)

/-- Lane s < 27 of the result array as the region leaves it, added over the four batch entries, is the specification's
    lane total of the two argument arrays. -/
theorem lanes_final (c : Dev nD) (s : ℕ) (hs : s < 27) :
    lanes ((dats m c).arrAt 4 cfg0.N) s = Cert.Spec.total (argX m c) (argT m c) s :=
  lanes_of (argX m c) (argT m c) ((dats m c).arrAt 4 cfg0.N) (out_final m c) s hs

/-- THE KERNEL'S RESULT: after the region and the host operations, the returned scalar is the specification's kernel
    loss of the two argument arrays' lane totals. -/
theorem kernel_value (c : Dev nD) :
    StableHlo.after (hostOps1 (F := Ideal)) (Wout m c ((dats m c).arrAt 4 cfg0.N)) (Proc.devRef .tc main_v102)
      = fun _ => Cert.Spec.kernelLoss (Cert.Spec.total (argX m c) (argT m c)) :=
  value_of (argX m c) (argT m c) (Wout m c ((dats m c).arrAt 4 cfg0.N)) ((dats m c).arrAt 4 cfg0.N)
    (Wout_out m c ((dats m c).arrAt 4 cfg0.N)) (out_final m c)

end Cert.KernelIdeal.Val

end
-- ==== Proof.Ref.Run.lean ====
import proofs.«408089_j31568009625984_3_alg».proof.Proof.Gen.ReferenceIdeal.Run

/-! The reference's run, imported from the generated module; the value of its result is read in the sibling modules. -/
-- ==== Proof.Ref.Reduce.lean ====
/-
  The reference's whole-array reductions, read at the extended reals.

  A unit-stride slice of an array of shape [4, 1, 128, 192, 192] at offsets (0, 0, oz, oy, ox), read at an index of the
  box [4, 1, D, A, B], is the array at the natural coordinates shifted by the offsets (`slice_val`). A reduce-add over
  all five axes into the rank-0 shape is the initial value plus the sum over every index of the operand; with the
  initial value zero and the operand the product of two shifted differences, that sum is the specification's numerator
  of the direction (`reduce_num`), with both factors the second array's difference its denominator (`reduce_den`), and
  with the operand the cross-entropy term over the whole array the specification's cross-entropy sum (`reduce_bce`).
-/
import proofs.«408089_j31568009625984_3_alg».proof.Proof.Spec.Sums
import Idealize.ShloMosaic.PureOps.Ideal.Laws
import Idealize.ShloMosaic.Lib.IdealHost
import Idealize.ShloMosaic.Lib.Pipeline.Value

noncomputable section

namespace Cert.ReferenceIdeal.RefValue

open Idealize.ShloMosaic Idealize.ShloMosaic.ValueIdx Finset Cert.Spec

/-- The whole array's shape and a box's. -/
abbrev SW : Shape := ⟨5, ![4, 1, 128, 192, 192]⟩
abbrev SB (D A B : ℕ) : Shape := ⟨5, ![4, 1, D, A, B]⟩

/-- A slice at offsets (0, 0, oz, oy, ox), read at an index of the box, is the array at the shifted natural coordinates. -/
theorem slice_val (D A B oz oy ox : ℕ) (X : Arr) (h : SW.Slices ![0, 0, oz, oy, ox] (SB D A B)) (j : (SB D A B).Idx) :
    extractStridedSlice (SB D A B) ![0, 0, oz, oy, ox] X h j
      = val X (j 0).val ((j 2).val + oz) ((j 3).val + oy) ((j 4).val + ox) := by
  have h2 : oz + D ≤ 128 := h.2 2
  have h3 : oy + A ≤ 192 := h.2 3
  have h4 : ox + B ≤ 192 := h.2 4
  have j0 : (j 0).val < 4 := (j 0).isLt
  have j1 : (j 1).val < 1 := (j 1).isLt
  have j2 : (j 2).val < D := (j 2).isLt
  have j3 : (j 3).val < A := (j 3).isLt
  have j4 : (j 4).val < B := (j 4).isLt
  have hz : (j 2).val + oz < 128 := by omega
  have hy : (j 3).val + oy < 192 := by omega
  have hx : (j 4).val + ox < 192 := by omega
  refine (extractStridedSlice_apply _ X h j
    (ix5 (⟨(j 0).val, j0⟩ : Fin 4) (0 : Fin 1) (⟨(j 2).val + oz, hz⟩ : Fin 128) (⟨(j 3).val + oy, hy⟩ : Fin 192)
      (⟨(j 4).val + ox, hx⟩ : Fin 192)) fun a => ?_).trans (val_of_lt X j0 hz hy hx).symm
  match a with
  | ⟨0, _⟩ => show (j 0).val = 0 + (j 0).val; omega
  | ⟨1, _⟩ => show 0 = 0 + (j 1).val; omega
  | ⟨2, _⟩ => show (j 2).val + oz = oz + (j 2).val; omega
  | ⟨3, _⟩ => show (j 3).val + oy = oy + (j 3).val; omega
  | ⟨4, _⟩ => show (j 4).val + ox = ox + (j 4).val; omega

/-- The reduce-add of the product of the two arrays' shifted differences over a direction's box is the direction's
    numerator. -/
theorem reduce_num (D A B pz py px nz ny nx : ℕ) (X T : Arr)
    (hp : SW.Slices ![0, 0, pz, py, px] (SB D A B)) (hn : SW.Slices ![0, 0, nz, ny, nx] (SB D A B))
    (hr : (SB D A B).ReducesTo [0, 1, 2, 3, 4] ⟨0, ![]⟩) (h0 : 0 < (⟨0, ![]⟩ : Shape).numel) :
    Host.reduceAdd (F := Ideal) (φ := .f32)
        (mulf (subf (extractStridedSlice (SB D A B) ![0, 0, pz, py, px] X hp) (extractStridedSlice (SB D A B) ![0, 0, nz, ny, nx] X hn))
          (subf (extractStridedSlice (SB D A B) ![0, 0, pz, py, px] T hp) (extractStridedSlice (SB D A B) ![0, 0, nz, ny, nx] T hn)))
        (constant (F := Ideal) ⟨0, ![]⟩ .f32 0x00000000#32) hr h0 ix0
      = num X T ⟨pz, py, px, nz, ny, nx, D, A, B⟩ := by
  rw [hostReduceAdd_apply, Ideal.hostReduceAdd_total hr (fun b => b.elim0), constant_apply, Ideal.ofBits_zero_f32, zero_add]
  have key : ∀ j : (SB D A B).Idx,
      mulf (F := Ideal) (φ := .f32)
          (subf (extractStridedSlice (SB D A B) ![0, 0, pz, py, px] X hp) (extractStridedSlice (SB D A B) ![0, 0, nz, ny, nx] X hn))
          (subf (extractStridedSlice (SB D A B) ![0, 0, pz, py, px] T hp) (extractStridedSlice (SB D A B) ![0, 0, nz, ny, nx] T hn)) j
        = pnum X T ⟨pz, py, px, nz, ny, nx, D, A, B⟩ (j 0).val (j 2).val (j 3).val (j 4).val := by
    intro j
    rw [mulf_apply, subf_apply, subf_apply, slice_val, slice_val, slice_val, slice_val]
    rfl
  rw [Finset.sum_congr rfl fun j _ => key j]
  exact sum_idx5 4 D A B (pnum X T ⟨pz, py, px, nz, ny, nx, D, A, B⟩)

/-- The reduce-add of the square of the second array's shifted difference is the direction's denominator. -/
theorem reduce_den (D A B pz py px nz ny nx : ℕ) (T : Arr)
    (hp : SW.Slices ![0, 0, pz, py, px] (SB D A B)) (hn : SW.Slices ![0, 0, nz, ny, nx] (SB D A B))
    (hr : (SB D A B).ReducesTo [0, 1, 2, 3, 4] ⟨0, ![]⟩) (h0 : 0 < (⟨0, ![]⟩ : Shape).numel) :
    Host.reduceAdd (F := Ideal) (φ := .f32)
        (mulf (subf (extractStridedSlice (SB D A B) ![0, 0, pz, py, px] T hp) (extractStridedSlice (SB D A B) ![0, 0, nz, ny, nx] T hn))
          (subf (extractStridedSlice (SB D A B) ![0, 0, pz, py, px] T hp) (extractStridedSlice (SB D A B) ![0, 0, nz, ny, nx] T hn)))
        (constant (F := Ideal) ⟨0, ![]⟩ .f32 0x00000000#32) hr h0 ix0
      = den T ⟨pz, py, px, nz, ny, nx, D, A, B⟩ := by
  rw [hostReduceAdd_apply, Ideal.hostReduceAdd_total hr (fun b => b.elim0), constant_apply, Ideal.ofBits_zero_f32, zero_add]
  have key : ∀ j : (SB D A B).Idx,
      mulf (F := Ideal) (φ := .f32)
          (subf (extractStridedSlice (SB D A B) ![0, 0, pz, py, px] T hp) (extractStridedSlice (SB D A B) ![0, 0, nz, ny, nx] T hn))
          (subf (extractStridedSlice (SB D A B) ![0, 0, pz, py, px] T hp) (extractStridedSlice (SB D A B) ![0, 0, nz, ny, nx] T hn)) j
        = pden T ⟨pz, py, px, nz, ny, nx, D, A, B⟩ (j 0).val (j 2).val (j 3).val (j 4).val := by
    intro j
    rw [mulf_apply, subf_apply, slice_val, slice_val]
    rfl
  rw [Finset.sum_congr rfl fun j _ => key j]
  exact sum_idx5 4 D A B (pden T ⟨pz, py, px, nz, ny, nx, D, A, B⟩)

/-- The reduce-add of the cross-entropy term over the whole array is the specification's cross-entropy sum. -/
theorem reduce_bce (X T : Arr) (hb : (⟨0, ![]⟩ : Shape).BroadcastsInDim SW (![] : Fin 0 → Fin SW.rank))
    (hr : SW.ReducesTo [0, 1, 2, 3, 4] ⟨0, ![]⟩) (h0 : 0 < (⟨0, ![]⟩ : Shape).numel) :
    Host.reduceAdd (F := Ideal) (φ := .f32)
        (addf (mulf T (Host.log X))
          (mulf (subf (broadcastInDim SW ![] hb (constant (F := Ideal) ⟨0, ![]⟩ .f32 0x3F800000#32)) T)
            (Host.log (subf (broadcastInDim SW ![] hb (constant (F := Ideal) ⟨0, ![]⟩ .f32 0x3F800000#32)) X))))
        (constant (F := Ideal) ⟨0, ![]⟩ .f32 0x00000000#32) hr h0 ix0
      = bce X T := by
  rw [hostReduceAdd_apply, Ideal.hostReduceAdd_total hr (fun b => b.elim0), constant_apply, Ideal.ofBits_zero_f32, zero_add]
  have key : ∀ j : SW.Idx,
      addf (F := Ideal) (φ := .f32) (mulf T (Host.log X))
          (mulf (subf (broadcastInDim SW ![] hb (constant (F := Ideal) ⟨0, ![]⟩ .f32 0x3F800000#32)) T)
            (Host.log (subf (broadcastInDim SW ![] hb (constant (F := Ideal) ⟨0, ![]⟩ .f32 0x3F800000#32)) X))) j
        = pbce X T (j 0).val (j 2).val (j 3).val (j 4).val := by
    intro j
    unfold pbce
    rw [val_idx, val_idx]
    rfl
  rw [Finset.sum_congr rfl fun j _ => key j]
  exact sum_idx5 4 128 192 192 (pbce X T)

end Cert.ReferenceIdeal.RefValue

end
-- ==== Proof.Ref.Value.lean ====
/-
  The reference's value at the extended reals.

  The reference's result is a rank-0 array. Read at its one index it is
      1 · (−(B / 18874368)) + (1 − acc / 13),
  where B is a reduce-add over the whole array of the cross-entropy term and acc adds, from zero and in the reference's
  order of its 13 directions, the ratio of two reduce-adds over the direction's box: of the product of the two arrays'
  shifted differences, and of the square of the second array's, the latter plus 1e-5. Each reduce-add is the
  specification's whole-array sum (the lemmas on reduce-adds), so the result is the specification's reference loss of the
  cross-entropy sum and of the numerators and denominators of the directions `rdir 0` … `rdir 12`.
-/
import proofs.«408089_j31568009625984_3_alg».proof.Proof.Ref.Run
import proofs.«408089_j31568009625984_3_alg».proof.Proof.Ref.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

/-- The host's negation at an index is the negation of the element. -/
theorem hostNegf_apply {s : Shape} {φ : FTy} (a : FVec Ideal s φ) (i : s.Idx) : Host.negf a i = -(a i) := rfl

set_option maxRecDepth 8192 in
/-- The reference's result at its one index is the reference's loss of the whole-array sums: the cross-entropy sum, and
    the numerators and denominators of its 13 directions in its own order. Each of the 27 reductions is read by the
    lemmas on reduce-adds; the directions' offsets and boxes are those of `rdir`. -/
theorem res_out0_apply (V0 : Valuation τ sig (Elt Ideal)) (i : (⟨0, ![]⟩ : Shape).Idx) :
    Cert.ReferenceIdeal.Value.res_out0 (F := Ideal) V0 i
      = refLoss (bce (V0 (Proc.devRef .tc main_arg0) : Arr) (V0 (Proc.devRef .tc main_arg1) : Arr))
          (fun r => num (V0 (Proc.devRef .tc main_arg0) : Arr) (V0 (Proc.devRef .tc main_arg1) : Arr) (rdir r))
          (fun r => den (V0 (Proc.devRef .tc main_arg1) : Arr) (rdir r)) := by
  rw [eq_ix0 i]
  simp only [Value.res_out0, Value.res_main_v184, Value.res_main_v102, Value.res_main_v17, Value.res_main_v30, Value.res_main_v43,
    Value.res_main_v56, Value.res_main_v69, Value.res_main_v82, Value.res_main_v95, Value.res_main_v108, Value.res_main_v121,
    Value.res_main_v134, Value.res_main_v147, Value.res_main_v160, Value.res_main_v173]
  generalize V0 (Proc.devRef .tc main_arg0) = X
  generalize V0 (Proc.devRef .tc main_arg1) = T
  simp only [addf_apply, subf_apply, mulf_apply, hostDivf_apply, hostNegf_apply, constant_apply]
  rw [reduce_bce X T _ _ _,
    reduce_num 127 192 192 1 0 0 0 0 0 X T _ _ _ _, reduce_den 127 192 192 1 0 0 0 0 0 T _ _ _ _,
    reduce_num 128 191 192 0 1 0 0 0 0 X T _ _ _ _, reduce_den 128 191 192 0 1 0 0 0 0 T _ _ _ _,
    reduce_num 128 192 191 0 0 1 0 0 0 X T _ _ _ _, reduce_den 128 192 191 0 0 1 0 0 0 T _ _ _ _,
    reduce_num 127 191 192 1 1 0 0 0 0 X T _ _ _ _, reduce_den 127 191 192 1 1 0 0 0 0 T _ _ _ _,
    reduce_num 127 191 192 1 0 0 0 1 0 X T _ _ _ _, reduce_den 127 191 192 1 0 0 0 1 0 T _ _ _ _,
    reduce_num 128 191 191 0 1 1 0 0 0 X T _ _ _ _, reduce_den 128 191 191 0 1 1 0 0 0 T _ _ _ _,
    reduce_num 128 191 191 0 1 0 0 0 1 X T _ _ _ _, reduce_den 128 191 191 0 1 0 0 0 1 T _ _ _ _,
    reduce_num 127 192 191 1 0 0 0 0 1 X T _ _ _ _, reduce_den 127 192 191 1 0 0 0 0 1 T _ _ _ _,
    reduce_num 127 192 191 1 0 1 0 0 0 X T _ _ _ _, reduce_den 127 192 191 1 0 1 0 0 0 T _ _ _ _,
    reduce_num 127 191 191 1 0 0 0 1 1 X T _ _ _ _, reduce_den 127 191 191 1 0 0 0 1 1 T _ _ _ _,
    reduce_num 127 191 191 1 1 0 0 0 1 X T _ _ _ _, reduce_den 127 191 191 1 1 0 0 0 1 T _ _ _ _,
    reduce_num 127 191 191 0 0 0 1 1 1 X T _ _ _ _, reduce_den 127 191 191 0 0 0 1 1 1 T _ _ _ _,
    reduce_num 127 191 191 0 1 0 1 0 1 X T _ _ _ _, reduce_den 127 191 191 0 1 0 1 0 1 T _ _ _ _]
  rfl

/-- The reference's result buffer is the constant function of that loss. -/
theorem res_out0_eq (V0 : Valuation τ sig (Elt Ideal)) :
    Cert.ReferenceIdeal.Value.res_out0 (F := Ideal) V0
      = fun _ => refLoss (bce (V0 (Proc.devRef .tc main_arg0) : Arr) (V0 (Proc.devRef .tc main_arg1) : Arr))
          (fun r => num (V0 (Proc.devRef .tc main_arg0) : Arr) (V0 (Proc.devRef .tc main_arg1) : Arr) (rdir r))
          (fun r => den (V0 (Proc.devRef .tc main_arg1) : Arr) (rdir r)) :=
  funext fun i => res_out0_apply V0 i

end Cert.ReferenceIdeal.RefValue

end
-- ==== Proof.Val.Finite.lean ====
/-
  Finiteness from the precondition. The precondition says that both argument arrays have every absolute value below
  +∞: two conjunctions over all entries of an ordered comparison against the infinity word, joined by an and. Read back,
  every entry of either array is a real number.
-/
import proofs.«408089_j31568009625984_3_alg».proof.Defs
import proofs.«408089_j31568009625984_3_alg».proof.Proof.Spec.Defs
import Idealize.ShloMosaic.Lib.ReduceAll
import Idealize.ShloMosaic.Lib.ValueIdx

noncomputable section

namespace Cert.KernelIdeal.Val

open Idealize.ShloMosaic Idealize.SL.Sem

/-- The scalar shape has one index. -/
instance subsingleton_scalar_idx : Subsingleton Cert.Pre_finite_inputs.S_.Idx := ⟨fun _ _ => funext fun d => d.elim0⟩

/-- An extended real whose absolute value compares below the infinity word is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- An array all of whose absolute values compare below the infinity word is finite. -/
theorem finite_of_all [hP : Cert.Pre_finite_inputs.Facts] (X : Cert.Spec.Arr) (init : Cert.Pre_finite_inputs.S_.Idx → BitVec 1)
    (j : Cert.Pre_finite_inputs.S_.Idx)
    (e : Host.reduce IntOp.andi
          (cmpf (F := Ideal) .olt (Host.absf (F := Ideal) (φ := .f32) X)
            (broadcastInDim Cert.Pre_finite_inputs.S4x1x128x192x192 ![] hP.bcast_S_S4x1x128x192x192
              (constant (F := Ideal) Cert.Pre_finite_inputs.S_ .f32 0x7F800000#32)))
          init hP.reducesTo_S4x1x128x192x192_S_d0_1_2_3_4 hP.h_S_ j = 1#1) :
    Cert.Spec.Finite X := by
  intro i
  have hi := Host.reduce_andi_all _ _ _ _ _ e i
  exact real_of_abs_lt (X i) hi

/-- Under the precondition both argument arrays are finite, on every device. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite (m ((c.tc : Thread _ _).loc Cert.KernelIdeal.main_arg0))
      ∧ Cert.Spec.Finite (m ((c.tc : Thread _ _).loc Cert.KernelIdeal.main_arg1)) := by
  have h0 := congrFun (h c) ValueIdx.ix0
  dsimp only [Cert.Pre_finite_inputs.fn] at h0
  obtain ⟨h1, h2⟩ := IntOp.andi_eq_one.1 h0
  exact ⟨finite_of_all _ _ _ h1, finite_of_all _ _ _ h2⟩

end Cert.KernelIdeal.Val

end
-- ==== Proof.Algebraic.lean ====
/-
  The two claims about the reference. The reference is host operations only: it runs, its arguments end as launched and
  its scalar result is the reference loss of the whole-array sums (the cross-entropy sum and, for each of its 13
  directions, the numerator and the denominator). The kernel's scalar result is the kernel loss of the 27 lane totals.
  From memories that agree on the two argument arrays, and under the precondition that every entry of both is finite,
  the two scalars are equal: the tiles' sums add up to the whole-array sums, the reference's directions are the
  kernel's in another order, and the two backward directions are the opposite forward ones (this is where finiteness
  is used).
-/
import proofs.«408089_j31568009625984_3_alg».proof.Defs
import proofs.«408089_j31568009625984_3_alg».proof.Proof.Gen.KernelIdeal
import proofs.«408089_j31568009625984_3_alg».proof.Proof.Gen.ReferenceIdeal
import proofs.«408089_j31568009625984_3_alg».proof.Proof.Gen.Pre_finite_inputs
import proofs.«408089_j31568009625984_3_alg».proof.Proof.Frames
import proofs.«408089_j31568009625984_3_alg».proof.Proof.Val.KernelValue
import proofs.«408089_j31568009625984_3_alg».proof.Proof.Ref.Value
import proofs.«408089_j31568009625984_3_alg».proof.Proof.Val.Finite
import proofs.«408089_j31568009625984_3_alg».proof.Proof.Ref.Run
import proofs.«408089_j31568009625984_3_alg».proof.Proof.Spec.Sums

set_option maxRecDepth 16384

noncomputable section

open Idealize.ShloMosaic Idealize.ShloMosaic.TcCoe Idealize.SL.Sem

namespace Cert.Proof

/-- The reference runs, and both argument arrays end as launched. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- The reference loss of two arrays that are, entry by entry, the kernel's two finite argument arrays is the kernel
    loss of their lane totals. -/
theorem ref_eq_kernel {X T X' T' : Cert.Spec.Arr} (eX : X' = X) (eT : T' = T) (hX : Cert.Spec.Finite X) (hT : Cert.Spec.Finite T) :
    Cert.Spec.refLoss (Cert.Spec.bce X' T') (fun r => Cert.Spec.num X' T' (Cert.Spec.rdir r)) (fun r => Cert.Spec.den T' (Cert.Spec.rdir r))
      = Cert.Spec.kernelLoss (Cert.Spec.total X T) := by
  subst eX eT
  exact (Cert.Spec.loss_eq hX hT).symm

/-- Over the extended reals, from memories that agree on the two finite argument arrays, the kernel and the reference
    both run, end with the same scalar — the kernel loss of the lane totals — and leave their arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kernelLoss (Cert.Spec.total (Cert.KernelIdeal.Val.argX m c) (Cert.KernelIdeal.Val.argT m c)), ?_, ?_⟩
  · exact (θ_run (Cert.KernelIdeal.defs (F := Ideal)) _ _).mono
      (fun r h c => ⟨(h c).1.trans (Cert.KernelIdeal.Val.kernel_value m c), (h c).2.1, (h c).2.2⟩) (kernel_run m ρ)
  · refine (θ_run (Cert.ReferenceIdeal.defs (F := Ideal)) _ _).mono (fun r h c => ⟨(h c).1.trans ?_, (h c).2.1, (h c).2.2⟩)
      (Cert.ReferenceIdeal.Value.run (F := Ideal) m' ρ')
    refine (Cert.ReferenceIdeal.RefValue.res_out0_eq (StableHlo.launchContents m' c)).trans ?_
    funext _
    exact ref_eq_kernel (hagree c).1 (hagree c).2 (Cert.KernelIdeal.Val.finite_of_pre m hpre c).1
      (Cert.KernelIdeal.Val.finite_of_pre m hpre c).2

end Cert.Proof

end
-- ==== Proof.lean ====
/-
  The certificate of the depth-tiled boundary loss.

  Both programs map a pair of arrays X, T of shape [4, 1, 128, 192, 192] to the scalar
      1 · (−B / 18874368) + (1 − (Σ over 13 directions of N_d / (D_d + 1e-5)) / 13),
  B the sum over all entries of T · log X + (1 − T) · log (1 − X), and N_d, D_d the sums, over the box where both shifted
  entries exist, of the product of the two arrays' shifted differences and of the square of T's.

  The reference takes every sum over the whole array. The kernel walks a grid of 4 batch entries × 8 depth tiles of 16
  planes; at each point it adds the tile's 27 partial sums to row 0 of an [8, 128] accumulator block that it resets at the
  first tile of a batch entry and writes back after the last; the host then adds the four batch entries' rows and forms the
  ratios. A direction that steps one plane forward also needs the plane after the tile, which the kernel fetches through
  a second window on the SAME array (so two windows share each argument array, each holding half of its share); at the
  last tile that plane does not exist and the boundary term is replaced by zero. Two of the reference's directions step a
  plane backward; they are the opposite forward directions with both differences negated, which changes no product —
  the one step that uses that the inputs are finite.

  The frames (each program runs to the end, faults nowhere, leaves its arguments unchanged): for the two kernel programs
  the body's run at a grid point in its two control cases, the accumulator's contents point by point, the launch of the
  one region with the shared arrays split among their windows and rejoined, and the host tail (Proof/Hand, once for any
  float instance; Proof/HandK is the same text under the word-level program's namespace); for the reference its
  operations' run. The value: each lane of a tile's statistics as a sum over natural coordinates (Proof/Val), the
  accumulator folded over the tiles and the batch, the depth axis re-bracketed into tiles and the two orders of the 13
  ratios (Proof/Spec), the reference's reductions as the same sums (Proof/Ref).
-/
import proofs.«408089_j31568009625984_3_alg».proof.Defs
import proofs.«408089_j31568009625984_3_alg».proof.Proof.Frames
import proofs.«408089_j31568009625984_3_alg».proof.Proof.Algebraic

noncomputable section

namespace Cert.Proof

/-- The five claims under the programs' stated facts: the two kernel frames, the reference's frame, the idealization
    (no operation was rewritten, so there is nothing to preserve), and the equality of the two idealized programs' results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
